-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S50000 : Shape := ⟨1, ![50000]⟩
abbrev S3x96x192 : Shape := ⟨3, ![3, 96, 192]⟩
abbrev S3x192 : Shape := ⟨2, ![3, 192]⟩
abbrev S3x192x96 : Shape := ⟨3, ![3, 192, 96]⟩
abbrev S3x96 : Shape := ⟨2, ![3, 96]⟩
abbrev S3 : Shape := ⟨1, ![3]⟩
abbrev S96x96 : Shape := ⟨2, ![96, 96]⟩
abbrev S96 : Shape := ⟨1, ![96]⟩
abbrev S96x1 : Shape := ⟨2, ![96, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S3x96x192 : S_.BroadcastsInDim S3x96x192 (![] : Fin 0 → Fin S3x96x192.rank)
  reducesTo_S3x96x192_S_d0_1_2 : S3x96x192.ReducesTo [0, 1, 2] S_
  bcast_S_S3x192 : S_.BroadcastsInDim S3x192 (![] : Fin 0 → Fin S3x192.rank)
  reducesTo_S3x192_S_d0_1 : S3x192.ReducesTo [0, 1] S_
  bcast_S_S3x192x96 : S_.BroadcastsInDim S3x192x96 (![] : Fin 0 → Fin S3x192x96.rank)
  reducesTo_S3x192x96_S_d0_1_2 : S3x192x96.ReducesTo [0, 1, 2] S_
  bcast_S_S3x96 : S_.BroadcastsInDim S3x96 (![] : Fin 0 → Fin S3x96.rank)
  reducesTo_S3x96_S_d0_1 : S3x96.ReducesTo [0, 1] S_
  bcast_S_S3 : S_.BroadcastsInDim S3 (![] : Fin 0 → Fin S3.rank)
  reducesTo_S3_S_d0 : S3.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 1 := constantI S_ 1 1#1
  let main_v53 : IVec S_ 1 := (fun x v => Host.reduce IntOp.andi x v reducesTo_S800000_S_d0 h_S_) main_v52 main_c_19
  let main_v54 : IVec S_ 1 := andi main_v48 main_v53
  main_v54

def fn_part2 {F : FTy → Type} [FloatOps F] (main_arg1 : IVec S2x800000 32) (main_arg9 : FVec F S96 .f32) (main_arg10 : FVec F S96x1 .f32) (main_arg11 : FVec F S1 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x1 .f32 := Host.absf main_arg10
  let main_cst_14 : FVec F S_ .f32 := constant S_ .f32 0x7F800000#32
  let main_v40 : FVec F S96x1 .f32 := broadcastInDim S96x1 ![] bcast_S_S96x1 main_cst_14
  let main_v41 : IVec S96x1 1 := cmpf .olt main_v39 main_v40
  let main_c_15 : IVec S_ 1 := constantI S_ 1 1#1
  let main_v42 : IVec S_ 1 := (fun x v => Host.reduce IntOp.andi x v reducesTo_S96x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S1x800000 32 := (extractStridedSlice S1x800000 ![1, 0] · slices_S2x800000_S1x800000_1_0) main_arg1
  let main_v50 : IVec S800000 32 := shapeCast S800000 main_v49 shapeCasts_S1x800000_S800000
  let main_c_18 : IVec S_ 32 := constantI S_ 32 0#32
  fn_part3 (F := F) main_v48 main_v50 main_c_18

def fn_part1 {F : FTy → Type} [FloatOps F] (main_arg1 : IVec S2x800000 32) (main_arg6 : FVec F S3x96 .f32) (main_arg7 : FVec F S3 .f32) (main_arg8 : FVec F S96x96 .f32) (main_arg9 : FVec F S96 .f32) (main_arg10 : FVec F S96x1 .f32) (main_arg11 : FVec F S1 .f32) (main_v13 : IVec S_ 1) (main_v16 : IVec S3x192x96 1) : IVec S_ 1 :=
  let main_c_5 : IVec S_ 1 := constantI S_ 1 1#1
  let main_v17 : IVec S_ 1 := (fun x v => Host.reduce IntOp.andi x v reducesTo_S3x192x96_S_d0_1_2 h_S_) main_v16 main_c_5
  let main_v18 : IVec S_ 1 := andi main_v13 main_v17
  let main_v19 : FVec F S3x96 .f32 := Host.absf main_arg6
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S3 .f32 := Host.absf main_arg7
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S96x96 .f32 := Host.absf main_arg8
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x96 .f32) (main_arg1 : IVec S2x800000 32) (main_arg2 : IVec S50000 32) (main_arg3 : FVec F S3x96x192 .f32) (main_arg4 : FVec F S3x192 .f32) (main_arg5 : FVec F S3x192x96 .f32) (main_arg6 : FVec F S3x96 .f32) (main_arg7 : FVec F S3 .f32) (main_arg8 : FVec F S96x96 .f32) (main_arg9 : FVec F S96 .f32) (main_arg10 : FVec F S96x1 .f32) (main_arg11 : FVec F S1 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S3x96x192 .f32 := Host.absf main_arg3
  let main_cst_0 : FVec F S_ .f32 := constant S_ .f32 0x7F800000#32
  let main_v5 : FVec F S3x96x192 .f32 := broadcastInDim S3x96x192 ![] bcast_S_S3x96x192 main_cst_0
  let main_v6 : IVec S3x96x192 1 := cmpf .olt main_v4 main_v5
  let main_c_1 : IVec S_ 1 := constantI S_ 1 1#1
  let main_v7 : IVec S_ 1 := (fun x v => Host.reduce IntOp.andi x v reducesTo_S3x96x192_S_d0_1_2 h_S_) main_v6 main_c_1
  let main_v8 : IVec S_ 1 := andi main_v3 main_v7
  let main_v9 : FVec F S3x192 .f32 := Host.absf main_arg4
  let main_cst_2 : FVec F S_ .f32 := constant S_ .f32 0x7F800000#32
  let main_v10 : FVec F S3x192 .f32 := broadcastInDim S3x192 ![] bcast_S_S3x192 main_cst_2
  let main_v11 : IVec S3x192 1 := cmpf .olt main_v9 main_v10
  let main_c_3 : IVec S_ 1 := constantI S_ 1 1#1
  let main_v12 : IVec S_ 1 := (fun x v => Host.reduce IntOp.andi x v reducesTo_S3x192_S_d0_1 h_S_) main_v11 main_c_3
  let main_v13 : IVec S_ 1 := andi main_v8 main_v12
  let main_v14 : FVec F S3x192x96 .f32 := Host.absf main_arg5
  let main_cst_4 : FVec F S_ .f32 := constant S_ .f32 0x7F800000#32
  let main_v15 : FVec F S3x192x96 .f32 := broadcastInDim S3x192x96 ![] bcast_S_S3x192x96 main_cst_4
  let main_v16 : IVec S3x192x96 1 := cmpf .olt main_v14 main_v15
  fn_part1 (F := F) main_arg1 main_arg6 main_arg7 main_arg8 main_arg9 main_arg10 main_arg11 main_v13 main_v16
-- ==== Kernel.lean ====
abbrev S50000x96 : Shape := ⟨2, ![50000, 96]⟩
abbrev S2x800000 : Shape := ⟨2, ![2, 800000]⟩
abbrev S50000 : Shape := ⟨1, ![50000]⟩
abbrev S3x96x192 : Shape := ⟨3, ![3, 96, 192]⟩
abbrev S3x192 : Shape := ⟨2, ![3, 192]⟩
abbrev S3x192x96 : Shape := ⟨3, ![3, 192, 96]⟩
abbrev S3x96 : Shape := ⟨2, ![3, 96]⟩
abbrev S3 : Shape := ⟨1, ![3]⟩
abbrev S96x96 : Shape := ⟨2, ![96, 96]⟩
abbrev S96 : Shape := ⟨1, ![96]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x96 : Shape := ⟨2, ![800000, 96]⟩
abbrev S1x96x192 : Shape := ⟨3, ![1, 96, 192]⟩
abbrev S96x192 : Shape := ⟨2, ![96, 192]⟩
abbrev S1x192 : Shape := ⟨2, ![1, 192]⟩
abbrev S192 : Shape := ⟨1, ![192]⟩
abbrev S1x192x96 : Shape := ⟨3, ![1, 192, 96]⟩
abbrev S192x96 : Shape := ⟨2, ![192, 96]⟩
abbrev S1x96 : Shape := ⟨2, ![1, 96]⟩
abbrev S5000x96 : Shape := ⟨2, ![5000, 96]⟩
abbrev S5000x192 : Shape := ⟨2, ![5000, 192]⟩
abbrev S1x1 : Shape := ⟨2, ![1, 1]⟩
abbrev S64x1 : Shape := ⟨2, ![64, 1]⟩
abbrev S2000x96 : Shape := ⟨2, ![2000, 96]⟩
abbrev S2000x1 : Shape := ⟨2, ![2000, 1]⟩
abbrev S64x96 : Shape := ⟨2, ![64, 96]⟩
abbrev S2000x192 : Shape := ⟨2, ![2000, 192]⟩
abbrev S2000x64 : Shape := ⟨2, ![2000, 64]⟩

abbrev nBuf : Space → Nat
  | .hbm => 130
  | .vmem => 30
  | .smem => 0
  | _ => 0

abbrev hbmTy0_0 (i : Nat) : BufTy := match i % 128 with
  | 0 => ⟨S50000x96, .f32⟩
  | 1 => ⟨S2x800000, .i32⟩
  | 2 => ⟨S50000, .i32⟩
  | 3 => ⟨S3x96x192, .f32⟩
  | 4 => ⟨S3x192, .f32⟩
  | 5 => ⟨S3x192x96, .f32⟩
  | 6 => ⟨S3x96, .f32⟩
  | 7 => ⟨S3, .f32⟩
  | 8 => ⟨S96x96, .f32⟩
  | 9 => ⟨S96, .f32⟩
  | 10 => ⟨S96x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x1, .i32⟩
  | 17 => ⟨S1, .f32⟩
  | 18 => ⟨S_, .f32⟩
  | 19 => ⟨S_, .f32⟩
  | 20 => ⟨S_, .f32⟩
  | 21 => ⟨S50000x96, .f32⟩
  | 22 => ⟨S50000x96, .f32⟩
  | 23 => ⟨S50000x96, .bf16⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x96, .bf16⟩
  | 33 => ⟨S800000x96, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S50000x96, .f32⟩
  | 43 => ⟨S1x96x192, .f32⟩
  | 44 => ⟨S96x192, .f32⟩
  | 45 => ⟨S1x192, .f32⟩
  | 46 => ⟨S192, .f32⟩
  | 47 => ⟨S1x192, .f32⟩
  | 48 => ⟨S1x192x96, .f32⟩
  | 49 => ⟨S192x96, .f32⟩
  | 50 => ⟨S1x96, .f32⟩
  | 51 => ⟨S96, .f32⟩
  | 52 => ⟨S1x96, .f32⟩
  | 53 => ⟨S50000x96, .f32⟩
  | 54 => ⟨S1, .f32⟩
  | 55 => ⟨S_, .f32⟩
  | 56 => ⟨S_, .f32⟩
  | 57 => ⟨S_, .f32⟩
  | 58 => ⟨S50000x96, .f32⟩
  | 59 => ⟨S50000x96, .f32⟩
  | 60 => ⟨S50000x96, .bf16⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x96, .bf16⟩
  | 70 => ⟨S800000x96, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S50000x96, .f32⟩
  | 80 => ⟨S1x96x192, .f32⟩
  | 81 => ⟨S96x192, .f32⟩
  | 82 => ⟨S1x192, .f32⟩
  | 83 => ⟨S192, .f32⟩
  | 84 => ⟨S1x192, .f32⟩
  | 85 => ⟨S1x192x96, .f32⟩
  | 86 => ⟨S192x96, .f32⟩
  | 87 => ⟨S1x96, .f32⟩
  | 88 => ⟨S96, .f32⟩
  | 89 => ⟨S1x96, .f32⟩
  | 90 => ⟨S50000x96, .f32⟩
  | 91 => ⟨S1, .f32⟩
  | 92 => ⟨S_, .f32⟩
  | 93 => ⟨S_, .f32⟩
  | 94 => ⟨S_, .f32⟩
  | 95 => ⟨S50000x96, .f32⟩
  | 96 => ⟨S50000x96, .f32⟩
  | 97 => ⟨S50000x96, .bf16⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x96, .bf16⟩
  | 107 => ⟨S800000x96, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S50000x96, .f32⟩
  | 117 => ⟨S1x96x192, .f32⟩
  | 118 => ⟨S96x192, .f32⟩
  | 119 => ⟨S1x192, .f32⟩
  | 120 => ⟨S192, .f32⟩
  | 121 => ⟨S1x192, .f32⟩
  | 122 => ⟨S1x192x96, .f32⟩
  | 123 => ⟨S192x96, .f32⟩
  | 124 => ⟨S1x96, .f32⟩
  | 125 => ⟨S96, .f32⟩
  | 126 => ⟨S1x96, .f32⟩
  | 127 => ⟨S1x96, .f32⟩
  | _ => ⟨S50000x96, .f32⟩

abbrev hbmTy0_1 (i : Nat) : BufTy := match i % 128 with
  | 0 => ⟨S1x1, .f32⟩
  | 1 => ⟨S64x1, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x192, .f32⟩
  | .local _ .vmem, ⟨3, _⟩ => ⟨S1x192, .f32⟩
  | .local _ .vmem, ⟨4, _⟩ => ⟨S192x96, .f32⟩
  | .local _ .vmem, ⟨5, _⟩ => ⟨S1x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S96x192, .f32⟩
  | .local _ .vmem, ⟨11, _⟩ => ⟨S1x192, .f32⟩
  | .local _ .vmem, ⟨12, _⟩ => ⟨S192x96, .f32⟩
  | .local _ .vmem, ⟨13, _⟩ => ⟨S1x96, .f32⟩
  | .local _ .vmem, ⟨14, _⟩ => ⟨S5000x96, .f32⟩
  | .local _ .vmem, ⟨15, _⟩ => ⟨S5000x96, .f32⟩
  | .local _ .vmem, ⟨16, _⟩ => ⟨S2000x96, .f32⟩
  | .local _ .vmem, ⟨17, _⟩ => ⟨S2000x96, .f32⟩
  | .local _ .vmem, ⟨18, _⟩ => ⟨S2000x1, .i32⟩
  | .local _ .vmem, ⟨19, _⟩ => ⟨S2000x1, .i32⟩
  | .local _ .vmem, ⟨20, _⟩ => ⟨S96x192, .f32⟩
  | .local _ .vmem, ⟨21, _⟩ => ⟨S1x192, .f32⟩
  | .local _ .vmem, ⟨22, _⟩ => ⟨S192x96, .f32⟩
  | .local _ .vmem, ⟨23, _⟩ => ⟨S1x96, .f32⟩
  | .local _ .vmem, ⟨24, _⟩ => ⟨S96x96, .f32⟩
  | .local _ .vmem, ⟨25, _⟩ => ⟨S1x96, .f32⟩
  | .local _ .vmem, ⟨26, _⟩ => ⟨S96x1, .f32⟩
  | .local _ .vmem, ⟨27, _⟩ => ⟨S1x1, .f32⟩
  | .local _ .vmem, ⟨28, _⟩ => ⟨S64x1, .f32⟩
  | .local _ .vmem, ⟨29, _⟩ => ⟨S64x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_4 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_6 : Ref sig .tc := ⟨.hbm, 71, rfl⟩
abbrev main_v51 : Ref sig .tc := ⟨.hbm, 72, rfl⟩
abbrev main_v52 : Ref sig .tc := ⟨.hbm, 73, rfl⟩
abbrev main_c_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_8 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_9 : Ref sig .tc := ⟨.hbm, 98, rfl⟩
abbrev main_v75 : Ref sig .tc := ⟨.hbm, 99, rfl⟩
abbrev main_v76 : Ref sig .tc := ⟨.hbm, 100, rfl⟩
abbrev main_c_10 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_11 : Ref sig .tc := ⟨.hbm, 108, rfl⟩
abbrev main_v83 : Ref sig .tc := ⟨.hbm, 109, rfl⟩
abbrev main_v84 : Ref sig .tc := ⟨.hbm, 110, rfl⟩
abbrev main_c_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v40 : BitVec 1 := Scalar.cmpi .eq arg0 c24_i32
  let v41 : BitVec 32 := Scalar.extui v40
  let c0_i32_20 : BitVec 32 := 0#32
  let v42 : BitVec 1 := Scalar.cmpi .ne v41 c0_i32_20
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S192x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S96x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x96 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S96x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  slices_S3_S1_0 : S3.Slices ![0] S1
  shapeCasts_S1_S_ : S1.ShapeCasts S_
  bcast_S_S50000x96 : S_.BroadcastsInDim S50000x96 (![] : Fin 0 → Fin S50000x96.rank)
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S3x96x192_S1x96x192_0_0_0 : S3x96x192.Slices ![0, 0, 0] S1x96x192
  shapeCasts_S1x96x192_S96x192 : S1x96x192.ShapeCasts S96x192
  slices_S3x192_S1x192_0_0 : S3x192.Slices ![0, 0] S1x192
  shapeCasts_S1x192_S192 : S1x192.ShapeCasts S192
  shapeCasts_S192_S1x192 : S192.ShapeCasts S1x192
  slices_S3x192x96_S1x192x96_0_0_0 : S3x192x96.Slices ![0, 0, 0] S1x192x96
  shapeCasts_S1x192x96_S192x96 : S1x192x96.ShapeCasts S192x96
  slices_S3x96_S1x96_0_0 : S3x96.Slices ![0, 0] S1x96
  shapeCasts_S1x96_S96 : S1x96.ShapeCasts S96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x192_S96x192_0_0 : ∀ a, (![0, 0] : Fin 2 → Nat) a + S96x192.size a ≤ S96x192.size a
  h_S96x192 : 0 < S96x192.numel
  shapeCasts_S96x192_S96x192 : S96x192.ShapeCasts S96x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S192x96_S192x96_0_0 : ∀ a, (![0, 0] : Fin 2 → Nat) a + S192x96.size a ≤ S192x96.size a
  h_S192x96 : 0 < S192x96.numel
  shapeCasts_S192x96_S192x96 : S192x96.ShapeCasts S192x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S3_S1_1 : S3.Slices ![1] S1
  slices_S3x96x192_S1x96x192_1_0_0 : S3x96x192.Slices ![1, 0, 0] S1x96x192
  slices_S3x192_S1x192_1_0 : S3x192.Slices ![1, 0] S1x192
  slices_S3x192x96_S1x192x96_1_0_0 : S3x192x96.Slices ![1, 0, 0] S1x192x96
  slices_S3x96_S1x96_1_0 : S3x96.Slices ![1, 0] S1x96
  slices_S3_S1_2 : S3.Slices ![2] S1
  slices_S3x96x192_S1x96x192_2_0_0 : S3x96x192.Slices ![2, 0, 0] S1x96x192
  slices_S3x192_S1x192_2_0 : S3x192.Slices ![2, 0] S1x192
  slices_S3x192x96_S1x192x96_2_0_0 : S3x192x96.Slices ![2, 0, 0] S1x192x96
  slices_S3x96_S1x96_2_0 : S3x96.Slices ![2, 0] S1x96
  shapeCasts_S1_S1x1 : S1.ShapeCasts S1x1
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  broadcasts_S1x192_S2000x192 : S1x192.Broadcasts S2000x192
  broadcasts_S1x96_S2000x96 : S1x96.Broadcasts S2000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  inb_S96x96_S96x96_0_0 : ∀ a, (![0, 0] : Fin 2 → Nat) a + S96x96.size a ≤ S96x96.size a
  h_S96x96 : 0 < S96x96.numel
  broadcasts_S1x96_S64x96 : S1x96.Broadcasts S64x96
  inb_S96x1_S96x1_0_0 : ∀ a, (![0, 0] : Fin 2 → Nat) a + S96x1.size a ≤ S96x1.size a
  h_S96x1 : 0 < S96x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x192_S5000x192_1_0_0_1_n_n_wf : DotDims.WF S5000x96 S96x192 S5000x192 [1] [0] [0] [1] [] []
  dot_S5000x192_S192x96_S5000x96_1_0_0_1_n_n_wf : DotDims.WF S5000x192 S192x96 S5000x96 [1] [0] [0] [1] [] []
  dot_S2000x96_S96x192_S2000x192_1_0_0_1_n_n_wf : DotDims.WF S2000x96 S96x192 S2000x192 [1] [0] [0] [1] [] []
  dot_S2000x192_S192x96_S2000x96_1_0_0_1_n_n_wf : DotDims.WF S2000x192 S192x96 S2000x96 [1] [0] [0] [1] [] []
  dot_S2000x64_S2000x96_S64x96_0_0_1_1_n_n_wf : DotDims.WF S2000x64 S2000x96 S64x96 [0] [0] [1] [1] [] []
  dot_S64x96_S96x96_S64x96_1_0_0_1_n_n_wf : DotDims.WF S64x96 S96x96 S64x96 [1] [0] [0] [1] [] []
  dot_S64x96_S96x1_S64x1_1_0_0_1_n_n_wf : DotDims.WF S64x96 S96x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x192.size a ≤ S96x192.size a
  hwx0_1 : ∀ i : grid0.Coords, EltTy.bits .f32 = 32 ∨ (Rect.block (s := S96x192) S96x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x96.size a ≤ S192x96.size a
  hwx0_3 : ∀ i : grid0.Coords, EltTy.bits .f32 = 32 ∨ (Rect.block (s := S192x96) S192x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x192.size a ≤ S96x192.size a
  hwx1_1 : ∀ i : grid1.Coords, EltTy.bits .f32 = 32 ∨ (Rect.block (s := S96x192) S96x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x96.size a ≤ S192x96.size a
  hwx1_3 : ∀ i : grid1.Coords, EltTy.bits .f32 = 32 ∨ (Rect.block (s := S192x96) S192x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .i32 = 32 ∨ (Rect.block (s := S50000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x192.size a ≤ S96x192.size a
  hwx2_2 : ∀ i : grid2.Coords, EltTy.bits .f32 = 32 ∨ (Rect.block (s := S96x192) S96x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x192.size a ≤ S1x192.size a
  hwx2_3 : ∀ i : grid2.Coords, EltTy.bits .f32 = 32 ∨ (Rect.block (s := S1x192) S1x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S192x96.size a ≤ S192x96.size a
  hwx2_4 : ∀ i : grid2.Coords, EltTy.bits .f32 = 32 ∨ (Rect.block (s := S192x96) S192x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x96.size a ≤ S1x96.size a
  hwx2_5 : ∀ i : grid2.Coords, EltTy.bits .f32 = 32 ∨ (Rect.block (s := S1x96) S1x96.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S96x96.size a ≤ S96x96.size a
  hwx2_6 : ∀ i : grid2.Coords, EltTy.bits .f32 = 32 ∨ (Rect.block (s := S96x96) S96x96.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x96.size a ≤ S1x96.size a
  hwx2_7 : ∀ i : grid2.Coords, EltTy.bits .f32 = 32 ∨ (Rect.block (s := S1x96) S1x96.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S96x1.size a ≤ S96x1.size a
  hwx2_8 : ∀ i : grid2.Coords, EltTy.bits .f32 = 32 ∨ (Rect.block (s := S96x1) S96x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x1.size a ≤ S64x1.size a
  hwx2_10 : ∀ i : grid2.Coords, EltTy.bits .f32 = 32 ∨ (Rect.block (s := S64x1) S64x1.size (cc2_transform_10 i) (hinb2_10 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x192_S5000x192_1_0_0_1_n_n : DotDims S5000x96 S96x192 S5000x192 where
  lhsContracting := [1]
  rhsContracting := [0]
  lhsNonContracting := [0]
  rhsNonContracting := [1]
  lhsBatch := []
  rhsBatch := []
  wf := dot_S5000x96_S96x192_S5000x192_1_0_0_1_n_n_wf
def dot_S5000x192_S192x96_S5000x96_1_0_0_1_n_n : DotDims S5000x192 S192x96 S5000x96 where
  lhsContracting := [1]
  rhsContracting := [0]
  lhsNonContracting := [0]
  rhsNonContracting := [1]
  lhsBatch := []
  rhsBatch := []
  wf := dot_S5000x192_S192x96_S5000x96_1_0_0_1_n_n_wf
def dot_S2000x96_S96x192_S2000x192_1_0_0_1_n_n : DotDims S2000x96 S96x192 S2000x192 where
  lhsContracting := [1]
  rhsContracting := [0]
  lhsNonContracting := [0]
  rhsNonContracting := [1]
  lhsBatch := []
  rhsBatch := []
  wf := dot_S2000x96_S96x192_S2000x192_1_0_0_1_n_n_wf
def dot_S2000x192_S192x96_S2000x96_1_0_0_1_n_n : DotDims S2000x192 S192x96 S2000x96 where
  lhsContracting := [1]
  rhsContracting := [0]
  lhsNonContracting := [0]
  rhsNonContracting := [1]
  lhsBatch := []
  rhsBatch := []
  wf := dot_S2000x192_S192x96_S2000x96_1_0_0_1_n_n_wf
def dot_S2000x64_S2000x96_S64x96_0_0_1_1_n_n : DotDims S2000x64 S2000x96 S64x96 where
  lhsContracting := [0]
  rhsContracting := [0]
  lhsNonContracting := [1]
  rhsNonContracting := [1]
  lhsBatch := []
  rhsBatch := []
  wf := dot_S2000x64_S2000x96_S64x96_0_0_1_1_n_n_wf
def dot_S64x96_S96x96_S64x96_1_0_0_1_n_n : DotDims S64x96 S96x96 S64x96 where
  lhsContracting := [1]
  rhsContracting := [0]
  lhsNonContracting := [0]
  rhsNonContracting := [1]
  lhsBatch := []
  rhsBatch := []
  wf := dot_S64x96_S96x96_S64x96_1_0_0_1_n_n_wf
def dot_S64x96_S96x1_S64x1_1_0_0_1_n_n : DotDims S64x96 S96x1 S64x1 where
  lhsContracting := [1]
  rhsContracting := [0]
  lhsNonContracting := [0]
  rhsNonContracting := [1]
  lhsBatch := []
  rhsBatch := []
  wf := dot_S64x96_S96x1_S64x1_1_0_0_1_n_n_wf

abbrev win0_0 : Pipeline.Window sig grid0 :=
  Pipeline.Window.ofSpec (Memref.whole main_v25) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S96x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S192x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v57) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S96x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S192x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v89) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v91) S96x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v94) S1x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S192x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v99) S1x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S96x96.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v100) S1x96.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S96x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v101) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v102) S64x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond2 i == 1#1) | ⟨_ + 11, h⟩ => absurd h (Nat.not_lt.2 (Nat.le_add_left _ _))

class Facts : Prop extends Facts₀ where

variable [Facts]
-- ==== ReferenceIdeal.lean ====
abbrev S50000x96 : Shape := ⟨2, ![50000, 96]⟩
abbrev S2x800000 : Shape := ⟨2, ![2, 800000]⟩
abbrev S50000 : Shape := ⟨1, ![50000]⟩
abbrev S3x96x192 : Shape := ⟨3, ![3, 96, 192]⟩
abbrev S3x192 : Shape := ⟨2, ![3, 192]⟩
abbrev S3x192x96 : Shape := ⟨3, ![3, 192, 96]⟩
abbrev S3x96 : Shape := ⟨2, ![3, 96]⟩
abbrev S3 : Shape := ⟨1, ![3]⟩
abbrev S96x96 : Shape := ⟨2, ![96, 96]⟩
abbrev S96 : Shape := ⟨1, ![96]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96x192 : Shape := ⟨3, ![1, 96, 192]⟩
abbrev S96x192 : Shape := ⟨2, ![96, 192]⟩
abbrev S50000x192 : Shape := ⟨2, ![50000, 192]⟩
abbrev S1x192 : Shape := ⟨2, ![1, 192]⟩
abbrev S192 : Shape := ⟨1, ![192]⟩
abbrev S1x192x96 : Shape := ⟨3, ![1, 192, 96]⟩
abbrev S192x96 : Shape := ⟨2, ![192, 96]⟩
abbrev S1x96 : Shape := ⟨2, ![1, 96]⟩
abbrev S64x96 : Shape := ⟨2, ![64, 96]⟩
abbrev S50000x1 : Shape := ⟨2, ![50000, 1]⟩
abbrev S64x1 : Shape := ⟨2, ![64, 1]⟩
abbrev S1x1 : Shape := ⟨2, ![1, 1]⟩

abbrev nBuf : Space → Nat
  | .hbm => 157
  | .vmem => 0
  | .smem => 0
  | _ => 0

abbrev hbmTy0_0 (i : Nat) : BufTy := match i % 128 with
  | 0 => ⟨S50000x96, .f32⟩
  | 1 => ⟨S2x800000, .i32⟩
  | 2 => ⟨S50000, .i32⟩
  | 3 => ⟨S3x96x192, .f32⟩
  | 4 => ⟨S3x192, .f32⟩
  | 5 => ⟨S3x192x96, .f32⟩
  | 6 => ⟨S3x96, .f32⟩
  | 7 => ⟨S3, .f32⟩
  | 8 => ⟨S96x96, .f32⟩
  | 9 => ⟨S96, .f32⟩
  | 10 => ⟨S96x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x96, .f32⟩
  | 25 => ⟨S_, .f32⟩
  | 26 => ⟨S50000x96, .f32⟩
  | 27 => ⟨S800000x1, .i32⟩
  | 28 => ⟨S50000x96, .f32⟩
  | 29 => ⟨S1, .f32⟩
  | 30 => ⟨S_, .f32⟩
  | 31 => ⟨S_, .f32⟩
  | 32 => ⟨S_, .f32⟩
  | 33 => ⟨S50000x96, .f32⟩
  | 34 => ⟨S50000x96, .f32⟩
  | 35 => ⟨S50000x96, .f32⟩
  | 36 => ⟨S1x96x192, .f32⟩
  | 37 => ⟨S96x192, .f32⟩
  | 38 => ⟨S50000x192, .f32⟩
  | 39 => ⟨S1x192, .f32⟩
  | 40 => ⟨S192, .f32⟩
  | 41 => ⟨S1x192, .f32⟩
  | 42 => ⟨S50000x192, .f32⟩
  | 43 => ⟨S50000x192, .f32⟩
  | 44 => ⟨S_, .f32⟩
  | 45 => ⟨S50000x192, .f32⟩
  | 46 => ⟨S50000x192, .f32⟩
  | 47 => ⟨S1x192x96, .f32⟩
  | 48 => ⟨S192x96, .f32⟩
  | 49 => ⟨S50000x96, .f32⟩
  | 50 => ⟨S1x96, .f32⟩
  | 51 => ⟨S96, .f32⟩
  | 52 => ⟨S1x96, .f32⟩
  | 53 => ⟨S50000x96, .f32⟩
  | 54 => ⟨S50000x96, .f32⟩
  | 55 => ⟨S_, .f32⟩
  | 56 => ⟨S50000x96, .f32⟩
  | 57 => ⟨S50000x96, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x96, .f32⟩
  | 67 => ⟨S_, .f32⟩
  | 68 => ⟨S50000x96, .f32⟩
  | 69 => ⟨S800000x1, .i32⟩
  | 70 => ⟨S50000x96, .f32⟩
  | 71 => ⟨S1, .f32⟩
  | 72 => ⟨S_, .f32⟩
  | 73 => ⟨S_, .f32⟩
  | 74 => ⟨S_, .f32⟩
  | 75 => ⟨S50000x96, .f32⟩
  | 76 => ⟨S50000x96, .f32⟩
  | 77 => ⟨S50000x96, .f32⟩
  | 78 => ⟨S1x96x192, .f32⟩
  | 79 => ⟨S96x192, .f32⟩
  | 80 => ⟨S50000x192, .f32⟩
  | 81 => ⟨S1x192, .f32⟩
  | 82 => ⟨S192, .f32⟩
  | 83 => ⟨S1x192, .f32⟩
  | 84 => ⟨S50000x192, .f32⟩
  | 85 => ⟨S50000x192, .f32⟩
  | 86 => ⟨S_, .f32⟩
  | 87 => ⟨S50000x192, .f32⟩
  | 88 => ⟨S50000x192, .f32⟩
  | 89 => ⟨S1x192x96, .f32⟩
  | 90 => ⟨S192x96, .f32⟩
  | 91 => ⟨S50000x96, .f32⟩
  | 92 => ⟨S1x96, .f32⟩
  | 93 => ⟨S96, .f32⟩
  | 94 => ⟨S1x96, .f32⟩
  | 95 => ⟨S50000x96, .f32⟩
  | 96 => ⟨S50000x96, .f32⟩
  | 97 => ⟨S_, .f32⟩
  | 98 => ⟨S50000x96, .f32⟩
  | 99 => ⟨S50000x96, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x96, .f32⟩
  | 109 => ⟨S_, .f32⟩
  | 110 => ⟨S50000x96, .f32⟩
  | 111 => ⟨S800000x1, .i32⟩
  | 112 => ⟨S50000x96, .f32⟩
  | 113 => ⟨S1, .f32⟩
  | 114 => ⟨S_, .f32⟩
  | 115 => ⟨S_, .f32⟩
  | 116 => ⟨S_, .f32⟩
  | 117 => ⟨S50000x96, .f32⟩
  | 118 => ⟨S50000x96, .f32⟩
  | 119 => ⟨S50000x96, .f32⟩
  | 120 => ⟨S1x96x192, .f32⟩
  | 121 => ⟨S96x192, .f32⟩
  | 122 => ⟨S50000x192, .f32⟩
  | 123 => ⟨S1x192, .f32⟩
  | 124 => ⟨S192, .f32⟩
  | 125 => ⟨S1x192, .f32⟩
  | 126 => ⟨S50000x192, .f32⟩
  | 127 => ⟨S50000x192, .f32⟩
  | _ => ⟨S50000x96, .f32⟩

abbrev hbmTy0_1 (i : Nat) : BufTy := match i % 128 with
  | 0 => ⟨S_, .f32⟩
  | 1 => ⟨S50000x192, .f32⟩
  | 2 => ⟨S50000x192, .f32⟩
  | 3 => ⟨S1x192x96, .f32⟩
  | 4 => ⟨S192x96, .f32⟩
  | 5 => ⟨S50000x96, .f32⟩
  | 6 => ⟨S1x96, .f32⟩
  | 7 => ⟨S96, .f32⟩
  | 8 => ⟨S1x96, .f32⟩
  | 9 => ⟨S50000x96, .f32⟩
  | 10 => ⟨S50000x96, .f32⟩
  | 11 => ⟨S_, .f32⟩
  | 12 => ⟨S50000x96, .f32⟩
  | 13 => ⟨S50000x96, .f32⟩
  | 14 => ⟨S_, .f32⟩
  | 15 => ⟨S64x96, .f32⟩
  | 16 => ⟨S50000x1, .i32⟩
  | 17 => ⟨S64x96, .f32⟩
  | 18 => ⟨S64x96, .f32⟩
  | 19 => ⟨S1x96, .f32⟩
  | 20 => ⟨S64x96, .f32⟩
  | 21 => ⟨S64x96, .f32⟩
  | 22 => ⟨S_, .f32⟩
  | 23 => ⟨S64x96, .f32⟩
  | 24 => ⟨S64x96, .f32⟩
  | 25 => ⟨S64x1, .f32⟩
  | 26 => ⟨S1x1, .f32⟩
  | 27 => ⟨S64x1, .f32⟩
  | 28 => ⟨S64x1, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_c_2 : Ref sig .tc := ⟨.hbm, 58, rfl⟩
abbrev main_v38 : Ref sig .tc := ⟨.hbm, 59, rfl⟩
abbrev main_v39 : Ref sig .tc := ⟨.hbm, 60, rfl⟩
abbrev main_c_3 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call2_cst : Ref sig .tc := ⟨.hbm, 86, rfl⟩
abbrev main_call2_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call3_cst : Ref sig .tc := ⟨.hbm, 97, rfl⟩
abbrev main_call3_v0 : Ref sig .tc := ⟨.hbm, 98, rfl⟩
abbrev main_v71 : Ref sig .tc := ⟨.hbm, 99, rfl⟩
abbrev main_c_6 : Ref sig .tc := ⟨.hbm, 100, rfl⟩
abbrev main_v72 : Ref sig .tc := ⟨.hbm, 101, rfl⟩
abbrev main_v73 : Ref sig .tc := ⟨.hbm, 102, rfl⟩
abbrev main_c_7 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_8 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_9 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_call4_cst : Ref sig .tc := ⟨.hbm, 128, rfl⟩
abbrev main_call4_v0 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_call5_cst : Ref sig .tc := ⟨.hbm, 139, rfl⟩
abbrev main_call5_v0 : Ref sig .tc := ⟨.hbm, 140, rfl⟩
abbrev main_v105 : Ref sig .tc := ⟨.hbm, 141, rfl⟩
abbrev main_cst_10 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_call6_cst : Ref sig .tc := ⟨.hbm, 150, rfl⟩
abbrev main_call6_v0 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3_S1_0 : S3.Slices ![0] S1
  shapeCasts_S1_S_ : S1.ShapeCasts S_
  slices_S3x96x192_S1x96x192_0_0_0 : S3x96x192.Slices ![0, 0, 0] S1x96x192
  shapeCasts_S1x96x192_S96x192 : S1x96x192.ShapeCasts S96x192
  slices_S3x192_S1x192_0_0 : S3x192.Slices ![0, 0] S1x192
  shapeCasts_S1x192_S192 : S1x192.ShapeCasts S192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S_S50000x192 : S_.BroadcastsInDim S50000x192 (![] : Fin 0 → Fin S50000x192.rank)
  slices_S3x192x96_S1x192x96_0_0_0 : S3x192x96.Slices ![0, 0, 0] S1x192x96
  shapeCasts_S1x192x96_S192x96 : S1x192x96.ShapeCasts S192x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S3_S1_1 : S3.Slices ![1] S1
  slices_S3x96x192_S1x96x192_1_0_0 : S3x96x192.Slices ![1, 0, 0] S1x96x192
  slices_S3x192_S1x192_1_0 : S3x192.Slices ![1, 0] S1x192
  slices_S3x192x96_S1x192x96_1_0_0 : S3x192x96.Slices ![1, 0, 0] S1x192x96
  slices_S3x96_S1x96_1_0 : S3x96.Slices ![1, 0] S1x96
  slices_S3_S1_2 : S3.Slices ![2] S1
  slices_S3x96x192_S1x96x192_2_0_0 : S3x96x192.Slices ![2, 0, 0] S1x96x192
  slices_S3x192_S1x192_2_0 : S3x192.Slices ![2, 0] S1x192
  slices_S3x192x96_S1x192x96_2_0_0 : S3x192x96.Slices ![2, 0, 0] S1x192x96
  slices_S3x96_S1x96_2_0 : S3x96.Slices ![2, 0] S1x96
  bcast_S_S64x96 : S_.BroadcastsInDim S64x96 (![] : Fin 0 → Fin S64x96.rank)
  bcast_S50000_S50000x1_0 : S50000.BroadcastsInDim S50000x1 (![0] : Fin 1 → Fin S50000x1.rank)
  bcast_S1x96_S64x96_0_1 : S1x96.BroadcastsInDim S64x96 (![0, 1] : Fin 2 → Fin S64x96.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x192_S50000x192_1_0_0_1_n_n_wf : DotDims.WF S50000x96 S96x192 S50000x192 [1] [0] [0] [1] [] []
  dot_S50000x192_S192x96_S50000x96_1_0_0_1_n_n_wf : DotDims.WF S50000x192 S192x96 S50000x96 [1] [0] [0] [1] [] []
  scatter_S64x96_S50000x1_S50000x96_1_0_0_1_wf : ScatterDims.WF S64x96 S50000x1 S50000x96 [1] [0] [0] 1
  dot_S64x96_S96x96_S64x96_1_0_0_1_n_n_wf : DotDims.WF S64x96 S96x96 S64x96 [1] [0] [0] [1] [] []
  dot_S64x96_S96x1_S64x1_1_0_0_1_n_n_wf : DotDims.WF S64x96 S96x1 S64x1 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x192_S50000x192_1_0_0_1_n_n : DotDims S50000x96 S96x192 S50000x192 where
  lhsContracting := [1]
  rhsContracting := [0]
  lhsNonContracting := [0]
  rhsNonContracting := [1]
  lhsBatch := []
  rhsBatch := []
  wf := dot_S50000x96_S96x192_S50000x192_1_0_0_1_n_n_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def dot_S64x96_S96x96_S64x96_1_0_0_1_n_n : DotDims S64x96 S96x96 S64x96 where
  lhsContracting := [1]
  rhsContracting := [0]
  lhsNonContracting := [0]
  rhsNonContracting := [1]
  lhsBatch := []
  rhsBatch := []
  wf := dot_S64x96_S96x96_S64x96_1_0_0_1_n_n_wf
def dot_S64x96_S96x1_S64x1_1_0_0_1_n_n : DotDims S64x96 S96x1 S64x1 where
  lhsContracting := [1]
  rhsContracting := [0]
  lhsNonContracting := [0]
  rhsNonContracting := [1]
  lhsBatch := []
  rhsBatch := []
  wf := dot_S64x96_S96x1_S64x1_1_0_0_1_n_n_wf

class Facts : Prop extends Facts₀ where

variable [Facts]
-- ==== Proof.K.R0.lean ====
import proofs.«420259_j2267742732765_3_alg».proof.Proof.Gen.Kernel.Launch
import proofs.«420259_j2267742732765_3_alg».proof.Proof.Gen.Kernel.Skeleton
import proofs.«420259_j2267742732765_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The inputs' staging buffers hold their blocks -/

/-- Window 0 (the row block) is an input the body only reads: whatever proof data has the region's array for it and
    leaves its block in place finds the block in the current staging buffer at every grid point. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- Window 1 (the first layer's weights) is an input the body only reads: whatever proof data has the region's array for it and
    leaves its block in place finds the block in the current staging buffer at every grid point, also at the points
    after the first, where nothing is fetched and the block index has not moved. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

/-- Window 2 (the first layer's bias) is an input the body only reads: whatever proof data has the region's array for it and
    leaves its block in place finds the block in the current staging buffer at every grid point, also at the points
    after the first, where nothing is fetched and the block index has not moved. -/
theorem held0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

/-- Window 3 (the second layer's weights) is an input the body only reads: whatever proof data has the region's array for it and
    leaves its block in place finds the block in the current staging buffer at every grid point, also at the points
    after the first, where nothing is fetched and the block index has not moved. -/
theorem held0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  rw [dat.before_in_eq_fetched 3 rfl (fun _ => rfl) (fun _ _ _ => rfl) hkeep t d]
  unfold Dat.fetched Dat.blockOf iblk0; rw [hA]; try rfl

/-- Window 4 (the second layer's bias) is an input the body only reads: whatever proof data has the region's array for it and
    leaves its block in place finds the block in the current staging buffer at every grid point, also at the points
    after the first, where nothing is fetched and the block index has not moved. -/
theorem held0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  have hkeep : ∀ t, (cfg0.win 4).cut (cfg0.grid.coords t) (dat.after 4 t) = dat.blockOf 4 t := fun t => by
    rw [hafter]; unfold Dat.blockOf iblk0; rw [hA]; try rfl
  rw [dat.before_in_eq_fetched 4 rfl (fun _ => rfl) (fun _ _ _ => rfl) hkeep t d]
  unfold Dat.fetched Dat.blockOf iblk0; rw [hA]; try rfl

/-! ## The body's accesses: every load and the one store go through the whole buffer -/

/-- Both offsets of every access are zero. -/
theorem zeros0 : (![0, 0] : Fin 2 → Nat) = fun _ => 0 := funext fun a => by fin_cases a <;> rfl

abbrev r0_x : Rect S5000x96 := Rect.unit (s := S5000x96) ![0, 0] S5000x96.size inb_S5000x96_S5000x96_0_0
abbrev r0_W1 : Rect S96x192 := Rect.unit (s := S96x192) ![0, 0] S96x192.size inb_S96x192_S96x192_0_0
abbrev r0_b1 : Rect S1x192 := Rect.unit (s := S1x192) ![0, 0] S1x192.size inb_S1x192_S1x192_0_0
abbrev r0_W2 : Rect S192x96 := Rect.unit (s := S192x96) ![0, 0] S192x96.size inb_S192x96_S192x96_0_0
abbrev r0_b2 : Rect S1x96 := Rect.unit (s := S1x96) ![0, 0] S1x96.size inb_S1x96_S1x96_0_0

/-- What the body's one store leaves in the result's staging buffer, as the store's piece over what the five loads read. -/
def out0_5 (x0 : Vec F S5000x96 .f32) (x1 : Vec F S96x192 .f32) (x2 : Vec F S1x192 .f32) (x3 : Vec F S192x96 .f32) (x4 : Vec F S1x96 .f32) :
    Vec F S5000x96 .f32 :=
  View.canon [⟨r0_x, k0_pay1 (View.ld x0 r0_x) (View.ld x1 r0_W1) (View.ld x2 r0_b1) (View.ld x3 r0_W2) (View.ld x4 r0_b2)⟩]

/-- Every access being of the whole buffer, that is the perceptron of the five buffers themselves. -/
theorem out0_5_eq (x0 : Vec F S5000x96 .f32) (x1 : Vec F S96x192 .f32) (x2 : Vec F S1x192 .f32) (x3 : Vec F S192x96 .f32) (x4 : Vec F S1x96 .f32) :
    out0_5 x0 x1 x2 x3 x4 = k0_pay1 x0 x1 x2 x3 x4 := by
  unfold out0_5
  rw [View.canon_unit_zero (S := S5000x96) zeros0 inb_S5000x96_S5000x96_0_0,
    View.ld_unit_zero (S := S5000x96) zeros0 inb_S5000x96_S5000x96_0_0 x0,
    View.ld_unit_zero (S := S96x192) zeros0 inb_S96x192_S96x192_0_0 x1,
    View.ld_unit_zero (S := S1x192) zeros0 inb_S1x192_S1x192_0_0 x2,
    View.ld_unit_zero (S := S192x96) zeros0 inb_S192x96_S192x96_0_0 x3,
    View.ld_unit_zero (S := S1x96) zeros0 inb_S1x96_S1x96_0_0 x4]

/-- The store is of the whole result buffer, so it covers it. -/
theorem cover0_5 (p : Vec F S5000x96 .f32) (y : S5000x96.Idx) :
    ∃ pc ∈ ([⟨r0_x, p⟩] : List (View.Piece (Elt F) S5000x96 .f32)), y ∈ pc.1.set :=
  ⟨_, List.mem_singleton_self _, View.mem_set_unit_zero (S := S5000x96) zeros0 inb_S5000x96_S5000x96_0_0 y⟩

/-! ## The body's triple -/

set_option maxHeartbeats 1000000 in
/-- The layer's body on whole staging memrefs, the five inputs' at read contents `x0 … x4` and the result's at anything,
    runs to the continuation holding the inputs' as they were and the result's at the perceptron's piece. -/
theorem sound_kernel0 (c : Dev nD) (E : Set ℕ) (i : grid0.Coords)
    (a0 : Memref sig .tc .vmem S5000x96 .f32) (h0 : a0.IsWhole) (a1 : Memref sig .tc .vmem S96x192 .f32) (h1 : a1.IsWhole)
    (a2 : Memref sig .tc .vmem S1x192 .f32) (h2 : a2.IsWhole) (a3 : Memref sig .tc .vmem S192x96 .f32) (h3 : a3.IsWhole)
    (a4 : Memref sig .tc .vmem S1x96 .f32) (h4 : a4.IsWhole) (a5 : Memref sig .tc .vmem S5000x96 .f32) (h5 : a5.IsWhole)
    (x0 : Vec F S5000x96 .f32) (x1 : Vec F S96x192 .f32) (x2 : Vec F S1x192 .f32) (x3 : Vec F S192x96 .f32) (x4 : Vec F S1x96 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out0_5 x0 x1 x2 x3 x4)) -∗ K ⟨⟩))
      ⊢ wp frame (wpE (defs₀ (F := F)) Variants.none c none) E (cc0__gin_layer_kernel i a0 h0 a1 h1 a2 h2 a3 h3 a4 h4 a5 h5) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0: the arrays as the region finds them; every input's staging buffer keeps its block;
    the result's staging buffer holds the two-layer perceptron of the row block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay1 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = k0_pay1 (iblk0 V c 0 t) (iblk0 V c 1 t) (iblk0 V c 2 t) (iblk0 V c 3 t) (iblk0 V c 4 t) := by
  dsimp only [dat0]

theorem Phi0_eq (c : Dev nD) (t : Fin (cfg0.N + 1)) : (dat0 V c).Φ t = Pipeline.ΦA spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current staging buffer holds its block at every grid point. -/
theorem held0_0 (c : Dev nD) (t : Fin cfg0.N) (d) : (dat0 V c).before 0 t d = iblk0 V c 0 t :=
  held0_0_of V (dat0 V c) (A_eq0 V c 0) (after0_0 V c) t d
theorem held0_1 (c : Dev nD) (t : Fin cfg0.N) (d) : (dat0 V c).before 1 t d = iblk0 V c 1 t :=
  held0_1_of V (dat0 V c) (A_eq0 V c 1) (after0_1 V c) t d
theorem held0_2 (c : Dev nD) (t : Fin cfg0.N) (d) : (dat0 V c).before 2 t d = iblk0 V c 2 t :=
  held0_2_of V (dat0 V c) (A_eq0 V c 2) (after0_2 V c) t d
theorem held0_3 (c : Dev nD) (t : Fin cfg0.N) (d) : (dat0 V c).before 3 t d = iblk0 V c 3 t :=
  held0_3_of V (dat0 V c) (A_eq0 V c 3) (after0_3 V c) t d
theorem held0_4 (c : Dev nD) (t : Fin cfg0.N) (d) : (dat0 V c).before 4 t d = iblk0 V c 4 t :=
  held0_4_of V (dat0 V c) (A_eq0 V c 4) (after0_4 V c) t d

/-! ## The body obligation, at a generic grid point -/

/-- What the body is called with at point `t`: the invariant, the core's debts, and the six windows' current staging
    buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the five inputs' memrefs hold their blocks, so the body's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, ← out0_5_eq]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«420259_j2267742732765_3_alg».proof.Proof.Gen.Kernel.Launch
import proofs.«420259_j2267742732765_3_alg».proof.Proof.Gen.Kernel.Skeleton
import proofs.«420259_j2267742732765_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers hold their blocks -/

/-- Window 0 (the row block) is an input the body only reads: whatever proof data has the region's array for it and
    leaves its block in place finds the block in the current staging buffer at every grid point. -/
theorem held1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- Window 1 (the first layer's weights) is an input the body only reads: whatever proof data has the region's array for it and
    leaves its block in place finds the block in the current staging buffer at every grid point, also at the points
    after the first, where nothing is fetched and the block index has not moved. -/
theorem held1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- Window 2 (the first layer's bias) is an input the body only reads: whatever proof data has the region's array for it and
    leaves its block in place finds the block in the current staging buffer at every grid point, also at the points
    after the first, where nothing is fetched and the block index has not moved. -/
theorem held1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-- Window 3 (the second layer's weights) is an input the body only reads: whatever proof data has the region's array for it and
    leaves its block in place finds the block in the current staging buffer at every grid point, also at the points
    after the first, where nothing is fetched and the block index has not moved. -/
theorem held1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

/-- Window 4 (the second layer's bias) is an input the body only reads: whatever proof data has the region's array for it and
    leaves its block in place finds the block in the current staging buffer at every grid point, also at the points
    after the first, where nothing is fetched and the block index has not moved. -/
theorem held1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  have hkeep : ∀ t, (cfg1.win 4).cut (cfg1.grid.coords t) (dat.after 4 t) = dat.blockOf 4 t := fun t => by
    rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl

/-! ## The body's accesses: every load and the one store go through the whole buffer -/

/-- Both offsets of every access are zero. -/
theorem zeros1 : (![0, 0] : Fin 2 → Nat) = fun _ => 0 := funext fun a => by fin_cases a <;> rfl

abbrev r1_x : Rect S5000x96 := Rect.unit (s := S5000x96) ![0, 0] S5000x96.size inb_S5000x96_S5000x96_0_0
abbrev r1_W1 : Rect S96x192 := Rect.unit (s := S96x192) ![0, 0] S96x192.size inb_S96x192_S96x192_0_0
abbrev r1_b1 : Rect S1x192 := Rect.unit (s := S1x192) ![0, 0] S1x192.size inb_S1x192_S1x192_0_0
abbrev r1_W2 : Rect S192x96 := Rect.unit (s := S192x96) ![0, 0] S192x96.size inb_S192x96_S192x96_0_0
abbrev r1_b2 : Rect S1x96 := Rect.unit (s := S1x96) ![0, 0] S1x96.size inb_S1x96_S1x96_0_0

/-- What the body's one store leaves in the result's staging buffer, as the store's piece over what the five loads read. -/
def out1_5 (x0 : Vec F S5000x96 .f32) (x1 : Vec F S96x192 .f32) (x2 : Vec F S1x192 .f32) (x3 : Vec F S192x96 .f32) (x4 : Vec F S1x96 .f32) :
    Vec F S5000x96 .f32 :=
  View.canon [⟨r1_x, k1_pay1 (View.ld x0 r1_x) (View.ld x1 r1_W1) (View.ld x2 r1_b1) (View.ld x3 r1_W2) (View.ld x4 r1_b2)⟩]

/-- Every access being of the whole buffer, that is the perceptron of the five buffers themselves. -/
theorem out1_5_eq (x0 : Vec F S5000x96 .f32) (x1 : Vec F S96x192 .f32) (x2 : Vec F S1x192 .f32) (x3 : Vec F S192x96 .f32) (x4 : Vec F S1x96 .f32) :
    out1_5 x0 x1 x2 x3 x4 = k1_pay1 x0 x1 x2 x3 x4 := by
  unfold out1_5
  rw [View.canon_unit_zero (S := S5000x96) zeros1 inb_S5000x96_S5000x96_0_0,
    View.ld_unit_zero (S := S5000x96) zeros1 inb_S5000x96_S5000x96_0_0 x0,
    View.ld_unit_zero (S := S96x192) zeros1 inb_S96x192_S96x192_0_0 x1,
    View.ld_unit_zero (S := S1x192) zeros1 inb_S1x192_S1x192_0_0 x2,
    View.ld_unit_zero (S := S192x96) zeros1 inb_S192x96_S192x96_0_0 x3,
    View.ld_unit_zero (S := S1x96) zeros1 inb_S1x96_S1x96_0_0 x4]

/-- The store is of the whole result buffer, so it covers it. -/
theorem cover1_5 (p : Vec F S5000x96 .f32) (y : S5000x96.Idx) :
    ∃ pc ∈ ([⟨r1_x, p⟩] : List (View.Piece (Elt F) S5000x96 .f32)), y ∈ pc.1.set :=
  ⟨_, List.mem_singleton_self _, View.mem_set_unit_zero (S := S5000x96) zeros1 inb_S5000x96_S5000x96_0_0 y⟩

/-! ## The body's triple -/

set_option maxHeartbeats 1000000 in
/-- The layer's body on whole staging memrefs, the five inputs' at read contents `x0 … x4` and the result's at anything,
    runs to the continuation holding the inputs' as they were and the result's at the perceptron's piece. -/
theorem sound_kernel1 (c : Dev nD) (E : Set ℕ) (i : grid1.Coords)
    (a0 : Memref sig .tc .vmem S5000x96 .f32) (h0 : a0.IsWhole) (a1 : Memref sig .tc .vmem S96x192 .f32) (h1 : a1.IsWhole)
    (a2 : Memref sig .tc .vmem S1x192 .f32) (h2 : a2.IsWhole) (a3 : Memref sig .tc .vmem S192x96 .f32) (h3 : a3.IsWhole)
    (a4 : Memref sig .tc .vmem S1x96 .f32) (h4 : a4.IsWhole) (a5 : Memref sig .tc .vmem S5000x96 .f32) (h5 : a5.IsWhole)
    (x0 : Vec F S5000x96 .f32) (x1 : Vec F S96x192 .f32) (x2 : Vec F S1x192 .f32) (x3 : Vec F S192x96 .f32) (x4 : Vec F S1x96 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__gin_layer_kernel i a0 h0 a1 h1 a2 h2 a3 h3 a4 h4 a5 h5) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1: the arrays as the region finds them; every input's staging buffer keeps its block;
    the result's staging buffer holds the two-layer perceptron of the row block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = k1_pay1 (iblk1 V c 0 t) (iblk1 V c 1 t) (iblk1 V c 2 t) (iblk1 V c 3 t) (iblk1 V c 4 t) := by
  dsimp only [dat1]

theorem Phi1_eq (c : Dev nD) (t : Fin (cfg1.N + 1)) : (dat1 V c).Φ t = Pipeline.ΦA spec1 c := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- Each input's current staging buffer holds its block at every grid point. -/
theorem held1_0 (c : Dev nD) (t : Fin cfg1.N) (d) : (dat1 V c).before 0 t d = iblk1 V c 0 t :=
  held1_0_of V (dat1 V c) (A_eq1 V c 0) (after1_0 V c) t d
theorem held1_1 (c : Dev nD) (t : Fin cfg1.N) (d) : (dat1 V c).before 1 t d = iblk1 V c 1 t :=
  held1_1_of V (dat1 V c) (A_eq1 V c 1) (after1_1 V c) t d
theorem held1_2 (c : Dev nD) (t : Fin cfg1.N) (d) : (dat1 V c).before 2 t d = iblk1 V c 2 t :=
  held1_2_of V (dat1 V c) (A_eq1 V c 2) (after1_2 V c) t d
theorem held1_3 (c : Dev nD) (t : Fin cfg1.N) (d) : (dat1 V c).before 3 t d = iblk1 V c 3 t :=
  held1_3_of V (dat1 V c) (A_eq1 V c 3) (after1_3 V c) t d
theorem held1_4 (c : Dev nD) (t : Fin cfg1.N) (d) : (dat1 V c).before 4 t d = iblk1 V c 4 t :=
  held1_4_of V (dat1 V c) (A_eq1 V c 4) (after1_4 V c) t d

/-! ## The body obligation, at a generic grid point -/

/-- What the body is called with at point `t`: the invariant, the core's debts, and the six windows' current staging
    buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the five inputs' memrefs hold their blocks, so the body's triple applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, ← out1_5_eq]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«420259_j2267742732765_3_alg».proof.Proof.Gen.Kernel.Launch
import proofs.«420259_j2267742732765_3_alg».proof.Proof.Gen.Kernel.Skeleton
import proofs.«420259_j2267742732765_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the pooling call, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's update of the pooled sums: the layer-2 MLP of the point's rows, pooled by the one-hot of their
    graph ids and added to the running sums `a`. -/
def accStep2 (c : Dev nD) (t : Fin cfg2.N) (a : Vec F S64x96 .f32) : Vec F S64x96 .f32 :=
  k2_pay1 (k2_pay4 (iblk2 V c 0 t) (iblk2 V c 2 t) (iblk2 V c 3 t) (iblk2 V c 4 t) (iblk2 V c 5 t) (iblk2 V c 1 t) a)

/-- The pooled sums after point `n`: from zero at the first point, one update per point. -/
def acc2 (c : Dev nD) : (n : ℕ) → n < cfg2.N → Vec F S64x96 .f32
  | 0, h => accStep2 V c ⟨0, h⟩ k2_pay3
  | n + 1, h => accStep2 V c ⟨n + 1, h⟩ (acc2 c n (Nat.lt_of_succ_lt h))

theorem acc2_zero (c : Dev nD) (h : 0 < cfg2.N) :
    acc2 V c 0 h = k2_pay1 (k2_pay4 (iblk2 V c 0 ⟨0, h⟩) (iblk2 V c 2 ⟨0, h⟩) (iblk2 V c 3 ⟨0, h⟩) (iblk2 V c 4 ⟨0, h⟩) (iblk2 V c 5 ⟨0, h⟩) (iblk2 V c 1 ⟨0, h⟩) k2_pay3) := rfl

theorem acc2_succ (c : Dev nD) (n : ℕ) (h : n + 1 < cfg2.N) :
    acc2 V c (n + 1) h = k2_pay1 (k2_pay4 (iblk2 V c 0 ⟨n + 1, h⟩) (iblk2 V c 2 ⟨n + 1, h⟩) (iblk2 V c 3 ⟨n + 1, h⟩) (iblk2 V c 4 ⟨n + 1, h⟩) (iblk2 V c 5 ⟨n + 1, h⟩) (iblk2 V c 1 ⟨n + 1, h⟩) (acc2 V c n (Nat.lt_of_succ_lt h))) := rfl

/-- The sums after the first point: one update from zero. -/
theorem acc2_first (c : Dev nD) (t : Fin cfg2.N) (h : t.val = 0) : acc2 V c t.val t.isLt = accStep2 V c t k2_pay3 := by
  obtain ⟨n, hn⟩ := t
  dsimp only at h
  subst h
  rfl

/-- The sums after a later point: one update from the sums the point before left. -/
theorem acc2_later (c : Dev nD) (t : Fin cfg2.N) (h : t.val ≠ 0) :
    acc2 V c t.val t.isLt = accStep2 V c t (acc2 V c (t.val - 1) (Nat.lt_of_le_of_lt (Nat.sub_le _ _) t.isLt)) := by
  obtain ⟨n, hn⟩ := t
  cases n with
  | zero => exact absurd rfl h
  | succ n => rfl

/-! ## The body's branch conditions, in closed form -/

/-- The condition of the body's first `scf.if` (the reset of the sums), from the grid coordinates. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the body's second `scf.if` (the final MLP and the store of the result). -/
abbrev cond2_1 (i : grid2.Coords) : Prop := k2_cond2 i = 1#1
/-- It holds at the last point only. -/
theorem hcond2_1 : ∀ t : Fin cfg2.N, cond2_1 (grid2.coords t) ↔ t.val = 24 :=
  (by decide +kernel : ∀ t : Fin grid2.N, cond2_1 (grid2.coords t) ↔ t.val = 24)

/-! ## Where the result's window is idle -/

/-- Before the last point the body stores nothing into the result's buffer, -/
theorem idleAt2_10 : ∀ t : Fin cfg2.N, ¬cond2_1 (grid2.coords t) → cfg2.idle 10 (grid2.coords t) = true := by decide +kernel
/-- and the pipeline does not write it back; -/
theorem noFlush2_10 : ∀ t : Fin cfg2.N, ¬cond2_1 (grid2.coords t) → (cfg2.win 10).flush t = false := by decide +kernel
/-- at the last point the body stores into it. -/
theorem liveAt2_10 : ∀ t : Fin cfg2.N, cond2_1 (grid2.coords t) → cfg2.idle 10 (grid2.coords t) = false := by decide +kernel

/-- The zero offsets of a rank-2 rectangle, however spelt. -/
theorem zeros2 : (![0, 0] : Fin 2 → Nat) = fun _ => 0 := funext fun a => by fin_cases a <;> rfl

/-- A store through the whole-shape rectangle at zero offsets, made LAST, is what the buffer then reads as,
    whatever the earlier stores and prior contents. -/
theorem read_writes_cons_whole {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## What the body finds in each input window's buffer -/

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is the entry contents and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof data
    whose array is the entry contents and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof data
    whose array is the entry contents and whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not, for any proof data
    whose array is the entry contents and whose body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple, case by case -/

set_option maxHeartbeats 1000000 in
/-- THE FIRST POINT. On whole staging memrefs, the inputs' at contents `x·`, the result's at `y`, the scratch at
    anything: the body zeroes the sums, adds the point's pooled rows and leaves them in the scratch; the result's
    buffer is untouched. -/
theorem sound_kernel2_first (c : Dev nD) (E : Set ℕ) (i : grid2.Coords) (arg1 : Memref sig .tc .vmem S2000x96 .f32) (harg1 : arg1.IsWhole) (arg2 : Memref sig .tc .vmem S2000x1 .i32) (harg2 : arg2.IsWhole) (arg3 : Memref sig .tc .vmem S96x192 .f32) (harg3 : arg3.IsWhole) (arg4 : Memref sig .tc .vmem S1x192 .f32) (harg4 : arg4.IsWhole) (arg5 : Memref sig .tc .vmem S192x96 .f32) (harg5 : arg5.IsWhole) (arg6 : Memref sig .tc .vmem S1x96 .f32) (harg6 : arg6.IsWhole) (arg7 : Memref sig .tc .vmem S96x96 .f32) (harg7 : arg7.IsWhole) (arg8 : Memref sig .tc .vmem S1x96 .f32) (harg8 : arg8.IsWhole) (arg9 : Memref sig .tc .vmem S96x1 .f32) (harg9 : arg9.IsWhole) (arg10 : Memref sig .tc .vmem S1x1 .f32) (harg10 : arg10.IsWhole) (arg11 : Memref sig .tc .vmem S64x1 .f32) (harg11 : arg11.IsWhole) (arg12 : Memref sig .tc .vmem S64x96 .f32) (harg12 : arg12.IsWhole)
    (hc0 : cond2_0 i) (hc1 : ¬cond2_1 i) (x0 : Vec F S2000x96 .f32) (x1 : Vec F S2000x1 .i32) (x2 : Vec F S96x192 .f32) (x3 : Vec F S1x192 .f32) (x4 : Vec F S192x96 .f32) (x5 : Vec F S1x96 .f32) (x6 : Vec F S96x96 .f32) (x7 : Vec F S1x96 .f32) (x8 : Vec F S96x1 .f32) (x9 : Vec F S1x1 .f32) (y : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y
            ∗ owns (c : Thread nD τ) arg12 fullShare (k2_pay1 (k2_pay4 x0 x2 x3 x4 x5 x1 k2_pay3))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11 arg12 harg12) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  sl_unfold_run_names
  rw [read_writes_cons_whole (S := S64x96) _ _ zeros2]
  dsimp only
  rw [View.readCov_unit_zero (S := S64x96) _ zeros2]
  simp only [View.readAt_eq_ld, View.ld_unit_zero (S := S2000x96) zeros2, View.ld_unit_zero (S := S2000x1) zeros2, View.ld_unit_zero (S := S96x192) zeros2, View.ld_unit_zero (S := S1x192) zeros2, View.ld_unit_zero (S := S192x96) zeros2, View.ld_unit_zero (S := S1x96) zeros2, View.ld_unit_zero (S := S96x96) zeros2, View.ld_unit_zero (S := S96x1) zeros2, View.ld_unit_zero (S := S1x1) zeros2, View.ld_unit_zero (S := S64x96) zeros2, View.ld_unit_zero (S := S64x1) zeros2]

set_option maxHeartbeats 1000000 in
/-- A MIDDLE POINT. The scratch holds the sums `a` so far: the body adds the point's pooled rows; the result's
    buffer is untouched. -/
theorem sound_kernel2_middle (c : Dev nD) (E : Set ℕ) (i : grid2.Coords) (arg1 : Memref sig .tc .vmem S2000x96 .f32) (harg1 : arg1.IsWhole) (arg2 : Memref sig .tc .vmem S2000x1 .i32) (harg2 : arg2.IsWhole) (arg3 : Memref sig .tc .vmem S96x192 .f32) (harg3 : arg3.IsWhole) (arg4 : Memref sig .tc .vmem S1x192 .f32) (harg4 : arg4.IsWhole) (arg5 : Memref sig .tc .vmem S192x96 .f32) (harg5 : arg5.IsWhole) (arg6 : Memref sig .tc .vmem S1x96 .f32) (harg6 : arg6.IsWhole) (arg7 : Memref sig .tc .vmem S96x96 .f32) (harg7 : arg7.IsWhole) (arg8 : Memref sig .tc .vmem S1x96 .f32) (harg8 : arg8.IsWhole) (arg9 : Memref sig .tc .vmem S96x1 .f32) (harg9 : arg9.IsWhole) (arg10 : Memref sig .tc .vmem S1x1 .f32) (harg10 : arg10.IsWhole) (arg11 : Memref sig .tc .vmem S64x1 .f32) (harg11 : arg11.IsWhole) (arg12 : Memref sig .tc .vmem S64x96 .f32) (harg12 : arg12.IsWhole)
    (hc0 : ¬cond2_0 i) (hc1 : ¬cond2_1 i) (x0 : Vec F S2000x96 .f32) (x1 : Vec F S2000x1 .i32) (x2 : Vec F S96x192 .f32) (x3 : Vec F S1x192 .f32) (x4 : Vec F S192x96 .f32) (x5 : Vec F S1x96 .f32) (x6 : Vec F S96x96 .f32) (x7 : Vec F S1x96 .f32) (x8 : Vec F S96x1 .f32) (x9 : Vec F S1x1 .f32) (y : Vec F S64x1 .f32) (a : Vec F S64x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y
            ∗ owns (c : Thread nD τ) arg12 fullShare (k2_pay1 (k2_pay4 x0 x2 x3 x4 x5 x1 a))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11 arg12 harg12) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0 hf1 hf2 hf3 hf4 hf5 hf6 hf7 hf8 hf9 hf10 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  sl_unfold_run_names
  rw [read_writes_cons_whole (S := S64x96) _ _ zeros2]
  dsimp only
  simp only [View.readAt_eq_ld, View.ld_unit_zero (S := S2000x96) zeros2, View.ld_unit_zero (S := S2000x1) zeros2, View.ld_unit_zero (S := S96x192) zeros2, View.ld_unit_zero (S := S1x192) zeros2, View.ld_unit_zero (S := S192x96) zeros2, View.ld_unit_zero (S := S1x96) zeros2, View.ld_unit_zero (S := S96x96) zeros2, View.ld_unit_zero (S := S96x1) zeros2, View.ld_unit_zero (S := S1x1) zeros2, View.ld_unit_zero (S := S64x96) zeros2, View.ld_unit_zero (S := S64x1) zeros2]

set_option maxHeartbeats 1000000 in
/-- THE LAST POINT. The body adds the point's pooled rows to the sums `a`, then runs the final MLP on the sums and
    stores its value over the result's buffer (whatever that held). -/
theorem sound_kernel2_last (c : Dev nD) (E : Set ℕ) (i : grid2.Coords) (arg1 : Memref sig .tc .vmem S2000x96 .f32) (harg1 : arg1.IsWhole) (arg2 : Memref sig .tc .vmem S2000x1 .i32) (harg2 : arg2.IsWhole) (arg3 : Memref sig .tc .vmem S96x192 .f32) (harg3 : arg3.IsWhole) (arg4 : Memref sig .tc .vmem S1x192 .f32) (harg4 : arg4.IsWhole) (arg5 : Memref sig .tc .vmem S192x96 .f32) (harg5 : arg5.IsWhole) (arg6 : Memref sig .tc .vmem S1x96 .f32) (harg6 : arg6.IsWhole) (arg7 : Memref sig .tc .vmem S96x96 .f32) (harg7 : arg7.IsWhole) (arg8 : Memref sig .tc .vmem S1x96 .f32) (harg8 : arg8.IsWhole) (arg9 : Memref sig .tc .vmem S96x1 .f32) (harg9 : arg9.IsWhole) (arg10 : Memref sig .tc .vmem S1x1 .f32) (harg10 : arg10.IsWhole) (arg11 : Memref sig .tc .vmem S64x1 .f32) (harg11 : arg11.IsWhole) (arg12 : Memref sig .tc .vmem S64x96 .f32) (harg12 : arg12.IsWhole)
    (hc0 : ¬cond2_0 i) (hc1 : cond2_1 i) (x0 : Vec F S2000x96 .f32) (x1 : Vec F S2000x1 .i32) (x2 : Vec F S96x192 .f32) (x3 : Vec F S1x192 .f32) (x4 : Vec F S192x96 .f32) (x5 : Vec F S1x96 .f32) (x6 : Vec F S96x96 .f32) (x7 : Vec F S1x96 .f32) (x8 : Vec F S96x1 .f32) (x9 : Vec F S1x1 .f32) (a : Vec F S64x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k2_pay2 (k2_pay1 (k2_pay4 x0 x2 x3 x4 x5 x1 a)) x6 x7 x8 x9)
            ∗ owns (c : Thread nD τ) arg12 fullShare (k2_pay1 (k2_pay4 x0 x2 x3 x4 x5 x1 a))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11 arg12 harg12) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
  subst hf0 hf1 hf2 hf3 hf4 hf5 hf6 hf7 hf8 hf9 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    rw [read_writes_cons_whole (S := S64x1) _ _ zeros2, View.readCov_unit_zero (S := S64x96) _ zeros2]
    dsimp only
    simp only [View.readAt_eq_ld, View.ld_unit_zero (S := S2000x96) zeros2, View.ld_unit_zero (S := S2000x1) zeros2, View.ld_unit_zero (S := S96x192) zeros2, View.ld_unit_zero (S := S1x192) zeros2, View.ld_unit_zero (S := S192x96) zeros2, View.ld_unit_zero (S := S1x96) zeros2, View.ld_unit_zero (S := S96x96) zeros2, View.ld_unit_zero (S := S96x1) zeros2, View.ld_unit_zero (S := S1x1) zeros2, View.ld_unit_zero (S := S64x96) zeros2, View.ld_unit_zero (S := S64x1) zeros2]
  iexists _; isplitr
  swap; · iexact H11
  ipureintro
  sl_unfold_run_names
  rw [read_writes_cons_whole (S := S64x96) _ _ zeros2]
  dsimp only
  simp only [View.readAt_eq_ld, View.ld_unit_zero (S := S2000x96) zeros2, View.ld_unit_zero (S := S2000x1) zeros2, View.ld_unit_zero (S := S96x192) zeros2, View.ld_unit_zero (S := S1x192) zeros2, View.ld_unit_zero (S := S192x96) zeros2, View.ld_unit_zero (S := S1x96) zeros2, View.ld_unit_zero (S := S96x96) zeros2, View.ld_unit_zero (S := S96x1) zeros2, View.ld_unit_zero (S := S1x1) zeros2, View.ld_unit_zero (S := S64x96) zeros2, View.ld_unit_zero (S := S64x1) zeros2]

/-! ## The scratch -/

/-- The scratch operand holding the pooled sums: a whole scoped buffer of the kernel's own. -/
abbrev scM2 : Memref sig .tc .vmem S64x96 .f32 := Memref.whole cc2_scratch0

/-- The scoped rest split at the kernel's own scratch, whole at some contents; the other scoped buffers (the earlier
    calls' staging buffers) stay unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class's invariant with the scratch as a memref owned at some contents. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The invariant -/

/-- The region invariant before position `n`: at entry the class's; afterwards the scratch at the sums the point
    before left, the other scoped buffers at anything, the generator register at some state. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r))

theorem Phi2_at_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pooling pipeline on core `c`: the arrays as the region finds them; after the body each
    input's buffer at its block, the result's at the final MLP of the sums so far (what the last point stores; at
    the earlier points the window is idle and this is not consulted); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => k2_pay2 (acc2 V c t.val t.isLt) (iblk2 V c 6 t) (iblk2 V c 7 t) (iblk2 V c 8 t) (iblk2 V c 9 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) :
    (dat2 V c).after 10 t = k2_pay2 (acc2 V c t.val t.isLt) (iblk2 V c 6 t) (iblk2 V c 7 t) (iblk2 V c 8 t) (iblk2 V c 9 t) := by dsimp only [dat2]

/-- What the last point leaves in the result's buffer: the final MLP of all 25 points' pooled sums. -/
theorem after2_10_last (c : Dev nD) (t : Fin cfg2.N) (ht : t.val = 24) :
    (dat2 V c).after 10 t = k2_pay2 (acc2 V c 24 (by rw [show cfg2.N = 25 from N_2]; omega)) (iblk2 V c 6 t) (iblk2 V c 7 t) (iblk2 V c 8 t) (iblk2 V c 9 t) := by
  rw [after2_10]
  obtain ⟨n, hn⟩ := t
  dsimp only at ht
  subst ht
  rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The input windows are never idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 4800000 in
/-- The body at any point. Each input's memref holds its block; the closed forms say which of the three cases the
    point is in. At the first point the invariant hands the scratch at anything and takes it back at one update from
    zero; at a later point it hands the scratch at the sums so far and takes it back one update on. Before the last
    point the result's buffer is handed back as found; at the last point it is left at the final MLP of the sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [show (dat2 V c).Φ t.succ = Phi2 V c (t.val + 1) t.isLt from rfl, Phi2_succ]
  have hN : t.val < 25 := lt_of_lt_of_eq t.isLt (show cfg2.N = 25 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  rw [show (dat2 V c).leavesExact 9 t = owns (c : Thread nD τ) (st2_9 t) fullShare ((dat2 V c).after 9 t) from by
    unfold Dat.leavesExact; rw [liveAt2_9 t], after2_9]
  by_cases h0 : t.val = 0
  · have h1 : ¬t.val = 24 := by omega
    rw [Dat.leavesExact_idle (dat2 V c) 10 t (idleAt2_10 t (fun h => h1 ((hcond2_1 t).mp h))) (noFlush2_10 t (fun h => h1 ((hcond2_1 t).mp h)))]
    rw [Phi2_castSucc V c t, Phi2_at_zero V c _ _ h0, PhiA2_eq, acc2_first V c t h0]
    unfold accStep2
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2_first c Set.univ (grid2.coords t) _ _ _ _ _ _ _ _ _ _ _ _ _ _ _ _ _ _ _ _ _ _ _ _ ((hcond2_0 t).mpr h0) (fun h => h1 ((hcond2_1 t).mp h))
      (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 10 t d10) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val = 24
    · rw [show (dat2 V c).leavesExact 10 t = owns (c : Thread nD τ) (st2_10 t) fullShare ((dat2 V c).after 10 t) from by
        unfold Dat.leavesExact; rw [liveAt2_10 t ((hcond2_1 t).mpr h1)], after2_10]
      rw [Phi2_castSucc V c t, Phi2_pos V c _ _ h0, acc2_later V c t h0]
      unfold accStep2
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_last c Set.univ (grid2.coords t) _ _ _ _ _ _ _ _ _ _ _ _ _ _ _ _ _ _ _ _ _ _ _ _ (fun h => h0 ((hcond2_0 t).mp h)) ((hcond2_1 t).mpr h1)
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) _) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dat2 V c) 10 t (idleAt2_10 t (fun h => h1 ((hcond2_1 t).mp h))) (noFlush2_10 t (fun h => h1 ((hcond2_1 t).mp h)))]
      rw [Phi2_castSucc V c t, Phi2_pos V c _ _ h0, acc2_later V c t h0]
      unfold accStep2
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_middle c Set.univ (grid2.coords t) _ _ _ _ _ _ _ _ _ _ _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 10 t d10) (acc2 V c (t.val - 1) _) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is what the launch hands the region. -/
theorem Phi2_zero (c : Dev nD) : (dat2 V c).Φ 0 = Pipeline.ΦA spec2 c := by
  rw [show (dat2 V c).Φ 0 = Phi2 V c 0 (Nat.zero_le _) from rfl, Phi2_at_zero V c 0 _ rfl]

/-- After any point but the first the invariant gives the class's back: the sums' named contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi2_out V c _ (by rw [Fin.val_last]; have : cfg2.N = 25 := N_2; omega)

theorem q2_full (c : Dev nD) (w : Fin cfg2.W) : (dat2 V c).q w = fullShare := rfl
theorem owed2_zero (c : Dev nD) (t : Fin (cfg2.N + 1)) : (dat2 V c).owed t = 0 := rfl

end Cert.Kernel.Hand

end
-- ==== Proof.K.Run.lean ====
import proofs.«420259_j2267742732765_3_alg».proof.Proof.K.R0
import proofs.«420259_j2267742732765_3_alg».proof.Proof.K.R1
import proofs.«420259_j2267742732765_3_alg».proof.Proof.K.R2
import proofs.«420259_j2267742732765_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the three-layer network's @main: three host stretches (each layer's scatter-add of the neighbours'
    features and the operands' reshapes), each followed by the layer's kernel region

## The buffer contents at each boundary: a fold through @main -/

/-- Core `c`'s buffers at launch. -/
abbrev W0 : Dev nD → Valuation τ sig (Elt F) := fun c b => (s₀ m ρ).mem ((c : Dev nD), b)
/-- After the first host stretch (the first layer's aggregation): region 0's entry. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the first layer's output rows
    written back block by block), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second layer's aggregation): region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the third layer's aggregation): region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: the pooled graphs' scores written back at the last grid point, every input as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments hold their launch contents at every boundary: no host stretch writes one, regions 0 and 1 have
    none among their arrays, and region 2 only reads the two it has (the readout's weight matrix and vector, its input
    windows 6 and 8) -/

/-! After the first host stretch. -/
theorem W1_main_arg0 (c : Dev nD) : W1 m ρ c (Proc.devRef .tc main_arg0) = m ((c : Thread nD τ).loc main_arg0) :=
  (StableHlo.after_of_writes_sub hostOps0 _ hostOps0_writes (by decide) : W1 m ρ c (Proc.devRef .tc main_arg0) = W0 m ρ c (Proc.devRef .tc main_arg0)).trans rfl
theorem W1_main_arg1 (c : Dev nD) : W1 m ρ c (Proc.devRef .tc main_arg1) = m ((c : Thread nD τ).loc main_arg1) :=
  (StableHlo.after_of_writes_sub hostOps0 _ hostOps0_writes (by decide) : W1 m ρ c (Proc.devRef .tc main_arg1) = W0 m ρ c (Proc.devRef .tc main_arg1)).trans rfl
theorem W1_main_arg2 (c : Dev nD) : W1 m ρ c (Proc.devRef .tc main_arg2) = m ((c : Thread nD τ).loc main_arg2) :=
  (StableHlo.after_of_writes_sub hostOps0 _ hostOps0_writes (by decide) : W1 m ρ c (Proc.devRef .tc main_arg2) = W0 m ρ c (Proc.devRef .tc main_arg2)).trans rfl
theorem W1_main_arg3 (c : Dev nD) : W1 m ρ c (Proc.devRef .tc main_arg3) = m ((c : Thread nD τ).loc main_arg3) :=
  (StableHlo.after_of_writes_sub hostOps0 _ hostOps0_writes (by decide) : W1 m ρ c (Proc.devRef .tc main_arg3) = W0 m ρ c (Proc.devRef .tc main_arg3)).trans rfl
theorem W1_main_arg4 (c : Dev nD) : W1 m ρ c (Proc.devRef .tc main_arg4) = m ((c : Thread nD τ).loc main_arg4) :=
  (StableHlo.after_of_writes_sub hostOps0 _ hostOps0_writes (by decide) : W1 m ρ c (Proc.devRef .tc main_arg4) = W0 m ρ c (Proc.devRef .tc main_arg4)).trans rfl
theorem W1_main_arg5 (c : Dev nD) : W1 m ρ c (Proc.devRef .tc main_arg5) = m ((c : Thread nD τ).loc main_arg5) :=
  (StableHlo.after_of_writes_sub hostOps0 _ hostOps0_writes (by decide) : W1 m ρ c (Proc.devRef .tc main_arg5) = W0 m ρ c (Proc.devRef .tc main_arg5)).trans rfl
theorem W1_main_arg6 (c : Dev nD) : W1 m ρ c (Proc.devRef .tc main_arg6) = m ((c : Thread nD τ).loc main_arg6) :=
  (StableHlo.after_of_writes_sub hostOps0 _ hostOps0_writes (by decide) : W1 m ρ c (Proc.devRef .tc main_arg6) = W0 m ρ c (Proc.devRef .tc main_arg6)).trans rfl
theorem W1_main_arg7 (c : Dev nD) : W1 m ρ c (Proc.devRef .tc main_arg7) = m ((c : Thread nD τ).loc main_arg7) :=
  (StableHlo.after_of_writes_sub hostOps0 _ hostOps0_writes (by decide) : W1 m ρ c (Proc.devRef .tc main_arg7) = W0 m ρ c (Proc.devRef .tc main_arg7)).trans rfl
theorem W1_main_arg8 (c : Dev nD) : W1 m ρ c (Proc.devRef .tc main_arg8) = m ((c : Thread nD τ).loc main_arg8) :=
  (StableHlo.after_of_writes_sub hostOps0 _ hostOps0_writes (by decide) : W1 m ρ c (Proc.devRef .tc main_arg8) = W0 m ρ c (Proc.devRef .tc main_arg8)).trans rfl
theorem W1_main_arg9 (c : Dev nD) : W1 m ρ c (Proc.devRef .tc main_arg9) = m ((c : Thread nD τ).loc main_arg9) :=
  (StableHlo.after_of_writes_sub hostOps0 _ hostOps0_writes (by decide) : W1 m ρ c (Proc.devRef .tc main_arg9) = W0 m ρ c (Proc.devRef .tc main_arg9)).trans rfl
theorem W1_main_arg10 (c : Dev nD) : W1 m ρ c (Proc.devRef .tc main_arg10) = m ((c : Thread nD τ).loc main_arg10) :=
  (StableHlo.after_of_writes_sub hostOps0 _ hostOps0_writes (by decide) : W1 m ρ c (Proc.devRef .tc main_arg10) = W0 m ρ c (Proc.devRef .tc main_arg10)).trans rfl
theorem W1_main_arg11 (c : Dev nD) : W1 m ρ c (Proc.devRef .tc main_arg11) = m ((c : Thread nD τ).loc main_arg11) :=
  (StableHlo.after_of_writes_sub hostOps0 _ hostOps0_writes (by decide) : W1 m ρ c (Proc.devRef .tc main_arg11) = W0 m ρ c (Proc.devRef .tc main_arg11)).trans rfl

/-! At region 0's exit. -/
theorem W2_main_arg0 (c : Dev nD) : W2 m ρ c (Proc.devRef .tc main_arg0) = m ((c : Thread nD τ).loc main_arg0) :=
  (W2_of_ne m ρ c main_arg0 (by decide) : W2 m ρ c (Proc.devRef .tc main_arg0) = W1 m ρ c (Proc.devRef .tc main_arg0)).trans (W1_main_arg0 m ρ c)
theorem W2_main_arg1 (c : Dev nD) : W2 m ρ c (Proc.devRef .tc main_arg1) = m ((c : Thread nD τ).loc main_arg1) :=
  (W2_of_ne m ρ c main_arg1 (by decide) : W2 m ρ c (Proc.devRef .tc main_arg1) = W1 m ρ c (Proc.devRef .tc main_arg1)).trans (W1_main_arg1 m ρ c)
theorem W2_main_arg2 (c : Dev nD) : W2 m ρ c (Proc.devRef .tc main_arg2) = m ((c : Thread nD τ).loc main_arg2) :=
  (W2_of_ne m ρ c main_arg2 (by decide) : W2 m ρ c (Proc.devRef .tc main_arg2) = W1 m ρ c (Proc.devRef .tc main_arg2)).trans (W1_main_arg2 m ρ c)
theorem W2_main_arg3 (c : Dev nD) : W2 m ρ c (Proc.devRef .tc main_arg3) = m ((c : Thread nD τ).loc main_arg3) :=
  (W2_of_ne m ρ c main_arg3 (by decide) : W2 m ρ c (Proc.devRef .tc main_arg3) = W1 m ρ c (Proc.devRef .tc main_arg3)).trans (W1_main_arg3 m ρ c)
theorem W2_main_arg4 (c : Dev nD) : W2 m ρ c (Proc.devRef .tc main_arg4) = m ((c : Thread nD τ).loc main_arg4) :=
  (W2_of_ne m ρ c main_arg4 (by decide) : W2 m ρ c (Proc.devRef .tc main_arg4) = W1 m ρ c (Proc.devRef .tc main_arg4)).trans (W1_main_arg4 m ρ c)
theorem W2_main_arg5 (c : Dev nD) : W2 m ρ c (Proc.devRef .tc main_arg5) = m ((c : Thread nD τ).loc main_arg5) :=
  (W2_of_ne m ρ c main_arg5 (by decide) : W2 m ρ c (Proc.devRef .tc main_arg5) = W1 m ρ c (Proc.devRef .tc main_arg5)).trans (W1_main_arg5 m ρ c)
theorem W2_main_arg6 (c : Dev nD) : W2 m ρ c (Proc.devRef .tc main_arg6) = m ((c : Thread nD τ).loc main_arg6) :=
  (W2_of_ne m ρ c main_arg6 (by decide) : W2 m ρ c (Proc.devRef .tc main_arg6) = W1 m ρ c (Proc.devRef .tc main_arg6)).trans (W1_main_arg6 m ρ c)
theorem W2_main_arg7 (c : Dev nD) : W2 m ρ c (Proc.devRef .tc main_arg7) = m ((c : Thread nD τ).loc main_arg7) :=
  (W2_of_ne m ρ c main_arg7 (by decide) : W2 m ρ c (Proc.devRef .tc main_arg7) = W1 m ρ c (Proc.devRef .tc main_arg7)).trans (W1_main_arg7 m ρ c)
theorem W2_main_arg8 (c : Dev nD) : W2 m ρ c (Proc.devRef .tc main_arg8) = m ((c : Thread nD τ).loc main_arg8) :=
  (W2_of_ne m ρ c main_arg8 (by decide) : W2 m ρ c (Proc.devRef .tc main_arg8) = W1 m ρ c (Proc.devRef .tc main_arg8)).trans (W1_main_arg8 m ρ c)
theorem W2_main_arg9 (c : Dev nD) : W2 m ρ c (Proc.devRef .tc main_arg9) = m ((c : Thread nD τ).loc main_arg9) :=
  (W2_of_ne m ρ c main_arg9 (by decide) : W2 m ρ c (Proc.devRef .tc main_arg9) = W1 m ρ c (Proc.devRef .tc main_arg9)).trans (W1_main_arg9 m ρ c)
theorem W2_main_arg10 (c : Dev nD) : W2 m ρ c (Proc.devRef .tc main_arg10) = m ((c : Thread nD τ).loc main_arg10) :=
  (W2_of_ne m ρ c main_arg10 (by decide) : W2 m ρ c (Proc.devRef .tc main_arg10) = W1 m ρ c (Proc.devRef .tc main_arg10)).trans (W1_main_arg10 m ρ c)
theorem W2_main_arg11 (c : Dev nD) : W2 m ρ c (Proc.devRef .tc main_arg11) = m ((c : Thread nD τ).loc main_arg11) :=
  (W2_of_ne m ρ c main_arg11 (by decide) : W2 m ρ c (Proc.devRef .tc main_arg11) = W1 m ρ c (Proc.devRef .tc main_arg11)).trans (W1_main_arg11 m ρ c)

/-! After the second host stretch. -/
theorem W3_main_arg0 (c : Dev nD) : W3 m ρ c (Proc.devRef .tc main_arg0) = m ((c : Thread nD τ).loc main_arg0) :=
  (StableHlo.after_of_writes_sub hostOps1 _ hostOps1_writes (by decide) : W3 m ρ c (Proc.devRef .tc main_arg0) = W2 m ρ c (Proc.devRef .tc main_arg0)).trans (W2_main_arg0 m ρ c)
theorem W3_main_arg1 (c : Dev nD) : W3 m ρ c (Proc.devRef .tc main_arg1) = m ((c : Thread nD τ).loc main_arg1) :=
  (StableHlo.after_of_writes_sub hostOps1 _ hostOps1_writes (by decide) : W3 m ρ c (Proc.devRef .tc main_arg1) = W2 m ρ c (Proc.devRef .tc main_arg1)).trans (W2_main_arg1 m ρ c)
theorem W3_main_arg2 (c : Dev nD) : W3 m ρ c (Proc.devRef .tc main_arg2) = m ((c : Thread nD τ).loc main_arg2) :=
  (StableHlo.after_of_writes_sub hostOps1 _ hostOps1_writes (by decide) : W3 m ρ c (Proc.devRef .tc main_arg2) = W2 m ρ c (Proc.devRef .tc main_arg2)).trans (W2_main_arg2 m ρ c)
theorem W3_main_arg3 (c : Dev nD) : W3 m ρ c (Proc.devRef .tc main_arg3) = m ((c : Thread nD τ).loc main_arg3) :=
  (StableHlo.after_of_writes_sub hostOps1 _ hostOps1_writes (by decide) : W3 m ρ c (Proc.devRef .tc main_arg3) = W2 m ρ c (Proc.devRef .tc main_arg3)).trans (W2_main_arg3 m ρ c)
theorem W3_main_arg4 (c : Dev nD) : W3 m ρ c (Proc.devRef .tc main_arg4) = m ((c : Thread nD τ).loc main_arg4) :=
  (StableHlo.after_of_writes_sub hostOps1 _ hostOps1_writes (by decide) : W3 m ρ c (Proc.devRef .tc main_arg4) = W2 m ρ c (Proc.devRef .tc main_arg4)).trans (W2_main_arg4 m ρ c)
theorem W3_main_arg5 (c : Dev nD) : W3 m ρ c (Proc.devRef .tc main_arg5) = m ((c : Thread nD τ).loc main_arg5) :=
  (StableHlo.after_of_writes_sub hostOps1 _ hostOps1_writes (by decide) : W3 m ρ c (Proc.devRef .tc main_arg5) = W2 m ρ c (Proc.devRef .tc main_arg5)).trans (W2_main_arg5 m ρ c)
theorem W3_main_arg6 (c : Dev nD) : W3 m ρ c (Proc.devRef .tc main_arg6) = m ((c : Thread nD τ).loc main_arg6) :=
  (StableHlo.after_of_writes_sub hostOps1 _ hostOps1_writes (by decide) : W3 m ρ c (Proc.devRef .tc main_arg6) = W2 m ρ c (Proc.devRef .tc main_arg6)).trans (W2_main_arg6 m ρ c)
theorem W3_main_arg7 (c : Dev nD) : W3 m ρ c (Proc.devRef .tc main_arg7) = m ((c : Thread nD τ).loc main_arg7) :=
  (StableHlo.after_of_writes_sub hostOps1 _ hostOps1_writes (by decide) : W3 m ρ c (Proc.devRef .tc main_arg7) = W2 m ρ c (Proc.devRef .tc main_arg7)).trans (W2_main_arg7 m ρ c)
theorem W3_main_arg8 (c : Dev nD) : W3 m ρ c (Proc.devRef .tc main_arg8) = m ((c : Thread nD τ).loc main_arg8) :=
  (StableHlo.after_of_writes_sub hostOps1 _ hostOps1_writes (by decide) : W3 m ρ c (Proc.devRef .tc main_arg8) = W2 m ρ c (Proc.devRef .tc main_arg8)).trans (W2_main_arg8 m ρ c)
theorem W3_main_arg9 (c : Dev nD) : W3 m ρ c (Proc.devRef .tc main_arg9) = m ((c : Thread nD τ).loc main_arg9) :=
  (StableHlo.after_of_writes_sub hostOps1 _ hostOps1_writes (by decide) : W3 m ρ c (Proc.devRef .tc main_arg9) = W2 m ρ c (Proc.devRef .tc main_arg9)).trans (W2_main_arg9 m ρ c)
theorem W3_main_arg10 (c : Dev nD) : W3 m ρ c (Proc.devRef .tc main_arg10) = m ((c : Thread nD τ).loc main_arg10) :=
  (StableHlo.after_of_writes_sub hostOps1 _ hostOps1_writes (by decide) : W3 m ρ c (Proc.devRef .tc main_arg10) = W2 m ρ c (Proc.devRef .tc main_arg10)).trans (W2_main_arg10 m ρ c)
theorem W3_main_arg11 (c : Dev nD) : W3 m ρ c (Proc.devRef .tc main_arg11) = m ((c : Thread nD τ).loc main_arg11) :=
  (StableHlo.after_of_writes_sub hostOps1 _ hostOps1_writes (by decide) : W3 m ρ c (Proc.devRef .tc main_arg11) = W2 m ρ c (Proc.devRef .tc main_arg11)).trans (W2_main_arg11 m ρ c)

/-! At region 1's exit. -/
theorem W4_main_arg0 (c : Dev nD) : W4 m ρ c (Proc.devRef .tc main_arg0) = m ((c : Thread nD τ).loc main_arg0) :=
  (W4_of_ne m ρ c main_arg0 (by decide) : W4 m ρ c (Proc.devRef .tc main_arg0) = W3 m ρ c (Proc.devRef .tc main_arg0)).trans (W3_main_arg0 m ρ c)
theorem W4_main_arg1 (c : Dev nD) : W4 m ρ c (Proc.devRef .tc main_arg1) = m ((c : Thread nD τ).loc main_arg1) :=
  (W4_of_ne m ρ c main_arg1 (by decide) : W4 m ρ c (Proc.devRef .tc main_arg1) = W3 m ρ c (Proc.devRef .tc main_arg1)).trans (W3_main_arg1 m ρ c)
theorem W4_main_arg2 (c : Dev nD) : W4 m ρ c (Proc.devRef .tc main_arg2) = m ((c : Thread nD τ).loc main_arg2) :=
  (W4_of_ne m ρ c main_arg2 (by decide) : W4 m ρ c (Proc.devRef .tc main_arg2) = W3 m ρ c (Proc.devRef .tc main_arg2)).trans (W3_main_arg2 m ρ c)
theorem W4_main_arg3 (c : Dev nD) : W4 m ρ c (Proc.devRef .tc main_arg3) = m ((c : Thread nD τ).loc main_arg3) :=
  (W4_of_ne m ρ c main_arg3 (by decide) : W4 m ρ c (Proc.devRef .tc main_arg3) = W3 m ρ c (Proc.devRef .tc main_arg3)).trans (W3_main_arg3 m ρ c)
theorem W4_main_arg4 (c : Dev nD) : W4 m ρ c (Proc.devRef .tc main_arg4) = m ((c : Thread nD τ).loc main_arg4) :=
  (W4_of_ne m ρ c main_arg4 (by decide) : W4 m ρ c (Proc.devRef .tc main_arg4) = W3 m ρ c (Proc.devRef .tc main_arg4)).trans (W3_main_arg4 m ρ c)
theorem W4_main_arg5 (c : Dev nD) : W4 m ρ c (Proc.devRef .tc main_arg5) = m ((c : Thread nD τ).loc main_arg5) :=
  (W4_of_ne m ρ c main_arg5 (by decide) : W4 m ρ c (Proc.devRef .tc main_arg5) = W3 m ρ c (Proc.devRef .tc main_arg5)).trans (W3_main_arg5 m ρ c)
theorem W4_main_arg6 (c : Dev nD) : W4 m ρ c (Proc.devRef .tc main_arg6) = m ((c : Thread nD τ).loc main_arg6) :=
  (W4_of_ne m ρ c main_arg6 (by decide) : W4 m ρ c (Proc.devRef .tc main_arg6) = W3 m ρ c (Proc.devRef .tc main_arg6)).trans (W3_main_arg6 m ρ c)
theorem W4_main_arg7 (c : Dev nD) : W4 m ρ c (Proc.devRef .tc main_arg7) = m ((c : Thread nD τ).loc main_arg7) :=
  (W4_of_ne m ρ c main_arg7 (by decide) : W4 m ρ c (Proc.devRef .tc main_arg7) = W3 m ρ c (Proc.devRef .tc main_arg7)).trans (W3_main_arg7 m ρ c)
theorem W4_main_arg8 (c : Dev nD) : W4 m ρ c (Proc.devRef .tc main_arg8) = m ((c : Thread nD τ).loc main_arg8) :=
  (W4_of_ne m ρ c main_arg8 (by decide) : W4 m ρ c (Proc.devRef .tc main_arg8) = W3 m ρ c (Proc.devRef .tc main_arg8)).trans (W3_main_arg8 m ρ c)
theorem W4_main_arg9 (c : Dev nD) : W4 m ρ c (Proc.devRef .tc main_arg9) = m ((c : Thread nD τ).loc main_arg9) :=
  (W4_of_ne m ρ c main_arg9 (by decide) : W4 m ρ c (Proc.devRef .tc main_arg9) = W3 m ρ c (Proc.devRef .tc main_arg9)).trans (W3_main_arg9 m ρ c)
theorem W4_main_arg10 (c : Dev nD) : W4 m ρ c (Proc.devRef .tc main_arg10) = m ((c : Thread nD τ).loc main_arg10) :=
  (W4_of_ne m ρ c main_arg10 (by decide) : W4 m ρ c (Proc.devRef .tc main_arg10) = W3 m ρ c (Proc.devRef .tc main_arg10)).trans (W3_main_arg10 m ρ c)
theorem W4_main_arg11 (c : Dev nD) : W4 m ρ c (Proc.devRef .tc main_arg11) = m ((c : Thread nD τ).loc main_arg11) :=
  (W4_of_ne m ρ c main_arg11 (by decide) : W4 m ρ c (Proc.devRef .tc main_arg11) = W3 m ρ c (Proc.devRef .tc main_arg11)).trans (W3_main_arg11 m ρ c)

/-! After the third host stretch. -/
theorem W5_main_arg0 (c : Dev nD) : W5 m ρ c (Proc.devRef .tc main_arg0) = m ((c : Thread nD τ).loc main_arg0) :=
  (StableHlo.after_of_writes_sub hostOps2 _ hostOps2_writes (by decide) : W5 m ρ c (Proc.devRef .tc main_arg0) = W4 m ρ c (Proc.devRef .tc main_arg0)).trans (W4_main_arg0 m ρ c)
theorem W5_main_arg1 (c : Dev nD) : W5 m ρ c (Proc.devRef .tc main_arg1) = m ((c : Thread nD τ).loc main_arg1) :=
  (StableHlo.after_of_writes_sub hostOps2 _ hostOps2_writes (by decide) : W5 m ρ c (Proc.devRef .tc main_arg1) = W4 m ρ c (Proc.devRef .tc main_arg1)).trans (W4_main_arg1 m ρ c)
theorem W5_main_arg2 (c : Dev nD) : W5 m ρ c (Proc.devRef .tc main_arg2) = m ((c : Thread nD τ).loc main_arg2) :=
  (StableHlo.after_of_writes_sub hostOps2 _ hostOps2_writes (by decide) : W5 m ρ c (Proc.devRef .tc main_arg2) = W4 m ρ c (Proc.devRef .tc main_arg2)).trans (W4_main_arg2 m ρ c)
theorem W5_main_arg3 (c : Dev nD) : W5 m ρ c (Proc.devRef .tc main_arg3) = m ((c : Thread nD τ).loc main_arg3) :=
  (StableHlo.after_of_writes_sub hostOps2 _ hostOps2_writes (by decide) : W5 m ρ c (Proc.devRef .tc main_arg3) = W4 m ρ c (Proc.devRef .tc main_arg3)).trans (W4_main_arg3 m ρ c)
theorem W5_main_arg4 (c : Dev nD) : W5 m ρ c (Proc.devRef .tc main_arg4) = m ((c : Thread nD τ).loc main_arg4) :=
  (StableHlo.after_of_writes_sub hostOps2 _ hostOps2_writes (by decide) : W5 m ρ c (Proc.devRef .tc main_arg4) = W4 m ρ c (Proc.devRef .tc main_arg4)).trans (W4_main_arg4 m ρ c)
theorem W5_main_arg5 (c : Dev nD) : W5 m ρ c (Proc.devRef .tc main_arg5) = m ((c : Thread nD τ).loc main_arg5) :=
  (StableHlo.after_of_writes_sub hostOps2 _ hostOps2_writes (by decide) : W5 m ρ c (Proc.devRef .tc main_arg5) = W4 m ρ c (Proc.devRef .tc main_arg5)).trans (W4_main_arg5 m ρ c)
theorem W5_main_arg6 (c : Dev nD) : W5 m ρ c (Proc.devRef .tc main_arg6) = m ((c : Thread nD τ).loc main_arg6) :=
  (StableHlo.after_of_writes_sub hostOps2 _ hostOps2_writes (by decide) : W5 m ρ c (Proc.devRef .tc main_arg6) = W4 m ρ c (Proc.devRef .tc main_arg6)).trans (W4_main_arg6 m ρ c)
theorem W5_main_arg7 (c : Dev nD) : W5 m ρ c (Proc.devRef .tc main_arg7) = m ((c : Thread nD τ).loc main_arg7) :=
  (StableHlo.after_of_writes_sub hostOps2 _ hostOps2_writes (by decide) : W5 m ρ c (Proc.devRef .tc main_arg7) = W4 m ρ c (Proc.devRef .tc main_arg7)).trans (W4_main_arg7 m ρ c)
theorem W5_main_arg8 (c : Dev nD) : W5 m ρ c (Proc.devRef .tc main_arg8) = m ((c : Thread nD τ).loc main_arg8) :=
  (StableHlo.after_of_writes_sub hostOps2 _ hostOps2_writes (by decide) : W5 m ρ c (Proc.devRef .tc main_arg8) = W4 m ρ c (Proc.devRef .tc main_arg8)).trans (W4_main_arg8 m ρ c)
theorem W5_main_arg9 (c : Dev nD) : W5 m ρ c (Proc.devRef .tc main_arg9) = m ((c : Thread nD τ).loc main_arg9) :=
  (StableHlo.after_of_writes_sub hostOps2 _ hostOps2_writes (by decide) : W5 m ρ c (Proc.devRef .tc main_arg9) = W4 m ρ c (Proc.devRef .tc main_arg9)).trans (W4_main_arg9 m ρ c)
theorem W5_main_arg10 (c : Dev nD) : W5 m ρ c (Proc.devRef .tc main_arg10) = m ((c : Thread nD τ).loc main_arg10) :=
  (StableHlo.after_of_writes_sub hostOps2 _ hostOps2_writes (by decide) : W5 m ρ c (Proc.devRef .tc main_arg10) = W4 m ρ c (Proc.devRef .tc main_arg10)).trans (W4_main_arg10 m ρ c)
theorem W5_main_arg11 (c : Dev nD) : W5 m ρ c (Proc.devRef .tc main_arg11) = m ((c : Thread nD τ).loc main_arg11) :=
  (StableHlo.after_of_writes_sub hostOps2 _ hostOps2_writes (by decide) : W5 m ρ c (Proc.devRef .tc main_arg11) = W4 m ρ c (Proc.devRef .tc main_arg11)).trans (W4_main_arg11 m ρ c)

/-! At region 2's exit, the last boundary. -/
theorem W6_main_arg0 (c : Dev nD) : W6 m ρ c (Proc.devRef .tc main_arg0) = m ((c : Thread nD τ).loc main_arg0) :=
  (W6_of_ne m ρ c main_arg0 (by decide) : W6 m ρ c (Proc.devRef .tc main_arg0) = W5 m ρ c (Proc.devRef .tc main_arg0)).trans (W5_main_arg0 m ρ c)
theorem W6_main_arg1 (c : Dev nD) : W6 m ρ c (Proc.devRef .tc main_arg1) = m ((c : Thread nD τ).loc main_arg1) :=
  (W6_of_ne m ρ c main_arg1 (by decide) : W6 m ρ c (Proc.devRef .tc main_arg1) = W5 m ρ c (Proc.devRef .tc main_arg1)).trans (W5_main_arg1 m ρ c)
theorem W6_main_arg2 (c : Dev nD) : W6 m ρ c (Proc.devRef .tc main_arg2) = m ((c : Thread nD τ).loc main_arg2) :=
  (W6_of_ne m ρ c main_arg2 (by decide) : W6 m ρ c (Proc.devRef .tc main_arg2) = W5 m ρ c (Proc.devRef .tc main_arg2)).trans (W5_main_arg2 m ρ c)
theorem W6_main_arg3 (c : Dev nD) : W6 m ρ c (Proc.devRef .tc main_arg3) = m ((c : Thread nD τ).loc main_arg3) :=
  (W6_of_ne m ρ c main_arg3 (by decide) : W6 m ρ c (Proc.devRef .tc main_arg3) = W5 m ρ c (Proc.devRef .tc main_arg3)).trans (W5_main_arg3 m ρ c)
theorem W6_main_arg4 (c : Dev nD) : W6 m ρ c (Proc.devRef .tc main_arg4) = m ((c : Thread nD τ).loc main_arg4) :=
  (W6_of_ne m ρ c main_arg4 (by decide) : W6 m ρ c (Proc.devRef .tc main_arg4) = W5 m ρ c (Proc.devRef .tc main_arg4)).trans (W5_main_arg4 m ρ c)
theorem W6_main_arg5 (c : Dev nD) : W6 m ρ c (Proc.devRef .tc main_arg5) = m ((c : Thread nD τ).loc main_arg5) :=
  (W6_of_ne m ρ c main_arg5 (by decide) : W6 m ρ c (Proc.devRef .tc main_arg5) = W5 m ρ c (Proc.devRef .tc main_arg5)).trans (W5_main_arg5 m ρ c)
theorem W6_main_arg6 (c : Dev nD) : W6 m ρ c (Proc.devRef .tc main_arg6) = m ((c : Thread nD τ).loc main_arg6) :=
  (W6_of_ne m ρ c main_arg6 (by decide) : W6 m ρ c (Proc.devRef .tc main_arg6) = W5 m ρ c (Proc.devRef .tc main_arg6)).trans (W5_main_arg6 m ρ c)
theorem W6_main_arg7 (c : Dev nD) : W6 m ρ c (Proc.devRef .tc main_arg7) = m ((c : Thread nD τ).loc main_arg7) :=
  (W6_of_ne m ρ c main_arg7 (by decide) : W6 m ρ c (Proc.devRef .tc main_arg7) = W5 m ρ c (Proc.devRef .tc main_arg7)).trans (W5_main_arg7 m ρ c)
theorem W6_main_arg8 (c : Dev nD) : W6 m ρ c (Proc.devRef .tc main_arg8) = m ((c : Thread nD τ).loc main_arg8) :=
  ((W6_arr m ρ c 6).trans (((dat2 (V5 m ρ) c).arrAt_in 6 rfl _).trans (A_eq2 (V5 m ρ) c 6)) : W6 m ρ c (Proc.devRef .tc main_arg8) = W5 m ρ c (Proc.devRef .tc main_arg8)).trans (W5_main_arg8 m ρ c)
theorem W6_main_arg9 (c : Dev nD) : W6 m ρ c (Proc.devRef .tc main_arg9) = m ((c : Thread nD τ).loc main_arg9) :=
  (W6_of_ne m ρ c main_arg9 (by decide) : W6 m ρ c (Proc.devRef .tc main_arg9) = W5 m ρ c (Proc.devRef .tc main_arg9)).trans (W5_main_arg9 m ρ c)
theorem W6_main_arg10 (c : Dev nD) : W6 m ρ c (Proc.devRef .tc main_arg10) = m ((c : Thread nD τ).loc main_arg10) :=
  ((W6_arr m ρ c 8).trans (((dat2 (V5 m ρ) c).arrAt_in 8 rfl _).trans (A_eq2 (V5 m ρ) c 8)) : W6 m ρ c (Proc.devRef .tc main_arg10) = W5 m ρ c (Proc.devRef .tc main_arg10)).trans (W5_main_arg10 m ρ c)
theorem W6_main_arg11 (c : Dev nD) : W6 m ρ c (Proc.devRef .tc main_arg11) = m ((c : Thread nD τ).loc main_arg11) :=
  (W6_of_ne m ρ c main_arg11 (by decide) : W6 m ρ c (Proc.devRef .tc main_arg11) = W5 m ρ c (Proc.devRef .tc main_arg11)).trans (W5_main_arg11 m ρ c)

/-! ### The buffers one region leaves for a later item -/

/-- The first layer's output rows: what region 0's write-backs leave in its output window's array. -/
theorem W2_v36 (c : Dev nD) : W2 m ρ c (Proc.devRef .tc main_v36) = (dat0 (V1 m ρ) c).arrAt 5 cfg0.N :=
  W2_arr m ρ c 5
/-- The second layer's output rows: what region 1's write-backs leave in its output window's array. -/
theorem W4_v68 (c : Dev nD) : W4 m ρ c (Proc.devRef .tc main_v68) = (dat1 (V3 m ρ) c).arrAt 5 cfg1.N :=
  W4_arr m ρ c 5
/-- The column of graph indices, which the first host stretch writes and region 2 reads, is carried unchanged from
    region 0's entry to region 2's: no later stretch writes it and it is no array of regions 0 and 1. -/
theorem W5_v4 (c : Dev nD) : W5 m ρ c (Proc.devRef .tc main_v4) = W1 m ρ c (Proc.devRef .tc main_v4) :=
  calc W5 m ρ c (Proc.devRef .tc main_v4)
    _ = W4 m ρ c (Proc.devRef .tc main_v4) := StableHlo.after_of_writes_sub hostOps2 _ hostOps2_writes (by decide)
    _ = W3 m ρ c (Proc.devRef .tc main_v4) := W4_of_ne m ρ c main_v4 (by decide)
    _ = W2 m ρ c (Proc.devRef .tc main_v4) := StableHlo.after_of_writes_sub hostOps1 _ hostOps1_writes (by decide)
    _ = W1 m ρ c (Proc.devRef .tc main_v4) := W2_of_ne m ρ c main_v4 (by decide)
/-- The edges' source and destination rows, which the first host stretch writes and the later stretches' scatter-adds
    read, are carried unchanged from region 0's entry: no region has them among its arrays and the second stretch does
    not write them. -/
theorem W2_v1 (c : Dev nD) : W2 m ρ c (Proc.devRef .tc main_v1) = W1 m ρ c (Proc.devRef .tc main_v1) :=
  W2_of_ne m ρ c main_v1 (by decide)
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps1 _ hostOps1_writes (by decide)
    _ = W1 m ρ c (Proc.devRef .tc main_v1) := W2_v1 m ρ c
theorem W2_v3 (c : Dev nD) : W2 m ρ c (Proc.devRef .tc main_v3) = W1 m ρ c (Proc.devRef .tc main_v3) :=
  W2_of_ne m ρ c main_v3 (by decide)
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_writes_sub hostOps1 _ hostOps1_writes (by decide)
    _ = W1 m ρ c (Proc.devRef .tc main_v3) := W2_v3 m ρ c
/-- The result buffer ends holding what region 2's write-backs leave in its output window's array. -/
theorem W6_result (c : Dev nD) : W6 m ρ c (Proc.devRef .tc main_v102) = (dat2 (V5 m ρ) c).arrAt 10 cfg2.N :=
  W6_arr m ρ c 10

/-! ## The proof data family and the thread state -/

/-- Every pipeline's proof data, each at its region's entry contents: a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its post is
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- the library's entry and exit lemmas speak of the pinned configuration `pin pcfgs adm K`, which is the printed `cfgK`
-- only after unfolding
set_option backward.isDefEq.respectTransparency.types false in
/-- REGION 0 (the first layer's perceptron over the ten row blocks) over the thread state: entered from every unscoped
    buffer at `W1`, left at `W2`. Its arrays split out of the unscoped buffers and put back at the exit contents; the
    generator register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas speak of the pinned configuration `pin pcfgs adm K`, which is the printed `cfgK`
-- only after unfolding
set_option backward.isDefEq.respectTransparency.types false in
/-- REGION 1 (the second layer's perceptron over the ten row blocks): entered from `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas speak of the pinned configuration `pin pcfgs adm K`, which is the printed `cfgK`
-- only after unfolding
set_option backward.isDefEq.respectTransparency.types false in
/-- REGION 2 (the third layer's perceptron, the pooling of the rows into their graphs accumulated over the 25 row
    blocks, and the readout at the last one): entered from `W5`, left at `W6`, the last boundary. Its invariant carries
    the accumulator between grid points: at the first point it is the class invariant (`Phi2_zero`), and at the last it
    gives the class invariant back (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 (fun c t => owed2_zero (V5 m ρ) c t)
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full (q2_full (V5 m ρ) c)) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi2_zero (V5 m ρ) c]; unfold Pipeline.ΦA
    iintro ⟨Hp, -, Hr⟩
    isplitl [Hr]; · iexact Hr
    iexact Hp
  hout c := by
    rw [Pipeline.ownSems0_none]
    have hΦ : (pdats m ρ 2 c).Φ (Fin.last _) ⊢ Pipeline.ΦA spec2 c := hout2 (V5 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full (q2_full (V5 m ρ) c))
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per layer. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: its chain of items, then the segments' run against that chain. -/
theorem main_run (c : Dev nD) : main (F := F) c = Pipeline.Seg.run (segs m ρ) := (main_chain c).trans (by chain_rfl)

-- the launch theorem's conclusion is this one only after unfolding `defs` and the pinned configurations
set_option backward.isDefEq.respectTransparency.types false in
/-- THE RUN: at the compiled mesh, from any memory with zero counters, every weakly fair execution of @main on the
    TensorCores terminates, nothing faulting, and every final state has every unscoped buffer at the last boundary's
    contents `W6`: the several-regions launch theorem over the segments, the last thread state read against the final state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every weakly fair execution of @main terminates and every argument array ends as launched: the run,
    each argument's buffer read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  MeshRun.mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c)⟩) (run_main m ρ)

end Cert.Kernel.Hand

end
-- ==== Proof.KI.R0.lean ====
import proofs.«420259_j2267742732765_3_alg».proof.Proof.Gen.KernelIdeal.Launch
import proofs.«420259_j2267742732765_3_alg».proof.Proof.Gen.KernelIdeal.Skeleton
import proofs.«420259_j2267742732765_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The inputs' staging buffers hold their blocks -/

/-- Window 0 (the row block) is an input the body only reads: whatever proof data has the region's array for it and
    leaves its block in place finds the block in the current staging buffer at every grid point. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- Window 1 (the first layer's weights) is an input the body only reads: whatever proof data has the region's array for it and
    leaves its block in place finds the block in the current staging buffer at every grid point, also at the points
    after the first, where nothing is fetched and the block index has not moved. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

/-- Window 2 (the first layer's bias) is an input the body only reads: whatever proof data has the region's array for it and
    leaves its block in place finds the block in the current staging buffer at every grid point, also at the points
    after the first, where nothing is fetched and the block index has not moved. -/
theorem held0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

/-- Window 3 (the second layer's weights) is an input the body only reads: whatever proof data has the region's array for it and
    leaves its block in place finds the block in the current staging buffer at every grid point, also at the points
    after the first, where nothing is fetched and the block index has not moved. -/
theorem held0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  rw [dat.before_in_eq_fetched 3 rfl (fun _ => rfl) (fun _ _ _ => rfl) hkeep t d]
  unfold Dat.fetched Dat.blockOf iblk0; rw [hA]; try rfl

/-- Window 4 (the second layer's bias) is an input the body only reads: whatever proof data has the region's array for it and
    leaves its block in place finds the block in the current staging buffer at every grid point, also at the points
    after the first, where nothing is fetched and the block index has not moved. -/
theorem held0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  have hkeep : ∀ t, (cfg0.win 4).cut (cfg0.grid.coords t) (dat.after 4 t) = dat.blockOf 4 t := fun t => by
    rw [hafter]; unfold Dat.blockOf iblk0; rw [hA]; try rfl
  rw [dat.before_in_eq_fetched 4 rfl (fun _ => rfl) (fun _ _ _ => rfl) hkeep t d]
  unfold Dat.fetched Dat.blockOf iblk0; rw [hA]; try rfl

/-! ## The body's accesses: every load and the one store go through the whole buffer -/

/-- Both offsets of every access are zero. -/
theorem zeros0 : (![0, 0] : Fin 2 → Nat) = fun _ => 0 := funext fun a => by fin_cases a <;> rfl

abbrev r0_x : Rect S5000x96 := Rect.unit (s := S5000x96) ![0, 0] S5000x96.size inb_S5000x96_S5000x96_0_0
abbrev r0_W1 : Rect S96x192 := Rect.unit (s := S96x192) ![0, 0] S96x192.size inb_S96x192_S96x192_0_0
abbrev r0_b1 : Rect S1x192 := Rect.unit (s := S1x192) ![0, 0] S1x192.size inb_S1x192_S1x192_0_0
abbrev r0_W2 : Rect S192x96 := Rect.unit (s := S192x96) ![0, 0] S192x96.size inb_S192x96_S192x96_0_0
abbrev r0_b2 : Rect S1x96 := Rect.unit (s := S1x96) ![0, 0] S1x96.size inb_S1x96_S1x96_0_0

/-- What the body's one store leaves in the result's staging buffer, as the store's piece over what the five loads read. -/
def out0_5 (x0 : Vec F S5000x96 .f32) (x1 : Vec F S96x192 .f32) (x2 : Vec F S1x192 .f32) (x3 : Vec F S192x96 .f32) (x4 : Vec F S1x96 .f32) :
    Vec F S5000x96 .f32 :=
  View.canon [⟨r0_x, k0_pay1 (View.ld x0 r0_x) (View.ld x1 r0_W1) (View.ld x2 r0_b1) (View.ld x3 r0_W2) (View.ld x4 r0_b2)⟩]

/-- Every access being of the whole buffer, that is the perceptron of the five buffers themselves. -/
theorem out0_5_eq (x0 : Vec F S5000x96 .f32) (x1 : Vec F S96x192 .f32) (x2 : Vec F S1x192 .f32) (x3 : Vec F S192x96 .f32) (x4 : Vec F S1x96 .f32) :
    out0_5 x0 x1 x2 x3 x4 = k0_pay1 x0 x1 x2 x3 x4 := by
  unfold out0_5
  rw [View.canon_unit_zero (S := S5000x96) zeros0 inb_S5000x96_S5000x96_0_0,
    View.ld_unit_zero (S := S5000x96) zeros0 inb_S5000x96_S5000x96_0_0 x0,
    View.ld_unit_zero (S := S96x192) zeros0 inb_S96x192_S96x192_0_0 x1,
    View.ld_unit_zero (S := S1x192) zeros0 inb_S1x192_S1x192_0_0 x2,
    View.ld_unit_zero (S := S192x96) zeros0 inb_S192x96_S192x96_0_0 x3,
    View.ld_unit_zero (S := S1x96) zeros0 inb_S1x96_S1x96_0_0 x4]

/-- The store is of the whole result buffer, so it covers it. -/
theorem cover0_5 (p : Vec F S5000x96 .f32) (y : S5000x96.Idx) :
    ∃ pc ∈ ([⟨r0_x, p⟩] : List (View.Piece (Elt F) S5000x96 .f32)), y ∈ pc.1.set :=
  ⟨_, List.mem_singleton_self _, View.mem_set_unit_zero (S := S5000x96) zeros0 inb_S5000x96_S5000x96_0_0 y⟩

/-! ## The body's triple -/

set_option maxHeartbeats 1000000 in
/-- The layer's body on whole staging memrefs, the five inputs' at read contents `x0 … x4` and the result's at anything,
    runs to the continuation holding the inputs' as they were and the result's at the perceptron's piece. -/
theorem sound_kernel0 (c : Dev nD) (E : Set ℕ) (i : grid0.Coords)
    (a0 : Memref sig .tc .vmem S5000x96 .f32) (h0 : a0.IsWhole) (a1 : Memref sig .tc .vmem S96x192 .f32) (h1 : a1.IsWhole)
    (a2 : Memref sig .tc .vmem S1x192 .f32) (h2 : a2.IsWhole) (a3 : Memref sig .tc .vmem S192x96 .f32) (h3 : a3.IsWhole)
    (a4 : Memref sig .tc .vmem S1x96 .f32) (h4 : a4.IsWhole) (a5 : Memref sig .tc .vmem S5000x96 .f32) (h5 : a5.IsWhole)
    (x0 : Vec F S5000x96 .f32) (x1 : Vec F S96x192 .f32) (x2 : Vec F S1x192 .f32) (x3 : Vec F S192x96 .f32) (x4 : Vec F S1x96 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out0_5 x0 x1 x2 x3 x4)) -∗ K ⟨⟩))
      ⊢ wp frame (wpE (defs₀ (F := F)) Variants.none c none) E (cc0__gin_layer_kernel i a0 h0 a1 h1 a2 h2 a3 h3 a4 h4 a5 h5) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0: the arrays as the region finds them; every input's staging buffer keeps its block;
    the result's staging buffer holds the two-layer perceptron of the row block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay1 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = k0_pay1 (iblk0 V c 0 t) (iblk0 V c 1 t) (iblk0 V c 2 t) (iblk0 V c 3 t) (iblk0 V c 4 t) := by
  dsimp only [dat0]

theorem Phi0_eq (c : Dev nD) (t : Fin (cfg0.N + 1)) : (dat0 V c).Φ t = Pipeline.ΦA spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current staging buffer holds its block at every grid point. -/
theorem held0_0 (c : Dev nD) (t : Fin cfg0.N) (d) : (dat0 V c).before 0 t d = iblk0 V c 0 t :=
  held0_0_of V (dat0 V c) (A_eq0 V c 0) (after0_0 V c) t d
theorem held0_1 (c : Dev nD) (t : Fin cfg0.N) (d) : (dat0 V c).before 1 t d = iblk0 V c 1 t :=
  held0_1_of V (dat0 V c) (A_eq0 V c 1) (after0_1 V c) t d
theorem held0_2 (c : Dev nD) (t : Fin cfg0.N) (d) : (dat0 V c).before 2 t d = iblk0 V c 2 t :=
  held0_2_of V (dat0 V c) (A_eq0 V c 2) (after0_2 V c) t d
theorem held0_3 (c : Dev nD) (t : Fin cfg0.N) (d) : (dat0 V c).before 3 t d = iblk0 V c 3 t :=
  held0_3_of V (dat0 V c) (A_eq0 V c 3) (after0_3 V c) t d
theorem held0_4 (c : Dev nD) (t : Fin cfg0.N) (d) : (dat0 V c).before 4 t d = iblk0 V c 4 t :=
  held0_4_of V (dat0 V c) (A_eq0 V c 4) (after0_4 V c) t d

/-! ## The body obligation, at a generic grid point -/

/-- What the body is called with at point `t`: the invariant, the core's debts, and the six windows' current staging
    buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the five inputs' memrefs hold their blocks, so the body's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, ← out0_5_eq]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«420259_j2267742732765_3_alg».proof.Proof.Gen.KernelIdeal.Launch
import proofs.«420259_j2267742732765_3_alg».proof.Proof.Gen.KernelIdeal.Skeleton
import proofs.«420259_j2267742732765_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers hold their blocks -/

/-- Window 0 (the row block) is an input the body only reads: whatever proof data has the region's array for it and
    leaves its block in place finds the block in the current staging buffer at every grid point. -/
theorem held1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- Window 1 (the first layer's weights) is an input the body only reads: whatever proof data has the region's array for it and
    leaves its block in place finds the block in the current staging buffer at every grid point, also at the points
    after the first, where nothing is fetched and the block index has not moved. -/
theorem held1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- Window 2 (the first layer's bias) is an input the body only reads: whatever proof data has the region's array for it and
    leaves its block in place finds the block in the current staging buffer at every grid point, also at the points
    after the first, where nothing is fetched and the block index has not moved. -/
theorem held1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-- Window 3 (the second layer's weights) is an input the body only reads: whatever proof data has the region's array for it and
    leaves its block in place finds the block in the current staging buffer at every grid point, also at the points
    after the first, where nothing is fetched and the block index has not moved. -/
theorem held1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

/-- Window 4 (the second layer's bias) is an input the body only reads: whatever proof data has the region's array for it and
    leaves its block in place finds the block in the current staging buffer at every grid point, also at the points
    after the first, where nothing is fetched and the block index has not moved. -/
theorem held1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  have hkeep : ∀ t, (cfg1.win 4).cut (cfg1.grid.coords t) (dat.after 4 t) = dat.blockOf 4 t := fun t => by
    rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl

/-! ## The body's accesses: every load and the one store go through the whole buffer -/

/-- Both offsets of every access are zero. -/
theorem zeros1 : (![0, 0] : Fin 2 → Nat) = fun _ => 0 := funext fun a => by fin_cases a <;> rfl

abbrev r1_x : Rect S5000x96 := Rect.unit (s := S5000x96) ![0, 0] S5000x96.size inb_S5000x96_S5000x96_0_0
abbrev r1_W1 : Rect S96x192 := Rect.unit (s := S96x192) ![0, 0] S96x192.size inb_S96x192_S96x192_0_0
abbrev r1_b1 : Rect S1x192 := Rect.unit (s := S1x192) ![0, 0] S1x192.size inb_S1x192_S1x192_0_0
abbrev r1_W2 : Rect S192x96 := Rect.unit (s := S192x96) ![0, 0] S192x96.size inb_S192x96_S192x96_0_0
abbrev r1_b2 : Rect S1x96 := Rect.unit (s := S1x96) ![0, 0] S1x96.size inb_S1x96_S1x96_0_0

/-- What the body's one store leaves in the result's staging buffer, as the store's piece over what the five loads read. -/
def out1_5 (x0 : Vec F S5000x96 .f32) (x1 : Vec F S96x192 .f32) (x2 : Vec F S1x192 .f32) (x3 : Vec F S192x96 .f32) (x4 : Vec F S1x96 .f32) :
    Vec F S5000x96 .f32 :=
  View.canon [⟨r1_x, k1_pay1 (View.ld x0 r1_x) (View.ld x1 r1_W1) (View.ld x2 r1_b1) (View.ld x3 r1_W2) (View.ld x4 r1_b2)⟩]

/-- Every access being of the whole buffer, that is the perceptron of the five buffers themselves. -/
theorem out1_5_eq (x0 : Vec F S5000x96 .f32) (x1 : Vec F S96x192 .f32) (x2 : Vec F S1x192 .f32) (x3 : Vec F S192x96 .f32) (x4 : Vec F S1x96 .f32) :
    out1_5 x0 x1 x2 x3 x4 = k1_pay1 x0 x1 x2 x3 x4 := by
  unfold out1_5
  rw [View.canon_unit_zero (S := S5000x96) zeros1 inb_S5000x96_S5000x96_0_0,
    View.ld_unit_zero (S := S5000x96) zeros1 inb_S5000x96_S5000x96_0_0 x0,
    View.ld_unit_zero (S := S96x192) zeros1 inb_S96x192_S96x192_0_0 x1,
    View.ld_unit_zero (S := S1x192) zeros1 inb_S1x192_S1x192_0_0 x2,
    View.ld_unit_zero (S := S192x96) zeros1 inb_S192x96_S192x96_0_0 x3,
    View.ld_unit_zero (S := S1x96) zeros1 inb_S1x96_S1x96_0_0 x4]

/-- The store is of the whole result buffer, so it covers it. -/
theorem cover1_5 (p : Vec F S5000x96 .f32) (y : S5000x96.Idx) :
    ∃ pc ∈ ([⟨r1_x, p⟩] : List (View.Piece (Elt F) S5000x96 .f32)), y ∈ pc.1.set :=
  ⟨_, List.mem_singleton_self _, View.mem_set_unit_zero (S := S5000x96) zeros1 inb_S5000x96_S5000x96_0_0 y⟩

/-! ## The body's triple -/

set_option maxHeartbeats 1000000 in
/-- The layer's body on whole staging memrefs, the five inputs' at read contents `x0 … x4` and the result's at anything,
    runs to the continuation holding the inputs' as they were and the result's at the perceptron's piece. -/
theorem sound_kernel1 (c : Dev nD) (E : Set ℕ) (i : grid1.Coords)
    (a0 : Memref sig .tc .vmem S5000x96 .f32) (h0 : a0.IsWhole) (a1 : Memref sig .tc .vmem S96x192 .f32) (h1 : a1.IsWhole)
    (a2 : Memref sig .tc .vmem S1x192 .f32) (h2 : a2.IsWhole) (a3 : Memref sig .tc .vmem S192x96 .f32) (h3 : a3.IsWhole)
    (a4 : Memref sig .tc .vmem S1x96 .f32) (h4 : a4.IsWhole) (a5 : Memref sig .tc .vmem S5000x96 .f32) (h5 : a5.IsWhole)
    (x0 : Vec F S5000x96 .f32) (x1 : Vec F S96x192 .f32) (x2 : Vec F S1x192 .f32) (x3 : Vec F S192x96 .f32) (x4 : Vec F S1x96 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__gin_layer_kernel i a0 h0 a1 h1 a2 h2 a3 h3 a4 h4 a5 h5) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1: the arrays as the region finds them; every input's staging buffer keeps its block;
    the result's staging buffer holds the two-layer perceptron of the row block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = k1_pay1 (iblk1 V c 0 t) (iblk1 V c 1 t) (iblk1 V c 2 t) (iblk1 V c 3 t) (iblk1 V c 4 t) := by
  dsimp only [dat1]

theorem Phi1_eq (c : Dev nD) (t : Fin (cfg1.N + 1)) : (dat1 V c).Φ t = Pipeline.ΦA spec1 c := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- Each input's current staging buffer holds its block at every grid point. -/
theorem held1_0 (c : Dev nD) (t : Fin cfg1.N) (d) : (dat1 V c).before 0 t d = iblk1 V c 0 t :=
  held1_0_of V (dat1 V c) (A_eq1 V c 0) (after1_0 V c) t d
theorem held1_1 (c : Dev nD) (t : Fin cfg1.N) (d) : (dat1 V c).before 1 t d = iblk1 V c 1 t :=
  held1_1_of V (dat1 V c) (A_eq1 V c 1) (after1_1 V c) t d
theorem held1_2 (c : Dev nD) (t : Fin cfg1.N) (d) : (dat1 V c).before 2 t d = iblk1 V c 2 t :=
  held1_2_of V (dat1 V c) (A_eq1 V c 2) (after1_2 V c) t d
theorem held1_3 (c : Dev nD) (t : Fin cfg1.N) (d) : (dat1 V c).before 3 t d = iblk1 V c 3 t :=
  held1_3_of V (dat1 V c) (A_eq1 V c 3) (after1_3 V c) t d
theorem held1_4 (c : Dev nD) (t : Fin cfg1.N) (d) : (dat1 V c).before 4 t d = iblk1 V c 4 t :=
  held1_4_of V (dat1 V c) (A_eq1 V c 4) (after1_4 V c) t d

/-! ## The body obligation, at a generic grid point -/

/-- What the body is called with at point `t`: the invariant, the core's debts, and the six windows' current staging
    buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the five inputs' memrefs hold their blocks, so the body's triple applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, ← out1_5_eq]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«420259_j2267742732765_3_alg».proof.Proof.Gen.KernelIdeal.Launch
import proofs.«420259_j2267742732765_3_alg».proof.Proof.Gen.KernelIdeal.Skeleton
import proofs.«420259_j2267742732765_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the pooling call, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's update of the pooled sums: the layer-2 MLP of the point's rows, pooled by the one-hot of their
    graph ids and added to the running sums `a`. -/
def accStep2 (c : Dev nD) (t : Fin cfg2.N) (a : Vec F S64x96 .f32) : Vec F S64x96 .f32 :=
  k2_pay1 (k2_pay4 (iblk2 V c 0 t) (iblk2 V c 2 t) (iblk2 V c 3 t) (iblk2 V c 4 t) (iblk2 V c 5 t) (iblk2 V c 1 t) a)

/-- The pooled sums after point `n`: from zero at the first point, one update per point. -/
def acc2 (c : Dev nD) : (n : ℕ) → n < cfg2.N → Vec F S64x96 .f32
  | 0, h => accStep2 V c ⟨0, h⟩ k2_pay3
  | n + 1, h => accStep2 V c ⟨n + 1, h⟩ (acc2 c n (Nat.lt_of_succ_lt h))

theorem acc2_zero (c : Dev nD) (h : 0 < cfg2.N) :
    acc2 V c 0 h = k2_pay1 (k2_pay4 (iblk2 V c 0 ⟨0, h⟩) (iblk2 V c 2 ⟨0, h⟩) (iblk2 V c 3 ⟨0, h⟩) (iblk2 V c 4 ⟨0, h⟩) (iblk2 V c 5 ⟨0, h⟩) (iblk2 V c 1 ⟨0, h⟩) k2_pay3) := rfl

theorem acc2_succ (c : Dev nD) (n : ℕ) (h : n + 1 < cfg2.N) :
    acc2 V c (n + 1) h = k2_pay1 (k2_pay4 (iblk2 V c 0 ⟨n + 1, h⟩) (iblk2 V c 2 ⟨n + 1, h⟩) (iblk2 V c 3 ⟨n + 1, h⟩) (iblk2 V c 4 ⟨n + 1, h⟩) (iblk2 V c 5 ⟨n + 1, h⟩) (iblk2 V c 1 ⟨n + 1, h⟩) (acc2 V c n (Nat.lt_of_succ_lt h))) := rfl

/-- The sums after the first point: one update from zero. -/
theorem acc2_first (c : Dev nD) (t : Fin cfg2.N) (h : t.val = 0) : acc2 V c t.val t.isLt = accStep2 V c t k2_pay3 := by
  obtain ⟨n, hn⟩ := t
  dsimp only at h
  subst h
  rfl

/-- The sums after a later point: one update from the sums the point before left. -/
theorem acc2_later (c : Dev nD) (t : Fin cfg2.N) (h : t.val ≠ 0) :
    acc2 V c t.val t.isLt = accStep2 V c t (acc2 V c (t.val - 1) (Nat.lt_of_le_of_lt (Nat.sub_le _ _) t.isLt)) := by
  obtain ⟨n, hn⟩ := t
  cases n with
  | zero => exact absurd rfl h
  | succ n => rfl

/-! ## The body's branch conditions, in closed form -/

/-- The condition of the body's first `scf.if` (the reset of the sums), from the grid coordinates. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the body's second `scf.if` (the final MLP and the store of the result). -/
abbrev cond2_1 (i : grid2.Coords) : Prop := k2_cond2 i = 1#1
/-- It holds at the last point only. -/
theorem hcond2_1 : ∀ t : Fin cfg2.N, cond2_1 (grid2.coords t) ↔ t.val = 24 :=
  (by decide +kernel : ∀ t : Fin grid2.N, cond2_1 (grid2.coords t) ↔ t.val = 24)

/-! ## Where the result's window is idle -/

/-- Before the last point the body stores nothing into the result's buffer, -/
theorem idleAt2_10 : ∀ t : Fin cfg2.N, ¬cond2_1 (grid2.coords t) → cfg2.idle 10 (grid2.coords t) = true := by decide +kernel
/-- and the pipeline does not write it back; -/
theorem noFlush2_10 : ∀ t : Fin cfg2.N, ¬cond2_1 (grid2.coords t) → (cfg2.win 10).flush t = false := by decide +kernel
/-- at the last point the body stores into it. -/
theorem liveAt2_10 : ∀ t : Fin cfg2.N, cond2_1 (grid2.coords t) → cfg2.idle 10 (grid2.coords t) = false := by decide +kernel

/-- The zero offsets of a rank-2 rectangle, however spelt. -/
theorem zeros2 : (![0, 0] : Fin 2 → Nat) = fun _ => 0 := funext fun a => by fin_cases a <;> rfl

/-- A store through the whole-shape rectangle at zero offsets, made LAST, is what the buffer then reads as,
    whatever the earlier stores and prior contents. -/
theorem read_writes_cons_whole {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## What the body finds in each input window's buffer -/

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is the entry contents and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof data
    whose array is the entry contents and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof data
    whose array is the entry contents and whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not, for any proof data
    whose array is the entry contents and whose body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple, case by case -/

set_option maxHeartbeats 1000000 in
/-- THE FIRST POINT. On whole staging memrefs, the inputs' at contents `x·`, the result's at `y`, the scratch at
    anything: the body zeroes the sums, adds the point's pooled rows and leaves them in the scratch; the result's
    buffer is untouched. -/
theorem sound_kernel2_first (c : Dev nD) (E : Set ℕ) (i : grid2.Coords) (arg1 : Memref sig .tc .vmem S2000x96 .f32) (harg1 : arg1.IsWhole) (arg2 : Memref sig .tc .vmem S2000x1 .i32) (harg2 : arg2.IsWhole) (arg3 : Memref sig .tc .vmem S96x192 .f32) (harg3 : arg3.IsWhole) (arg4 : Memref sig .tc .vmem S1x192 .f32) (harg4 : arg4.IsWhole) (arg5 : Memref sig .tc .vmem S192x96 .f32) (harg5 : arg5.IsWhole) (arg6 : Memref sig .tc .vmem S1x96 .f32) (harg6 : arg6.IsWhole) (arg7 : Memref sig .tc .vmem S96x96 .f32) (harg7 : arg7.IsWhole) (arg8 : Memref sig .tc .vmem S1x96 .f32) (harg8 : arg8.IsWhole) (arg9 : Memref sig .tc .vmem S96x1 .f32) (harg9 : arg9.IsWhole) (arg10 : Memref sig .tc .vmem S1x1 .f32) (harg10 : arg10.IsWhole) (arg11 : Memref sig .tc .vmem S64x1 .f32) (harg11 : arg11.IsWhole) (arg12 : Memref sig .tc .vmem S64x96 .f32) (harg12 : arg12.IsWhole)
    (hc0 : cond2_0 i) (hc1 : ¬cond2_1 i) (x0 : Vec F S2000x96 .f32) (x1 : Vec F S2000x1 .i32) (x2 : Vec F S96x192 .f32) (x3 : Vec F S1x192 .f32) (x4 : Vec F S192x96 .f32) (x5 : Vec F S1x96 .f32) (x6 : Vec F S96x96 .f32) (x7 : Vec F S1x96 .f32) (x8 : Vec F S96x1 .f32) (x9 : Vec F S1x1 .f32) (y : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y
            ∗ owns (c : Thread nD τ) arg12 fullShare (k2_pay1 (k2_pay4 x0 x2 x3 x4 x5 x1 k2_pay3))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11 arg12 harg12) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  sl_unfold_run_names
  rw [read_writes_cons_whole (S := S64x96) _ _ zeros2]
  dsimp only
  rw [View.readCov_unit_zero (S := S64x96) _ zeros2]
  simp only [View.readAt_eq_ld, View.ld_unit_zero (S := S2000x96) zeros2, View.ld_unit_zero (S := S2000x1) zeros2, View.ld_unit_zero (S := S96x192) zeros2, View.ld_unit_zero (S := S1x192) zeros2, View.ld_unit_zero (S := S192x96) zeros2, View.ld_unit_zero (S := S1x96) zeros2, View.ld_unit_zero (S := S96x96) zeros2, View.ld_unit_zero (S := S96x1) zeros2, View.ld_unit_zero (S := S1x1) zeros2, View.ld_unit_zero (S := S64x96) zeros2, View.ld_unit_zero (S := S64x1) zeros2]

set_option maxHeartbeats 1000000 in
/-- A MIDDLE POINT. The scratch holds the sums `a` so far: the body adds the point's pooled rows; the result's
    buffer is untouched. -/
theorem sound_kernel2_middle (c : Dev nD) (E : Set ℕ) (i : grid2.Coords) (arg1 : Memref sig .tc .vmem S2000x96 .f32) (harg1 : arg1.IsWhole) (arg2 : Memref sig .tc .vmem S2000x1 .i32) (harg2 : arg2.IsWhole) (arg3 : Memref sig .tc .vmem S96x192 .f32) (harg3 : arg3.IsWhole) (arg4 : Memref sig .tc .vmem S1x192 .f32) (harg4 : arg4.IsWhole) (arg5 : Memref sig .tc .vmem S192x96 .f32) (harg5 : arg5.IsWhole) (arg6 : Memref sig .tc .vmem S1x96 .f32) (harg6 : arg6.IsWhole) (arg7 : Memref sig .tc .vmem S96x96 .f32) (harg7 : arg7.IsWhole) (arg8 : Memref sig .tc .vmem S1x96 .f32) (harg8 : arg8.IsWhole) (arg9 : Memref sig .tc .vmem S96x1 .f32) (harg9 : arg9.IsWhole) (arg10 : Memref sig .tc .vmem S1x1 .f32) (harg10 : arg10.IsWhole) (arg11 : Memref sig .tc .vmem S64x1 .f32) (harg11 : arg11.IsWhole) (arg12 : Memref sig .tc .vmem S64x96 .f32) (harg12 : arg12.IsWhole)
    (hc0 : ¬cond2_0 i) (hc1 : ¬cond2_1 i) (x0 : Vec F S2000x96 .f32) (x1 : Vec F S2000x1 .i32) (x2 : Vec F S96x192 .f32) (x3 : Vec F S1x192 .f32) (x4 : Vec F S192x96 .f32) (x5 : Vec F S1x96 .f32) (x6 : Vec F S96x96 .f32) (x7 : Vec F S1x96 .f32) (x8 : Vec F S96x1 .f32) (x9 : Vec F S1x1 .f32) (y : Vec F S64x1 .f32) (a : Vec F S64x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y
            ∗ owns (c : Thread nD τ) arg12 fullShare (k2_pay1 (k2_pay4 x0 x2 x3 x4 x5 x1 a))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11 arg12 harg12) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0 hf1 hf2 hf3 hf4 hf5 hf6 hf7 hf8 hf9 hf10 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  sl_unfold_run_names
  rw [read_writes_cons_whole (S := S64x96) _ _ zeros2]
  dsimp only
  simp only [View.readAt_eq_ld, View.ld_unit_zero (S := S2000x96) zeros2, View.ld_unit_zero (S := S2000x1) zeros2, View.ld_unit_zero (S := S96x192) zeros2, View.ld_unit_zero (S := S1x192) zeros2, View.ld_unit_zero (S := S192x96) zeros2, View.ld_unit_zero (S := S1x96) zeros2, View.ld_unit_zero (S := S96x96) zeros2, View.ld_unit_zero (S := S96x1) zeros2, View.ld_unit_zero (S := S1x1) zeros2, View.ld_unit_zero (S := S64x96) zeros2, View.ld_unit_zero (S := S64x1) zeros2]

set_option maxHeartbeats 1000000 in
/-- THE LAST POINT. The body adds the point's pooled rows to the sums `a`, then runs the final MLP on the sums and
    stores its value over the result's buffer (whatever that held). -/
theorem sound_kernel2_last (c : Dev nD) (E : Set ℕ) (i : grid2.Coords) (arg1 : Memref sig .tc .vmem S2000x96 .f32) (harg1 : arg1.IsWhole) (arg2 : Memref sig .tc .vmem S2000x1 .i32) (harg2 : arg2.IsWhole) (arg3 : Memref sig .tc .vmem S96x192 .f32) (harg3 : arg3.IsWhole) (arg4 : Memref sig .tc .vmem S1x192 .f32) (harg4 : arg4.IsWhole) (arg5 : Memref sig .tc .vmem S192x96 .f32) (harg5 : arg5.IsWhole) (arg6 : Memref sig .tc .vmem S1x96 .f32) (harg6 : arg6.IsWhole) (arg7 : Memref sig .tc .vmem S96x96 .f32) (harg7 : arg7.IsWhole) (arg8 : Memref sig .tc .vmem S1x96 .f32) (harg8 : arg8.IsWhole) (arg9 : Memref sig .tc .vmem S96x1 .f32) (harg9 : arg9.IsWhole) (arg10 : Memref sig .tc .vmem S1x1 .f32) (harg10 : arg10.IsWhole) (arg11 : Memref sig .tc .vmem S64x1 .f32) (harg11 : arg11.IsWhole) (arg12 : Memref sig .tc .vmem S64x96 .f32) (harg12 : arg12.IsWhole)
    (hc0 : ¬cond2_0 i) (hc1 : cond2_1 i) (x0 : Vec F S2000x96 .f32) (x1 : Vec F S2000x1 .i32) (x2 : Vec F S96x192 .f32) (x3 : Vec F S1x192 .f32) (x4 : Vec F S192x96 .f32) (x5 : Vec F S1x96 .f32) (x6 : Vec F S96x96 .f32) (x7 : Vec F S1x96 .f32) (x8 : Vec F S96x1 .f32) (x9 : Vec F S1x1 .f32) (a : Vec F S64x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k2_pay2 (k2_pay1 (k2_pay4 x0 x2 x3 x4 x5 x1 a)) x6 x7 x8 x9)
            ∗ owns (c : Thread nD τ) arg12 fullShare (k2_pay1 (k2_pay4 x0 x2 x3 x4 x5 x1 a))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9 arg10 harg10 arg11 harg11 arg12 harg12) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
  subst hf0 hf1 hf2 hf3 hf4 hf5 hf6 hf7 hf8 hf9 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    rw [read_writes_cons_whole (S := S64x1) _ _ zeros2, View.readCov_unit_zero (S := S64x96) _ zeros2]
    dsimp only
    simp only [View.readAt_eq_ld, View.ld_unit_zero (S := S2000x96) zeros2, View.ld_unit_zero (S := S2000x1) zeros2, View.ld_unit_zero (S := S96x192) zeros2, View.ld_unit_zero (S := S1x192) zeros2, View.ld_unit_zero (S := S192x96) zeros2, View.ld_unit_zero (S := S1x96) zeros2, View.ld_unit_zero (S := S96x96) zeros2, View.ld_unit_zero (S := S96x1) zeros2, View.ld_unit_zero (S := S1x1) zeros2, View.ld_unit_zero (S := S64x96) zeros2, View.ld_unit_zero (S := S64x1) zeros2]
  iexists _; isplitr
  swap; · iexact H11
  ipureintro
  sl_unfold_run_names
  rw [read_writes_cons_whole (S := S64x96) _ _ zeros2]
  dsimp only
  simp only [View.readAt_eq_ld, View.ld_unit_zero (S := S2000x96) zeros2, View.ld_unit_zero (S := S2000x1) zeros2, View.ld_unit_zero (S := S96x192) zeros2, View.ld_unit_zero (S := S1x192) zeros2, View.ld_unit_zero (S := S192x96) zeros2, View.ld_unit_zero (S := S1x96) zeros2, View.ld_unit_zero (S := S96x96) zeros2, View.ld_unit_zero (S := S96x1) zeros2, View.ld_unit_zero (S := S1x1) zeros2, View.ld_unit_zero (S := S64x96) zeros2, View.ld_unit_zero (S := S64x1) zeros2]

/-! ## The scratch -/

/-- The scratch operand holding the pooled sums: a whole scoped buffer of the kernel's own. -/
abbrev scM2 : Memref sig .tc .vmem S64x96 .f32 := Memref.whole cc2_scratch0

/-- The scoped rest split at the kernel's own scratch, whole at some contents; the other scoped buffers (the earlier
    calls' staging buffers) stay unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class's invariant with the scratch as a memref owned at some contents. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The invariant -/

/-- The region invariant before position `n`: at entry the class's; afterwards the scratch at the sums the point
    before left, the other scoped buffers at anything, the generator register at some state. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r))

theorem Phi2_at_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pooling pipeline on core `c`: the arrays as the region finds them; after the body each
    input's buffer at its block, the result's at the final MLP of the sums so far (what the last point stores; at
    the earlier points the window is idle and this is not consulted); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => k2_pay2 (acc2 V c t.val t.isLt) (iblk2 V c 6 t) (iblk2 V c 7 t) (iblk2 V c 8 t) (iblk2 V c 9 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) :
    (dat2 V c).after 10 t = k2_pay2 (acc2 V c t.val t.isLt) (iblk2 V c 6 t) (iblk2 V c 7 t) (iblk2 V c 8 t) (iblk2 V c 9 t) := by dsimp only [dat2]

/-- What the last point leaves in the result's buffer: the final MLP of all 25 points' pooled sums. -/
theorem after2_10_last (c : Dev nD) (t : Fin cfg2.N) (ht : t.val = 24) :
    (dat2 V c).after 10 t = k2_pay2 (acc2 V c 24 (by rw [show cfg2.N = 25 from N_2]; omega)) (iblk2 V c 6 t) (iblk2 V c 7 t) (iblk2 V c 8 t) (iblk2 V c 9 t) := by
  rw [after2_10]
  obtain ⟨n, hn⟩ := t
  dsimp only at ht
  subst ht
  rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The input windows are never idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 4800000 in
/-- The body at any point. Each input's memref holds its block; the closed forms say which of the three cases the
    point is in. At the first point the invariant hands the scratch at anything and takes it back at one update from
    zero; at a later point it hands the scratch at the sums so far and takes it back one update on. Before the last
    point the result's buffer is handed back as found; at the last point it is left at the final MLP of the sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [show (dat2 V c).Φ t.succ = Phi2 V c (t.val + 1) t.isLt from rfl, Phi2_succ]
  have hN : t.val < 25 := lt_of_lt_of_eq t.isLt (show cfg2.N = 25 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  rw [show (dat2 V c).leavesExact 9 t = owns (c : Thread nD τ) (st2_9 t) fullShare ((dat2 V c).after 9 t) from by
    unfold Dat.leavesExact; rw [liveAt2_9 t], after2_9]
  by_cases h0 : t.val = 0
  · have h1 : ¬t.val = 24 := by omega
    rw [Dat.leavesExact_idle (dat2 V c) 10 t (idleAt2_10 t (fun h => h1 ((hcond2_1 t).mp h))) (noFlush2_10 t (fun h => h1 ((hcond2_1 t).mp h)))]
    rw [Phi2_castSucc V c t, Phi2_at_zero V c _ _ h0, PhiA2_eq, acc2_first V c t h0]
    unfold accStep2
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2_first c Set.univ (grid2.coords t) _ _ _ _ _ _ _ _ _ _ _ _ _ _ _ _ _ _ _ _ _ _ _ _ ((hcond2_0 t).mpr h0) (fun h => h1 ((hcond2_1 t).mp h))
      (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 10 t d10) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val = 24
    · rw [show (dat2 V c).leavesExact 10 t = owns (c : Thread nD τ) (st2_10 t) fullShare ((dat2 V c).after 10 t) from by
        unfold Dat.leavesExact; rw [liveAt2_10 t ((hcond2_1 t).mpr h1)], after2_10]
      rw [Phi2_castSucc V c t, Phi2_pos V c _ _ h0, acc2_later V c t h0]
      unfold accStep2
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_last c Set.univ (grid2.coords t) _ _ _ _ _ _ _ _ _ _ _ _ _ _ _ _ _ _ _ _ _ _ _ _ (fun h => h0 ((hcond2_0 t).mp h)) ((hcond2_1 t).mpr h1)
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) _) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dat2 V c) 10 t (idleAt2_10 t (fun h => h1 ((hcond2_1 t).mp h))) (noFlush2_10 t (fun h => h1 ((hcond2_1 t).mp h)))]
      rw [Phi2_castSucc V c t, Phi2_pos V c _ _ h0, acc2_later V c t h0]
      unfold accStep2
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_middle c Set.univ (grid2.coords t) _ _ _ _ _ _ _ _ _ _ _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 10 t d10) (acc2 V c (t.val - 1) _) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is what the launch hands the region. -/
theorem Phi2_zero (c : Dev nD) : (dat2 V c).Φ 0 = Pipeline.ΦA spec2 c := by
  rw [show (dat2 V c).Φ 0 = Phi2 V c 0 (Nat.zero_le _) from rfl, Phi2_at_zero V c 0 _ rfl]

/-- After any point but the first the invariant gives the class's back: the sums' named contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi2_out V c _ (by rw [Fin.val_last]; have : cfg2.N = 25 := N_2; omega)

theorem q2_full (c : Dev nD) (w : Fin cfg2.W) : (dat2 V c).q w = fullShare := rfl
theorem owed2_zero (c : Dev nD) (t : Fin (cfg2.N + 1)) : (dat2 V c).owed t = 0 := rfl

end Cert.KernelIdeal.Hand

end
-- ==== Proof.KI.Run.lean ====
import proofs.«420259_j2267742732765_3_alg».proof.Proof.KI.R0
import proofs.«420259_j2267742732765_3_alg».proof.Proof.KI.R1
import proofs.«420259_j2267742732765_3_alg».proof.Proof.KI.R2
import proofs.«420259_j2267742732765_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the three-layer network's @main: three host stretches (each layer's scatter-add of the neighbours'
    features and the operands' reshapes), each followed by the layer's kernel region

## The buffer contents at each boundary: a fold through @main -/

/-- Core `c`'s buffers at launch. -/
abbrev W0 : Dev nD → Valuation τ sig (Elt F) := fun c b => (s₀ m ρ).mem ((c : Dev nD), b)
/-- After the first host stretch (the first layer's aggregation): region 0's entry. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the first layer's output rows
    written back block by block), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second layer's aggregation): region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the third layer's aggregation): region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: the pooled graphs' scores written back at the last grid point, every input as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments hold their launch contents at every boundary: no host stretch writes one, regions 0 and 1 have
    none among their arrays, and region 2 only reads the two it has (the readout's weight matrix and vector, its input
    windows 6 and 8) -/

/-! After the first host stretch. -/
theorem W1_main_arg0 (c : Dev nD) : W1 m ρ c (Proc.devRef .tc main_arg0) = m ((c : Thread nD τ).loc main_arg0) :=
  (StableHlo.after_of_writes_sub hostOps0 _ hostOps0_writes (by decide) : W1 m ρ c (Proc.devRef .tc main_arg0) = W0 m ρ c (Proc.devRef .tc main_arg0)).trans rfl
theorem W1_main_arg1 (c : Dev nD) : W1 m ρ c (Proc.devRef .tc main_arg1) = m ((c : Thread nD τ).loc main_arg1) :=
  (StableHlo.after_of_writes_sub hostOps0 _ hostOps0_writes (by decide) : W1 m ρ c (Proc.devRef .tc main_arg1) = W0 m ρ c (Proc.devRef .tc main_arg1)).trans rfl
theorem W1_main_arg2 (c : Dev nD) : W1 m ρ c (Proc.devRef .tc main_arg2) = m ((c : Thread nD τ).loc main_arg2) :=
  (StableHlo.after_of_writes_sub hostOps0 _ hostOps0_writes (by decide) : W1 m ρ c (Proc.devRef .tc main_arg2) = W0 m ρ c (Proc.devRef .tc main_arg2)).trans rfl
theorem W1_main_arg3 (c : Dev nD) : W1 m ρ c (Proc.devRef .tc main_arg3) = m ((c : Thread nD τ).loc main_arg3) :=
  (StableHlo.after_of_writes_sub hostOps0 _ hostOps0_writes (by decide) : W1 m ρ c (Proc.devRef .tc main_arg3) = W0 m ρ c (Proc.devRef .tc main_arg3)).trans rfl
theorem W1_main_arg4 (c : Dev nD) : W1 m ρ c (Proc.devRef .tc main_arg4) = m ((c : Thread nD τ).loc main_arg4) :=
  (StableHlo.after_of_writes_sub hostOps0 _ hostOps0_writes (by decide) : W1 m ρ c (Proc.devRef .tc main_arg4) = W0 m ρ c (Proc.devRef .tc main_arg4)).trans rfl
theorem W1_main_arg5 (c : Dev nD) : W1 m ρ c (Proc.devRef .tc main_arg5) = m ((c : Thread nD τ).loc main_arg5) :=
  (StableHlo.after_of_writes_sub hostOps0 _ hostOps0_writes (by decide) : W1 m ρ c (Proc.devRef .tc main_arg5) = W0 m ρ c (Proc.devRef .tc main_arg5)).trans rfl
theorem W1_main_arg6 (c : Dev nD) : W1 m ρ c (Proc.devRef .tc main_arg6) = m ((c : Thread nD τ).loc main_arg6) :=
  (StableHlo.after_of_writes_sub hostOps0 _ hostOps0_writes (by decide) : W1 m ρ c (Proc.devRef .tc main_arg6) = W0 m ρ c (Proc.devRef .tc main_arg6)).trans rfl
theorem W1_main_arg7 (c : Dev nD) : W1 m ρ c (Proc.devRef .tc main_arg7) = m ((c : Thread nD τ).loc main_arg7) :=
  (StableHlo.after_of_writes_sub hostOps0 _ hostOps0_writes (by decide) : W1 m ρ c (Proc.devRef .tc main_arg7) = W0 m ρ c (Proc.devRef .tc main_arg7)).trans rfl
theorem W1_main_arg8 (c : Dev nD) : W1 m ρ c (Proc.devRef .tc main_arg8) = m ((c : Thread nD τ).loc main_arg8) :=
  (StableHlo.after_of_writes_sub hostOps0 _ hostOps0_writes (by decide) : W1 m ρ c (Proc.devRef .tc main_arg8) = W0 m ρ c (Proc.devRef .tc main_arg8)).trans rfl
theorem W1_main_arg9 (c : Dev nD) : W1 m ρ c (Proc.devRef .tc main_arg9) = m ((c : Thread nD τ).loc main_arg9) :=
  (StableHlo.after_of_writes_sub hostOps0 _ hostOps0_writes (by decide) : W1 m ρ c (Proc.devRef .tc main_arg9) = W0 m ρ c (Proc.devRef .tc main_arg9)).trans rfl
theorem W1_main_arg10 (c : Dev nD) : W1 m ρ c (Proc.devRef .tc main_arg10) = m ((c : Thread nD τ).loc main_arg10) :=
  (StableHlo.after_of_writes_sub hostOps0 _ hostOps0_writes (by decide) : W1 m ρ c (Proc.devRef .tc main_arg10) = W0 m ρ c (Proc.devRef .tc main_arg10)).trans rfl
theorem W1_main_arg11 (c : Dev nD) : W1 m ρ c (Proc.devRef .tc main_arg11) = m ((c : Thread nD τ).loc main_arg11) :=
  (StableHlo.after_of_writes_sub hostOps0 _ hostOps0_writes (by decide) : W1 m ρ c (Proc.devRef .tc main_arg11) = W0 m ρ c (Proc.devRef .tc main_arg11)).trans rfl

/-! At region 0's exit. -/
theorem W2_main_arg0 (c : Dev nD) : W2 m ρ c (Proc.devRef .tc main_arg0) = m ((c : Thread nD τ).loc main_arg0) :=
  (W2_of_ne m ρ c main_arg0 (by decide) : W2 m ρ c (Proc.devRef .tc main_arg0) = W1 m ρ c (Proc.devRef .tc main_arg0)).trans (W1_main_arg0 m ρ c)
theorem W2_main_arg1 (c : Dev nD) : W2 m ρ c (Proc.devRef .tc main_arg1) = m ((c : Thread nD τ).loc main_arg1) :=
  (W2_of_ne m ρ c main_arg1 (by decide) : W2 m ρ c (Proc.devRef .tc main_arg1) = W1 m ρ c (Proc.devRef .tc main_arg1)).trans (W1_main_arg1 m ρ c)
theorem W2_main_arg2 (c : Dev nD) : W2 m ρ c (Proc.devRef .tc main_arg2) = m ((c : Thread nD τ).loc main_arg2) :=
  (W2_of_ne m ρ c main_arg2 (by decide) : W2 m ρ c (Proc.devRef .tc main_arg2) = W1 m ρ c (Proc.devRef .tc main_arg2)).trans (W1_main_arg2 m ρ c)
theorem W2_main_arg3 (c : Dev nD) : W2 m ρ c (Proc.devRef .tc main_arg3) = m ((c : Thread nD τ).loc main_arg3) :=
  (W2_of_ne m ρ c main_arg3 (by decide) : W2 m ρ c (Proc.devRef .tc main_arg3) = W1 m ρ c (Proc.devRef .tc main_arg3)).trans (W1_main_arg3 m ρ c)
theorem W2_main_arg4 (c : Dev nD) : W2 m ρ c (Proc.devRef .tc main_arg4) = m ((c : Thread nD τ).loc main_arg4) :=
  (W2_of_ne m ρ c main_arg4 (by decide) : W2 m ρ c (Proc.devRef .tc main_arg4) = W1 m ρ c (Proc.devRef .tc main_arg4)).trans (W1_main_arg4 m ρ c)
theorem W2_main_arg5 (c : Dev nD) : W2 m ρ c (Proc.devRef .tc main_arg5) = m ((c : Thread nD τ).loc main_arg5) :=
  (W2_of_ne m ρ c main_arg5 (by decide) : W2 m ρ c (Proc.devRef .tc main_arg5) = W1 m ρ c (Proc.devRef .tc main_arg5)).trans (W1_main_arg5 m ρ c)
theorem W2_main_arg6 (c : Dev nD) : W2 m ρ c (Proc.devRef .tc main_arg6) = m ((c : Thread nD τ).loc main_arg6) :=
  (W2_of_ne m ρ c main_arg6 (by decide) : W2 m ρ c (Proc.devRef .tc main_arg6) = W1 m ρ c (Proc.devRef .tc main_arg6)).trans (W1_main_arg6 m ρ c)
theorem W2_main_arg7 (c : Dev nD) : W2 m ρ c (Proc.devRef .tc main_arg7) = m ((c : Thread nD τ).loc main_arg7) :=
  (W2_of_ne m ρ c main_arg7 (by decide) : W2 m ρ c (Proc.devRef .tc main_arg7) = W1 m ρ c (Proc.devRef .tc main_arg7)).trans (W1_main_arg7 m ρ c)
theorem W2_main_arg8 (c : Dev nD) : W2 m ρ c (Proc.devRef .tc main_arg8) = m ((c : Thread nD τ).loc main_arg8) :=
  (W2_of_ne m ρ c main_arg8 (by decide) : W2 m ρ c (Proc.devRef .tc main_arg8) = W1 m ρ c (Proc.devRef .tc main_arg8)).trans (W1_main_arg8 m ρ c)
theorem W2_main_arg9 (c : Dev nD) : W2 m ρ c (Proc.devRef .tc main_arg9) = m ((c : Thread nD τ).loc main_arg9) :=
  (W2_of_ne m ρ c main_arg9 (by decide) : W2 m ρ c (Proc.devRef .tc main_arg9) = W1 m ρ c (Proc.devRef .tc main_arg9)).trans (W1_main_arg9 m ρ c)
theorem W2_main_arg10 (c : Dev nD) : W2 m ρ c (Proc.devRef .tc main_arg10) = m ((c : Thread nD τ).loc main_arg10) :=
  (W2_of_ne m ρ c main_arg10 (by decide) : W2 m ρ c (Proc.devRef .tc main_arg10) = W1 m ρ c (Proc.devRef .tc main_arg10)).trans (W1_main_arg10 m ρ c)
theorem W2_main_arg11 (c : Dev nD) : W2 m ρ c (Proc.devRef .tc main_arg11) = m ((c : Thread nD τ).loc main_arg11) :=
  (W2_of_ne m ρ c main_arg11 (by decide) : W2 m ρ c (Proc.devRef .tc main_arg11) = W1 m ρ c (Proc.devRef .tc main_arg11)).trans (W1_main_arg11 m ρ c)

/-! After the second host stretch. -/
theorem W3_main_arg0 (c : Dev nD) : W3 m ρ c (Proc.devRef .tc main_arg0) = m ((c : Thread nD τ).loc main_arg0) :=
  (StableHlo.after_of_writes_sub hostOps1 _ hostOps1_writes (by decide) : W3 m ρ c (Proc.devRef .tc main_arg0) = W2 m ρ c (Proc.devRef .tc main_arg0)).trans (W2_main_arg0 m ρ c)
theorem W3_main_arg1 (c : Dev nD) : W3 m ρ c (Proc.devRef .tc main_arg1) = m ((c : Thread nD τ).loc main_arg1) :=
  (StableHlo.after_of_writes_sub hostOps1 _ hostOps1_writes (by decide) : W3 m ρ c (Proc.devRef .tc main_arg1) = W2 m ρ c (Proc.devRef .tc main_arg1)).trans (W2_main_arg1 m ρ c)
theorem W3_main_arg2 (c : Dev nD) : W3 m ρ c (Proc.devRef .tc main_arg2) = m ((c : Thread nD τ).loc main_arg2) :=
  (StableHlo.after_of_writes_sub hostOps1 _ hostOps1_writes (by decide) : W3 m ρ c (Proc.devRef .tc main_arg2) = W2 m ρ c (Proc.devRef .tc main_arg2)).trans (W2_main_arg2 m ρ c)
theorem W3_main_arg3 (c : Dev nD) : W3 m ρ c (Proc.devRef .tc main_arg3) = m ((c : Thread nD τ).loc main_arg3) :=
  (StableHlo.after_of_writes_sub hostOps1 _ hostOps1_writes (by decide) : W3 m ρ c (Proc.devRef .tc main_arg3) = W2 m ρ c (Proc.devRef .tc main_arg3)).trans (W2_main_arg3 m ρ c)
theorem W3_main_arg4 (c : Dev nD) : W3 m ρ c (Proc.devRef .tc main_arg4) = m ((c : Thread nD τ).loc main_arg4) :=
  (StableHlo.after_of_writes_sub hostOps1 _ hostOps1_writes (by decide) : W3 m ρ c (Proc.devRef .tc main_arg4) = W2 m ρ c (Proc.devRef .tc main_arg4)).trans (W2_main_arg4 m ρ c)
theorem W3_main_arg5 (c : Dev nD) : W3 m ρ c (Proc.devRef .tc main_arg5) = m ((c : Thread nD τ).loc main_arg5) :=
  (StableHlo.after_of_writes_sub hostOps1 _ hostOps1_writes (by decide) : W3 m ρ c (Proc.devRef .tc main_arg5) = W2 m ρ c (Proc.devRef .tc main_arg5)).trans (W2_main_arg5 m ρ c)
theorem W3_main_arg6 (c : Dev nD) : W3 m ρ c (Proc.devRef .tc main_arg6) = m ((c : Thread nD τ).loc main_arg6) :=
  (StableHlo.after_of_writes_sub hostOps1 _ hostOps1_writes (by decide) : W3 m ρ c (Proc.devRef .tc main_arg6) = W2 m ρ c (Proc.devRef .tc main_arg6)).trans (W2_main_arg6 m ρ c)
theorem W3_main_arg7 (c : Dev nD) : W3 m ρ c (Proc.devRef .tc main_arg7) = m ((c : Thread nD τ).loc main_arg7) :=
  (StableHlo.after_of_writes_sub hostOps1 _ hostOps1_writes (by decide) : W3 m ρ c (Proc.devRef .tc main_arg7) = W2 m ρ c (Proc.devRef .tc main_arg7)).trans (W2_main_arg7 m ρ c)
theorem W3_main_arg8 (c : Dev nD) : W3 m ρ c (Proc.devRef .tc main_arg8) = m ((c : Thread nD τ).loc main_arg8) :=
  (StableHlo.after_of_writes_sub hostOps1 _ hostOps1_writes (by decide) : W3 m ρ c (Proc.devRef .tc main_arg8) = W2 m ρ c (Proc.devRef .tc main_arg8)).trans (W2_main_arg8 m ρ c)
theorem W3_main_arg9 (c : Dev nD) : W3 m ρ c (Proc.devRef .tc main_arg9) = m ((c : Thread nD τ).loc main_arg9) :=
  (StableHlo.after_of_writes_sub hostOps1 _ hostOps1_writes (by decide) : W3 m ρ c (Proc.devRef .tc main_arg9) = W2 m ρ c (Proc.devRef .tc main_arg9)).trans (W2_main_arg9 m ρ c)
theorem W3_main_arg10 (c : Dev nD) : W3 m ρ c (Proc.devRef .tc main_arg10) = m ((c : Thread nD τ).loc main_arg10) :=
  (StableHlo.after_of_writes_sub hostOps1 _ hostOps1_writes (by decide) : W3 m ρ c (Proc.devRef .tc main_arg10) = W2 m ρ c (Proc.devRef .tc main_arg10)).trans (W2_main_arg10 m ρ c)
theorem W3_main_arg11 (c : Dev nD) : W3 m ρ c (Proc.devRef .tc main_arg11) = m ((c : Thread nD τ).loc main_arg11) :=
  (StableHlo.after_of_writes_sub hostOps1 _ hostOps1_writes (by decide) : W3 m ρ c (Proc.devRef .tc main_arg11) = W2 m ρ c (Proc.devRef .tc main_arg11)).trans (W2_main_arg11 m ρ c)

/-! At region 1's exit. -/
theorem W4_main_arg0 (c : Dev nD) : W4 m ρ c (Proc.devRef .tc main_arg0) = m ((c : Thread nD τ).loc main_arg0) :=
  (W4_of_ne m ρ c main_arg0 (by decide) : W4 m ρ c (Proc.devRef .tc main_arg0) = W3 m ρ c (Proc.devRef .tc main_arg0)).trans (W3_main_arg0 m ρ c)
theorem W4_main_arg1 (c : Dev nD) : W4 m ρ c (Proc.devRef .tc main_arg1) = m ((c : Thread nD τ).loc main_arg1) :=
  (W4_of_ne m ρ c main_arg1 (by decide) : W4 m ρ c (Proc.devRef .tc main_arg1) = W3 m ρ c (Proc.devRef .tc main_arg1)).trans (W3_main_arg1 m ρ c)
theorem W4_main_arg2 (c : Dev nD) : W4 m ρ c (Proc.devRef .tc main_arg2) = m ((c : Thread nD τ).loc main_arg2) :=
  (W4_of_ne m ρ c main_arg2 (by decide) : W4 m ρ c (Proc.devRef .tc main_arg2) = W3 m ρ c (Proc.devRef .tc main_arg2)).trans (W3_main_arg2 m ρ c)
theorem W4_main_arg3 (c : Dev nD) : W4 m ρ c (Proc.devRef .tc main_arg3) = m ((c : Thread nD τ).loc main_arg3) :=
  (W4_of_ne m ρ c main_arg3 (by decide) : W4 m ρ c (Proc.devRef .tc main_arg3) = W3 m ρ c (Proc.devRef .tc main_arg3)).trans (W3_main_arg3 m ρ c)
theorem W4_main_arg4 (c : Dev nD) : W4 m ρ c (Proc.devRef .tc main_arg4) = m ((c : Thread nD τ).loc main_arg4) :=
  (W4_of_ne m ρ c main_arg4 (by decide) : W4 m ρ c (Proc.devRef .tc main_arg4) = W3 m ρ c (Proc.devRef .tc main_arg4)).trans (W3_main_arg4 m ρ c)
theorem W4_main_arg5 (c : Dev nD) : W4 m ρ c (Proc.devRef .tc main_arg5) = m ((c : Thread nD τ).loc main_arg5) :=
  (W4_of_ne m ρ c main_arg5 (by decide) : W4 m ρ c (Proc.devRef .tc main_arg5) = W3 m ρ c (Proc.devRef .tc main_arg5)).trans (W3_main_arg5 m ρ c)
theorem W4_main_arg6 (c : Dev nD) : W4 m ρ c (Proc.devRef .tc main_arg6) = m ((c : Thread nD τ).loc main_arg6) :=
  (W4_of_ne m ρ c main_arg6 (by decide) : W4 m ρ c (Proc.devRef .tc main_arg6) = W3 m ρ c (Proc.devRef .tc main_arg6)).trans (W3_main_arg6 m ρ c)
theorem W4_main_arg7 (c : Dev nD) : W4 m ρ c (Proc.devRef .tc main_arg7) = m ((c : Thread nD τ).loc main_arg7) :=
  (W4_of_ne m ρ c main_arg7 (by decide) : W4 m ρ c (Proc.devRef .tc main_arg7) = W3 m ρ c (Proc.devRef .tc main_arg7)).trans (W3_main_arg7 m ρ c)
theorem W4_main_arg8 (c : Dev nD) : W4 m ρ c (Proc.devRef .tc main_arg8) = m ((c : Thread nD τ).loc main_arg8) :=
  (W4_of_ne m ρ c main_arg8 (by decide) : W4 m ρ c (Proc.devRef .tc main_arg8) = W3 m ρ c (Proc.devRef .tc main_arg8)).trans (W3_main_arg8 m ρ c)
theorem W4_main_arg9 (c : Dev nD) : W4 m ρ c (Proc.devRef .tc main_arg9) = m ((c : Thread nD τ).loc main_arg9) :=
  (W4_of_ne m ρ c main_arg9 (by decide) : W4 m ρ c (Proc.devRef .tc main_arg9) = W3 m ρ c (Proc.devRef .tc main_arg9)).trans (W3_main_arg9 m ρ c)
theorem W4_main_arg10 (c : Dev nD) : W4 m ρ c (Proc.devRef .tc main_arg10) = m ((c : Thread nD τ).loc main_arg10) :=
  (W4_of_ne m ρ c main_arg10 (by decide) : W4 m ρ c (Proc.devRef .tc main_arg10) = W3 m ρ c (Proc.devRef .tc main_arg10)).trans (W3_main_arg10 m ρ c)
theorem W4_main_arg11 (c : Dev nD) : W4 m ρ c (Proc.devRef .tc main_arg11) = m ((c : Thread nD τ).loc main_arg11) :=
  (W4_of_ne m ρ c main_arg11 (by decide) : W4 m ρ c (Proc.devRef .tc main_arg11) = W3 m ρ c (Proc.devRef .tc main_arg11)).trans (W3_main_arg11 m ρ c)

/-! After the third host stretch. -/
theorem W5_main_arg0 (c : Dev nD) : W5 m ρ c (Proc.devRef .tc main_arg0) = m ((c : Thread nD τ).loc main_arg0) :=
  (StableHlo.after_of_writes_sub hostOps2 _ hostOps2_writes (by decide) : W5 m ρ c (Proc.devRef .tc main_arg0) = W4 m ρ c (Proc.devRef .tc main_arg0)).trans (W4_main_arg0 m ρ c)
theorem W5_main_arg1 (c : Dev nD) : W5 m ρ c (Proc.devRef .tc main_arg1) = m ((c : Thread nD τ).loc main_arg1) :=
  (StableHlo.after_of_writes_sub hostOps2 _ hostOps2_writes (by decide) : W5 m ρ c (Proc.devRef .tc main_arg1) = W4 m ρ c (Proc.devRef .tc main_arg1)).trans (W4_main_arg1 m ρ c)
theorem W5_main_arg2 (c : Dev nD) : W5 m ρ c (Proc.devRef .tc main_arg2) = m ((c : Thread nD τ).loc main_arg2) :=
  (StableHlo.after_of_writes_sub hostOps2 _ hostOps2_writes (by decide) : W5 m ρ c (Proc.devRef .tc main_arg2) = W4 m ρ c (Proc.devRef .tc main_arg2)).trans (W4_main_arg2 m ρ c)
theorem W5_main_arg3 (c : Dev nD) : W5 m ρ c (Proc.devRef .tc main_arg3) = m ((c : Thread nD τ).loc main_arg3) :=
  (StableHlo.after_of_writes_sub hostOps2 _ hostOps2_writes (by decide) : W5 m ρ c (Proc.devRef .tc main_arg3) = W4 m ρ c (Proc.devRef .tc main_arg3)).trans (W4_main_arg3 m ρ c)
theorem W5_main_arg4 (c : Dev nD) : W5 m ρ c (Proc.devRef .tc main_arg4) = m ((c : Thread nD τ).loc main_arg4) :=
  (StableHlo.after_of_writes_sub hostOps2 _ hostOps2_writes (by decide) : W5 m ρ c (Proc.devRef .tc main_arg4) = W4 m ρ c (Proc.devRef .tc main_arg4)).trans (W4_main_arg4 m ρ c)
theorem W5_main_arg5 (c : Dev nD) : W5 m ρ c (Proc.devRef .tc main_arg5) = m ((c : Thread nD τ).loc main_arg5) :=
  (StableHlo.after_of_writes_sub hostOps2 _ hostOps2_writes (by decide) : W5 m ρ c (Proc.devRef .tc main_arg5) = W4 m ρ c (Proc.devRef .tc main_arg5)).trans (W4_main_arg5 m ρ c)
theorem W5_main_arg6 (c : Dev nD) : W5 m ρ c (Proc.devRef .tc main_arg6) = m ((c : Thread nD τ).loc main_arg6) :=
  (StableHlo.after_of_writes_sub hostOps2 _ hostOps2_writes (by decide) : W5 m ρ c (Proc.devRef .tc main_arg6) = W4 m ρ c (Proc.devRef .tc main_arg6)).trans (W4_main_arg6 m ρ c)
theorem W5_main_arg7 (c : Dev nD) : W5 m ρ c (Proc.devRef .tc main_arg7) = m ((c : Thread nD τ).loc main_arg7) :=
  (StableHlo.after_of_writes_sub hostOps2 _ hostOps2_writes (by decide) : W5 m ρ c (Proc.devRef .tc main_arg7) = W4 m ρ c (Proc.devRef .tc main_arg7)).trans (W4_main_arg7 m ρ c)
theorem W5_main_arg8 (c : Dev nD) : W5 m ρ c (Proc.devRef .tc main_arg8) = m ((c : Thread nD τ).loc main_arg8) :=
  (StableHlo.after_of_writes_sub hostOps2 _ hostOps2_writes (by decide) : W5 m ρ c (Proc.devRef .tc main_arg8) = W4 m ρ c (Proc.devRef .tc main_arg8)).trans (W4_main_arg8 m ρ c)
theorem W5_main_arg9 (c : Dev nD) : W5 m ρ c (Proc.devRef .tc main_arg9) = m ((c : Thread nD τ).loc main_arg9) :=
  (StableHlo.after_of_writes_sub hostOps2 _ hostOps2_writes (by decide) : W5 m ρ c (Proc.devRef .tc main_arg9) = W4 m ρ c (Proc.devRef .tc main_arg9)).trans (W4_main_arg9 m ρ c)
theorem W5_main_arg10 (c : Dev nD) : W5 m ρ c (Proc.devRef .tc main_arg10) = m ((c : Thread nD τ).loc main_arg10) :=
  (StableHlo.after_of_writes_sub hostOps2 _ hostOps2_writes (by decide) : W5 m ρ c (Proc.devRef .tc main_arg10) = W4 m ρ c (Proc.devRef .tc main_arg10)).trans (W4_main_arg10 m ρ c)
theorem W5_main_arg11 (c : Dev nD) : W5 m ρ c (Proc.devRef .tc main_arg11) = m ((c : Thread nD τ).loc main_arg11) :=
  (StableHlo.after_of_writes_sub hostOps2 _ hostOps2_writes (by decide) : W5 m ρ c (Proc.devRef .tc main_arg11) = W4 m ρ c (Proc.devRef .tc main_arg11)).trans (W4_main_arg11 m ρ c)

/-! At region 2's exit, the last boundary. -/
theorem W6_main_arg0 (c : Dev nD) : W6 m ρ c (Proc.devRef .tc main_arg0) = m ((c : Thread nD τ).loc main_arg0) :=
  (W6_of_ne m ρ c main_arg0 (by decide) : W6 m ρ c (Proc.devRef .tc main_arg0) = W5 m ρ c (Proc.devRef .tc main_arg0)).trans (W5_main_arg0 m ρ c)
theorem W6_main_arg1 (c : Dev nD) : W6 m ρ c (Proc.devRef .tc main_arg1) = m ((c : Thread nD τ).loc main_arg1) :=
  (W6_of_ne m ρ c main_arg1 (by decide) : W6 m ρ c (Proc.devRef .tc main_arg1) = W5 m ρ c (Proc.devRef .tc main_arg1)).trans (W5_main_arg1 m ρ c)
theorem W6_main_arg2 (c : Dev nD) : W6 m ρ c (Proc.devRef .tc main_arg2) = m ((c : Thread nD τ).loc main_arg2) :=
  (W6_of_ne m ρ c main_arg2 (by decide) : W6 m ρ c (Proc.devRef .tc main_arg2) = W5 m ρ c (Proc.devRef .tc main_arg2)).trans (W5_main_arg2 m ρ c)
theorem W6_main_arg3 (c : Dev nD) : W6 m ρ c (Proc.devRef .tc main_arg3) = m ((c : Thread nD τ).loc main_arg3) :=
  (W6_of_ne m ρ c main_arg3 (by decide) : W6 m ρ c (Proc.devRef .tc main_arg3) = W5 m ρ c (Proc.devRef .tc main_arg3)).trans (W5_main_arg3 m ρ c)
theorem W6_main_arg4 (c : Dev nD) : W6 m ρ c (Proc.devRef .tc main_arg4) = m ((c : Thread nD τ).loc main_arg4) :=
  (W6_of_ne m ρ c main_arg4 (by decide) : W6 m ρ c (Proc.devRef .tc main_arg4) = W5 m ρ c (Proc.devRef .tc main_arg4)).trans (W5_main_arg4 m ρ c)
theorem W6_main_arg5 (c : Dev nD) : W6 m ρ c (Proc.devRef .tc main_arg5) = m ((c : Thread nD τ).loc main_arg5) :=
  (W6_of_ne m ρ c main_arg5 (by decide) : W6 m ρ c (Proc.devRef .tc main_arg5) = W5 m ρ c (Proc.devRef .tc main_arg5)).trans (W5_main_arg5 m ρ c)
theorem W6_main_arg6 (c : Dev nD) : W6 m ρ c (Proc.devRef .tc main_arg6) = m ((c : Thread nD τ).loc main_arg6) :=
  (W6_of_ne m ρ c main_arg6 (by decide) : W6 m ρ c (Proc.devRef .tc main_arg6) = W5 m ρ c (Proc.devRef .tc main_arg6)).trans (W5_main_arg6 m ρ c)
theorem W6_main_arg7 (c : Dev nD) : W6 m ρ c (Proc.devRef .tc main_arg7) = m ((c : Thread nD τ).loc main_arg7) :=
  (W6_of_ne m ρ c main_arg7 (by decide) : W6 m ρ c (Proc.devRef .tc main_arg7) = W5 m ρ c (Proc.devRef .tc main_arg7)).trans (W5_main_arg7 m ρ c)
theorem W6_main_arg8 (c : Dev nD) : W6 m ρ c (Proc.devRef .tc main_arg8) = m ((c : Thread nD τ).loc main_arg8) :=
  ((W6_arr m ρ c 6).trans (((dat2 (V5 m ρ) c).arrAt_in 6 rfl _).trans (A_eq2 (V5 m ρ) c 6)) : W6 m ρ c (Proc.devRef .tc main_arg8) = W5 m ρ c (Proc.devRef .tc main_arg8)).trans (W5_main_arg8 m ρ c)
theorem W6_main_arg9 (c : Dev nD) : W6 m ρ c (Proc.devRef .tc main_arg9) = m ((c : Thread nD τ).loc main_arg9) :=
  (W6_of_ne m ρ c main_arg9 (by decide) : W6 m ρ c (Proc.devRef .tc main_arg9) = W5 m ρ c (Proc.devRef .tc main_arg9)).trans (W5_main_arg9 m ρ c)
theorem W6_main_arg10 (c : Dev nD) : W6 m ρ c (Proc.devRef .tc main_arg10) = m ((c : Thread nD τ).loc main_arg10) :=
  ((W6_arr m ρ c 8).trans (((dat2 (V5 m ρ) c).arrAt_in 8 rfl _).trans (A_eq2 (V5 m ρ) c 8)) : W6 m ρ c (Proc.devRef .tc main_arg10) = W5 m ρ c (Proc.devRef .tc main_arg10)).trans (W5_main_arg10 m ρ c)
theorem W6_main_arg11 (c : Dev nD) : W6 m ρ c (Proc.devRef .tc main_arg11) = m ((c : Thread nD τ).loc main_arg11) :=
  (W6_of_ne m ρ c main_arg11 (by decide) : W6 m ρ c (Proc.devRef .tc main_arg11) = W5 m ρ c (Proc.devRef .tc main_arg11)).trans (W5_main_arg11 m ρ c)

/-! ### The buffers one region leaves for a later item -/

/-- The first layer's output rows: what region 0's write-backs leave in its output window's array. -/
theorem W2_v36 (c : Dev nD) : W2 m ρ c (Proc.devRef .tc main_v36) = (dat0 (V1 m ρ) c).arrAt 5 cfg0.N :=
  W2_arr m ρ c 5
/-- The second layer's output rows: what region 1's write-backs leave in its output window's array. -/
theorem W4_v68 (c : Dev nD) : W4 m ρ c (Proc.devRef .tc main_v68) = (dat1 (V3 m ρ) c).arrAt 5 cfg1.N :=
  W4_arr m ρ c 5
/-- The column of graph indices, which the first host stretch writes and region 2 reads, is carried unchanged from
    region 0's entry to region 2's: no later stretch writes it and it is no array of regions 0 and 1. -/
theorem W5_v4 (c : Dev nD) : W5 m ρ c (Proc.devRef .tc main_v4) = W1 m ρ c (Proc.devRef .tc main_v4) :=
  calc W5 m ρ c (Proc.devRef .tc main_v4)
    _ = W4 m ρ c (Proc.devRef .tc main_v4) := StableHlo.after_of_writes_sub hostOps2 _ hostOps2_writes (by decide)
    _ = W3 m ρ c (Proc.devRef .tc main_v4) := W4_of_ne m ρ c main_v4 (by decide)
    _ = W2 m ρ c (Proc.devRef .tc main_v4) := StableHlo.after_of_writes_sub hostOps1 _ hostOps1_writes (by decide)
    _ = W1 m ρ c (Proc.devRef .tc main_v4) := W2_of_ne m ρ c main_v4 (by decide)
/-- The edges' source and destination rows, which the first host stretch writes and the later stretches' scatter-adds
    read, are carried unchanged from region 0's entry: no region has them among its arrays and the second stretch does
    not write them. -/
theorem W2_v1 (c : Dev nD) : W2 m ρ c (Proc.devRef .tc main_v1) = W1 m ρ c (Proc.devRef .tc main_v1) :=
  W2_of_ne m ρ c main_v1 (by decide)
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps1 _ hostOps1_writes (by decide)
    _ = W1 m ρ c (Proc.devRef .tc main_v1) := W2_v1 m ρ c
theorem W2_v3 (c : Dev nD) : W2 m ρ c (Proc.devRef .tc main_v3) = W1 m ρ c (Proc.devRef .tc main_v3) :=
  W2_of_ne m ρ c main_v3 (by decide)
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_writes_sub hostOps1 _ hostOps1_writes (by decide)
    _ = W1 m ρ c (Proc.devRef .tc main_v3) := W2_v3 m ρ c
/-- The result buffer ends holding what region 2's write-backs leave in its output window's array. -/
theorem W6_result (c : Dev nD) : W6 m ρ c (Proc.devRef .tc main_v102) = (dat2 (V5 m ρ) c).arrAt 10 cfg2.N :=
  W6_arr m ρ c 10

/-! ## The proof data family and the thread state -/

/-- Every pipeline's proof data, each at its region's entry contents: a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its post is
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- the library's entry and exit lemmas speak of the pinned configuration `pin pcfgs adm K`, which is the printed `cfgK`
-- only after unfolding
set_option backward.isDefEq.respectTransparency.types false in
/-- REGION 0 (the first layer's perceptron over the ten row blocks) over the thread state: entered from every unscoped
    buffer at `W1`, left at `W2`. Its arrays split out of the unscoped buffers and put back at the exit contents; the
    generator register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas speak of the pinned configuration `pin pcfgs adm K`, which is the printed `cfgK`
-- only after unfolding
set_option backward.isDefEq.respectTransparency.types false in
/-- REGION 1 (the second layer's perceptron over the ten row blocks): entered from `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas speak of the pinned configuration `pin pcfgs adm K`, which is the printed `cfgK`
-- only after unfolding
set_option backward.isDefEq.respectTransparency.types false in
/-- REGION 2 (the third layer's perceptron, the pooling of the rows into their graphs accumulated over the 25 row
    blocks, and the readout at the last one): entered from `W5`, left at `W6`, the last boundary. Its invariant carries
    the accumulator between grid points: at the first point it is the class invariant (`Phi2_zero`), and at the last it
    gives the class invariant back (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 (fun c t => owed2_zero (V5 m ρ) c t)
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full (q2_full (V5 m ρ) c)) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi2_zero (V5 m ρ) c]; unfold Pipeline.ΦA
    iintro ⟨Hp, -, Hr⟩
    isplitl [Hr]; · iexact Hr
    iexact Hp
  hout c := by
    rw [Pipeline.ownSems0_none]
    have hΦ : (pdats m ρ 2 c).Φ (Fin.last _) ⊢ Pipeline.ΦA spec2 c := hout2 (V5 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full (q2_full (V5 m ρ) c))
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per layer. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: its chain of items, then the segments' run against that chain. -/
theorem main_run (c : Dev nD) : main (F := F) c = Pipeline.Seg.run (segs m ρ) := (main_chain c).trans (by chain_rfl)

-- the launch theorem's conclusion is this one only after unfolding `defs` and the pinned configurations
set_option backward.isDefEq.respectTransparency.types false in
/-- THE RUN: at the compiled mesh, from any memory with zero counters, every weakly fair execution of @main on the
    TensorCores terminates, nothing faulting, and every final state has every unscoped buffer at the last boundary's
    contents `W6`: the several-regions launch theorem over the segments, the last thread state read against the final state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every weakly fair execution of @main terminates and every argument array ends as launched: the run,
    each argument's buffer read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  MeshRun.mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c)⟩) (run_main m ρ)

end Cert.KernelIdeal.Hand

end
-- ==== Proof.Spec.lean ====
/-
  The network as plain functions of index: dense rectified layers, sum pooling by group label, and the readout.
  Every array is a function from its index type to the extended reals; sums run over the inner coordinate.
-/
import Idealize.ShloMosaic.PureOps.Ideal
import Idealize.ShloMosaic.Lib.ValueIdx

noncomputable section

open scoped BigOperators

namespace Cert.Spec

open Idealize.ShloMosaic Idealize.ShloMosaic.ValueIdx

/-- One dense layer followed by the rectifier: entry (p, q) is max (∑ₖ x(p,k)·w(k,q) + b(q)) 0. -/
def dense {R A B : Nat} (x : (⟨2, ![R, A]⟩ : Shape).Idx → EReal) (w : (⟨2, ![A, B]⟩ : Shape).Idx → EReal)
    (b : Fin B → EReal) : (⟨2, ![R, B]⟩ : Shape).Idx → EReal :=
  fun j => max ((∑ k : Fin A, x (ix2 (j 0) k) * w (ix2 k (j 1))) + b (j 1)) 0

/-- Two dense rectified layers: the per-node perceptron of one message-passing layer. -/
def mlp2 {R A H B : Nat} (x : (⟨2, ![R, A]⟩ : Shape).Idx → EReal) (w1 : (⟨2, ![A, H]⟩ : Shape).Idx → EReal)
    (b1 : Fin H → EReal) (w2 : (⟨2, ![H, B]⟩ : Shape).Idx → EReal) (b2 : Fin B → EReal) :
    (⟨2, ![R, B]⟩ : Shape).Idx → EReal :=
  dense (dense x w1 b1) w2 b2

/-- The indicator of "row r carries label g", as an extended real. -/
def ind (lab : BitVec 32) (g : Nat) : EReal := if lab = BitVec.ofNat 32 g then 1 else 0

/-- Sum pooling by group: entry (g, d) adds h(r, d) over the rows r labelled g. -/
def pool {R G D : Nat} (lab : Fin R → BitVec 32) (h : (⟨2, ![R, D]⟩ : Shape).Idx → EReal) :
    (⟨2, ![G, D]⟩ : Shape).Idx → EReal :=
  fun j => ∑ r : Fin R, ind (lab r) (j 0).val * h (ix2 r (j 1))

/-- The readout: a dense rectified layer, then a linear layer with its bias. -/
def head {G D E O : Nat} (g : (⟨2, ![G, D]⟩ : Shape).Idx → EReal) (w1 : (⟨2, ![D, E]⟩ : Shape).Idx → EReal)
    (b1 : Fin E → EReal) (w2 : (⟨2, ![E, O]⟩ : Shape).Idx → EReal) (b2 : Fin O → EReal) :
    (⟨2, ![G, O]⟩ : Shape).Idx → EReal :=
  fun j => (∑ k : Fin E, dense g w1 b1 (ix2 (j 0) k) * w2 (ix2 k (j 1))) + b2 (j 1)

theorem dense_apply {R A B : Nat} (x : (⟨2, ![R, A]⟩ : Shape).Idx → EReal) (w : (⟨2, ![A, B]⟩ : Shape).Idx → EReal)
    (b : Fin B → EReal) (p : Fin R) (q : Fin B) :
    dense x w b (ix2 p q) = max ((∑ k : Fin A, x (ix2 p k) * w (ix2 k q)) + b q) 0 := rfl

theorem pool_apply {R G D : Nat} (lab : Fin R → BitVec 32) (h : (⟨2, ![R, D]⟩ : Shape).Idx → EReal) (g : Fin G) (d : Fin D) :
    pool (G := G) lab h (ix2 g d) = ∑ r : Fin R, ind (lab r) g.val * h (ix2 r d) := rfl

theorem head_apply {G D E O : Nat} (g : (⟨2, ![G, D]⟩ : Shape).Idx → EReal) (w1 : (⟨2, ![D, E]⟩ : Shape).Idx → EReal)
    (b1 : Fin E → EReal) (w2 : (⟨2, ![E, O]⟩ : Shape).Idx → EReal) (b2 : Fin O → EReal) (p : Fin G) (q : Fin O) :
    head g w1 b1 w2 b2 (ix2 p q) = (∑ k : Fin E, dense g w1 b1 (ix2 p k) * w2 (ix2 k q)) + b2 q := rfl

end Cert.Spec

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.KV.Pay.lean ====
/-
  The kernel bodies' stored values, read at the exact (extended-real) floats, as the network's plain functions:
  a block's two rectified dense layers, the group-sum step of the pooling accumulator, and the readout.
-/
import proofs.«420259_j2267742732765_3_alg».proof.Proof.Gen.KernelIdeal.Skeleton
import proofs.«420259_j2267742732765_3_alg».proof.Proof.Spec
import proofs.«420259_j2267742732765_3_alg».proof.Proof.LibPlainDot
import Idealize.ShloMosaic.PureOps.Ideal.Laws
import Idealize.ShloMosaic.Lib.ValueIdx
import Idealize.ShloMosaic.Lib.ValueLayout
import Idealize.ShloMosaic.Lib.Affine

noncomputable section

open scoped BigOperators

namespace Cert.KernelIdeal.Val

open Cert.KernelIdeal Cert.KernelIdeal.Gen Cert.Spec Idealize.ShloMosaic Idealize.ShloMosaic.ValueIdx

/-- One rectified dense layer as the kernel writes it (the operands narrowed, the product taken into the zero
    accumulator, the one-row bias broadcast over the rows, the maximum with the zero splat) is `dense`. -/
private theorem dense_term {R A B : Nat} (d : DotDims ⟨2, ![R, A]⟩ ⟨2, ![A, B]⟩ ⟨2, ![R, B]⟩) (hd : d = DotDims.plain R A B)
    (x : FVec Ideal ⟨2, ![R, A]⟩ .f32) (w : FVec Ideal ⟨2, ![A, B]⟩ .f32) (b : FVec Ideal ⟨2, ![1, B]⟩ .f32)
    (h1 h2 : FTy.bits .bf16 < FTy.bits .f32) (hb : (⟨2, ![1, B]⟩ : Shape).Broadcasts ⟨2, ![R, B]⟩) :
    maximumf (addf (matmul d none (truncf .bf16 x h1) (truncf .bf16 w h2) (constant ⟨2, ![R, B]⟩ .f32 0x00000000#32))
        (broadcastTo ⟨2, ![R, B]⟩ b hb)) (broadcast ⟨2, ![R, B]⟩ (Scalar.ofBits .f32 0x00000000#32))
      = dense x w (fun k => b (ix2 0 k)) := by
  subst hd
  funext j
  obtain ⟨p, q, rfl⟩ : ∃ (p : Fin R) (q : Fin B), j = ix2 p q := ⟨j 0, j 1, eq_ix2 j⟩
  show max (FloatOps.matmul (DotDims.plain R A B) none (truncf .bf16 x h1) (truncf .bf16 w h2)
      (constant ⟨2, ![R, B]⟩ .f32 0x00000000#32) (ix2 p q) + broadcastTo ⟨2, ![R, B]⟩ b hb (ix2 p q))
      (Ideal.ofBits .f32 0x00000000#32) = _
  rw [Cert.LibPlainDot.matmul_zero_apply, broadcastTo_1b_ab_apply, Ideal.ofBits_zero_f32]
  rfl

/-- A linear layer as the kernel writes it (no rectifier): the product into the zero accumulator plus the one-row bias. -/
private theorem linear_term {R A B : Nat} (d : DotDims ⟨2, ![R, A]⟩ ⟨2, ![A, B]⟩ ⟨2, ![R, B]⟩) (hd : d = DotDims.plain R A B)
    (x : FVec Ideal ⟨2, ![R, A]⟩ .f32) (w : FVec Ideal ⟨2, ![A, B]⟩ .f32) (b : FVec Ideal ⟨2, ![1, B]⟩ .f32)
    (h1 h2 : FTy.bits .bf16 < FTy.bits .f32) (hb : (⟨2, ![1, B]⟩ : Shape).Broadcasts ⟨2, ![R, B]⟩) (p : Fin R) (q : Fin B) :
    addf (matmul d none (truncf .bf16 x h1) (truncf .bf16 w h2) (constant ⟨2, ![R, B]⟩ .f32 0x00000000#32))
        (broadcastTo ⟨2, ![R, B]⟩ b hb) (ix2 p q)
      = (∑ k : Fin A, x (ix2 p k) * w (ix2 k q)) + b (ix2 0 q) := by
  subst hd
  show FloatOps.matmul (DotDims.plain R A B) none (truncf .bf16 x h1) (truncf .bf16 w h2)
      (constant ⟨2, ![R, B]⟩ .f32 0x00000000#32) (ix2 p q) + broadcastTo ⟨2, ![R, B]⟩ b hb (ix2 p q) = _
  rw [Cert.LibPlainDot.matmul_zero_apply, broadcastTo_1b_ab_apply]
  rfl

/-! ## The group-sum contraction: rows against rows -/

/-- The pooling product's dimension numbers: the left operand's rows against the right operand's rows. -/
private abbrev rowsDot : DotDims S2000x64 S2000x96 S64x96 := dot_S2000x64_S2000x96_S64x96_0_0_1_1_n_n

private theorem rowsDot_rank : rowsDot.contr.rank = 1 := rfl

private theorem rowsDot_size : rowsDot.contr.size ⟨0, by rw [rowsDot_rank]; exact Nat.one_pos⟩ = 2000 := rfl

/-- Its contraction index is the row number. -/
private abbrev rowOf : rowsDot.contr.Idx ≃ Fin 2000 := contrEquiv1 rowsDot 2000 rowsDot_rank rowsDot_size

/-- At output (g, c) and row r the left operand is read at (r, g). -/
private theorem rowsDot_lhsIdx (j : S64x96.Idx) (r : Fin 2000) : rowsDot.lhsIdx j (rowOf.symm r) = ix2 r (j 0) := by
  funext a
  match a with
  | ⟨0, _⟩ =>
    apply Fin.ext
    exact (rowsDot.lhsIdx_val_of_single (cl := 0) rfl j (rowOf.symm r)).trans
      (contrEquiv1_symm_val rowsDot 2000 rowsDot_rank rowsDot_size r)
  | ⟨1, _⟩ => rfl

/-- At output (g, c) and row r the right operand is read at (r, c). -/
private theorem rowsDot_rhsIdx (j : S64x96.Idx) (r : Fin 2000) : rowsDot.rhsIdx j (rowOf.symm r) = ix2 r (j 1) := by
  funext a
  match a with
  | ⟨0, _⟩ =>
    apply Fin.ext
    exact (rowsDot.rhsIdx_val_of_single (cr := 0) rfl j (rowOf.symm r)).trans
      (contrEquiv1_symm_val rowsDot 2000 rowsDot_rank rowsDot_size r)
  | ⟨1, _⟩ => rfl

/-- The rows-against-rows product into the zero accumulator, at (g, c): the sum over the rows r of l(r, g) · m(r, c). -/
private theorem rowsDot_zero_apply {φ₁ φ₂ : FTy} (prec : Option ContractPrecision)
    (l : FVec Ideal S2000x64 φ₁) (m : FVec Ideal S2000x96 φ₂) (j : S64x96.Idx) :
    FloatOps.matmul rowsDot prec l m (constant S64x96 .f32 0x00000000#32) j
      = ∑ r : Fin 2000, l (ix2 r (j 0)) * m (ix2 r (j 1)) := by
  rw [Ideal.matmul_constant_zero_apply, ← Equiv.sum_comp rowOf.symm]
  exact Finset.sum_congr rfl fun r _ =>
    congrArg₂ (· * ·) (congrArg l (rowsDot_lhsIdx j r)) (congrArg m (rowsDot_rhsIdx j r))

/-! ## The group indicator -/

/-- A one-column array broadcast over the columns reads, at (r, g), the column's entry of row r. -/
private theorem broadcastTo_a1_ab_apply {α : Type} {a b : Nat} (v : (⟨2, ![a, 1]⟩ : Shape).Idx → α)
    (h : (⟨2, ![a, 1]⟩ : Shape).Broadcasts ⟨2, ![a, b]⟩) (r : Fin a) (g : Fin b) :
    broadcastTo ⟨2, ![a, b]⟩ v h (ix2 r g) = v (ix2 r (0 : Fin 1)) := by
  refine broadcastTo_apply v h (ix2 r g) (ix2 r (0 : Fin 1)) fun ax => ?_
  match ax with
  | ⟨0, _⟩ =>
    show r.val = if a = 1 then 0 else r.val
    split
    · have := r.isLt; omega
    · rfl
  | ⟨1, _⟩ => rfl

/-- The comparison of the labels with the column number, widened and converted: entry (r, g) is 1 when row r carries
    label g and 0 otherwise. -/
private theorem onehot_apply (bt : IVec S2000x1 32) (hb : S2000x1.Broadcasts S2000x64) (hi : S2000x64.Iotas .tc 32 [1])
    (hw : 1 < 32) (r : Fin 2000) (g : Fin 64) :
    (sitofp .f32 (extui 32 (cmpi .eq (broadcastTo S2000x64 bt hb) (iota .tc S2000x64 32 [1] hi)) hw) : FVec Ideal S2000x64 .f32)
        (ix2 r g) = ind (bt (ix2 r 0)) g.val := by
  show ((((IntOp.cmpi .eq (broadcastTo S2000x64 bt hb (ix2 r g)) (iota .tc S2000x64 32 [1] hi (ix2 r g))).setWidth 32).toInt : ℝ) : EReal) = _
  rw [broadcastTo_a1_ab_apply, iota_single_apply]
  show _ = if bt (ix2 r 0) = BitVec.ofNat 32 g.val then (1 : EReal) else 0
  by_cases h : bt (ix2 r 0) = BitVec.ofNat 32 g.val
  · rw [if_pos h, IntOp.cmpi_eq.2 h]
    norm_num
  · rw [if_neg h, eq_zero_of_ne_one (mt IntOp.cmpi_eq.1 h)]
    norm_num

/-! ## The stored values -/

theorem k0_pay1_eq (x0 : Vec Ideal S5000x96 .f32) (x1 : Vec Ideal S96x192 .f32) (x2 : Vec Ideal S1x192 .f32)
    (x3 : Vec Ideal S192x96 .f32) (x4 : Vec Ideal S1x96 .f32) :
    k0_pay1 (F := Ideal) x0 x1 x2 x3 x4 = mlp2 x0 x1 (fun k => x2 (ix2 0 k)) x3 (fun k => x4 (ix2 0 k)) := by
  unfold k0_pay1
  simp only [shapeCast_self]
  rw [dense_term dot_S5000x96_S96x192_S5000x192_1_0_0_1_n_n rfl x0 x1 x2,
    dense_term dot_S5000x192_S192x96_S5000x96_1_0_0_1_n_n rfl]
  rfl

theorem k1_pay1_eq (x0 : Vec Ideal S5000x96 .f32) (x1 : Vec Ideal S96x192 .f32) (x2 : Vec Ideal S1x192 .f32)
    (x3 : Vec Ideal S192x96 .f32) (x4 : Vec Ideal S1x96 .f32) :
    k1_pay1 (F := Ideal) x0 x1 x2 x3 x4 = mlp2 x0 x1 (fun k => x2 (ix2 0 k)) x3 (fun k => x4 (ix2 0 k)) := by
  unfold k1_pay1
  simp only [shapeCast_self]
  rw [dense_term dot_S5000x96_S96x192_S5000x192_1_0_0_1_n_n rfl x0 x1 x2,
    dense_term dot_S5000x192_S192x96_S5000x96_1_0_0_1_n_n rfl]
  rfl

theorem k2_pay4_eq (z : Vec Ideal S2000x96 .f32) (w1 : Vec Ideal S96x192 .f32) (b1 : Vec Ideal S1x192 .f32)
    (w2 : Vec Ideal S192x96 .f32) (b2 : Vec Ideal S1x96 .f32) (bt : Vec Ideal S2000x1 .i32) (acc : Vec Ideal S64x96 .f32) :
    k2_pay4 (F := Ideal) z w1 b1 w2 b2 bt acc
      = fun j => acc j + ∑ r : Fin 2000, ind (bt (ix2 r 0)) (j 0).val
          * mlp2 z w1 (fun k => b1 (ix2 0 k)) w2 (fun k => b2 (ix2 0 k)) (ix2 r (j 1)) := by
  unfold k2_pay4
  simp only [shapeCast_self]
  rw [dense_term dot_S2000x96_S96x192_S2000x192_1_0_0_1_n_n rfl z w1 b1,
    dense_term dot_S2000x192_S192x96_S2000x96_1_0_0_1_n_n rfl]
  funext j
  refine (congrArg (acc j + ·) (rowsDot_zero_apply _ _ _ j)).trans ?_
  refine congrArg (acc j + ·) (Finset.sum_congr rfl fun r _ => ?_)
  exact congrArg (· * mlp2 z w1 (fun k => b1 (ix2 0 k)) w2 (fun k => b2 (ix2 0 k)) (ix2 r (j 1)))
    (onehot_apply bt _ _ _ r (j 0))

theorem k2_pay2_eq (acc : Vec Ideal S64x96 .f32) (fw1 : Vec Ideal S96x96 .f32) (fb1 : Vec Ideal S1x96 .f32)
    (fw2 : Vec Ideal S96x1 .f32) (fb2 : Vec Ideal S1x1 .f32) :
    k2_pay2 (F := Ideal) acc fw1 fb1 fw2 fb2 = head acc fw1 (fun k => fb1 (ix2 0 k)) fw2 (fun k => fb2 (ix2 0 k)) := by
  unfold k2_pay2
  simp only [shapeCast_self]
  rw [dense_term dot_S64x96_S96x96_S64x96_1_0_0_1_n_n rfl acc fw1 fb1]
  funext j
  obtain ⟨p, q, rfl⟩ : ∃ (p : Fin 64) (q : Fin 1), j = ix2 p q := ⟨j 0, j 1, eq_ix2 j⟩
  exact linear_term dot_S64x96_S96x1_S64x1_1_0_0_1_n_n rfl _ fw2 fb2 _ _ _ p q

theorem k2_pay1_eq (v : FVec Ideal S64x96 .f32) : k2_pay1 (F := Ideal) v = v := by
  unfold k2_pay1
  exact shapeCast_self v _

theorem k2_pay3_eq : (k2_pay3 (F := Ideal) : FVec Ideal S64x96 .f32) = fun _ => (0 : EReal) := by
  unfold k2_pay3
  simp only [shapeCast_self]
  funext j
  exact Ideal.ofBits_zero_f32

end Cert.KernelIdeal.Val

end
-- ==== Proof.KV.Arr0.lean ====
/-
  The first message-passing layer's perceptron over the whole node array.

  The grid walks the 50000 rows in 10 blocks of 5000. At every point the body leaves, in the result's
  staging buffer, the two-layer perceptron of the point's row block under the four weight arrays, and the
  block is written back to rows 5000·t … 5000·t + 4999. Entry (p, q) of the perceptron reads only row p of
  its first argument, so each written block is that block of ONE function of the whole arrays; the ten
  blocks tile the result, which therefore ends holding that function.
-/
import proofs.«420259_j2267742732765_3_alg».proof.Proof.KI.R0
import proofs.«420259_j2267742732765_3_alg».proof.Proof.KV.Pay
import proofs.«420259_j2267742732765_3_alg».proof.Proof.Spec
import Idealize.ShloMosaic.Lib.Pipeline.Value

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

/-! ## The perceptron reads one row -/

/-- Entry (p, q) of the two-layer perceptron depends on its first argument through row p only: two first
    arguments (of any heights) that agree on a pair of rows give the same entries along those rows. -/
theorem mlp2_row_congr {R R' A H B : Nat}
    (z : (⟨2, ![R, A]⟩ : Shape).Idx → EReal) (z' : (⟨2, ![R', A]⟩ : Shape).Idx → EReal)
    (w1 : (⟨2, ![A, H]⟩ : Shape).Idx → EReal) (b1 : Fin H → EReal)
    (w2 : (⟨2, ![H, B]⟩ : Shape).Idx → EReal) (b2 : Fin B → EReal)
    (p : Fin R) (p' : Fin R') (q : Fin B) (hrow : ∀ k : Fin A, z (ix2 p k) = z' (ix2 p' k)) :
    mlp2 z w1 b1 w2 b2 (ix2 p q) = mlp2 z' w1 b1 w2 b2 (ix2 p' q) := by
  unfold mlp2
  rw [dense_apply, dense_apply]
  simp only [dense_apply, hrow]

/-- The same at two indices given by their coordinates, the weights allowed to differ by an equation. -/
theorem mlp2_block_apply {R R' A H B : Nat}
    (z : (⟨2, ![R, A]⟩ : Shape).Idx → EReal) (z' : (⟨2, ![R', A]⟩ : Shape).Idx → EReal)
    (w1 w1' : (⟨2, ![A, H]⟩ : Shape).Idx → EReal) (b1 b1' : Fin H → EReal)
    (w2 w2' : (⟨2, ![H, B]⟩ : Shape).Idx → EReal) (b2 b2' : Fin B → EReal)
    (y : (⟨2, ![R, B]⟩ : Shape).Idx) (i : (⟨2, ![R', B]⟩ : Shape).Idx)
    (hrow : ∀ k : Fin A, z (ix2 (y 0) k) = z' (ix2 (i 0) k))
    (h1 : w1 = w1') (hb1 : b1 = b1') (h2 : w2 = w2') (hb2 : b2 = b2') (hq : y 1 = i 1) :
    mlp2 z w1 b1 w2 b2 y = mlp2 z' w1' b1' w2' b2' i := by
  subst h1 hb1 h2 hb2
  rw [eq_ix2 y, eq_ix2 i, hq]
  exact mlp2_row_congr z z' w1 b1 w2 b2 (y 0) (i 0) (i 1) hrow

variable (V : (c : Dev nD) → (b : Ref sig .tc) → Buf (Elt Ideal) ((c : Thread nD τ).loc b))

/-! ## Where the blocks sit -/

/-- The printed index maps, decided over the grid: the row block's and the result's block index is (t, 0),
    every weight's is (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row block at point t, at (p, k), is the node array at (5000·t + p, k). -/
theorem zblk0_apply (c : Dev nD) (t : Fin cfg0.N) (x : S5000x96.Idx) (i : S50000x96.Idx)
    (h0 : (i 0).val = 5000 * t.val + (x 0).val) (h1 : (i 1).val = (x 1).val) :
    (iblk0 V c 0 t : Vec Ideal S5000x96 .f32) x = (V c main_v25 : S50000x96.Idx → EReal) i := by
  obtain ⟨e0, e1, -⟩ := idx_facts0 t
  unfold iblk0
  rw [View.read_apply]
  show V c main_v25 _ = V c main_v25 i
  congr 1
  funext a
  apply Fin.ext
  match a with
  | ⟨0, _⟩ => show win0_0.index t 0 * 5000 + 1 * (x 0).val = (i 0).val; rw [e0, h0]; omega
  | ⟨1, _⟩ => show win0_0.index t 1 * 96 + 1 * (x 1).val = (i 1).val; rw [e1, h1]; omega

/-- A weight window's block index is (0, 0) and its block is the whole array: the block IS the array.
    The first weight matrix: -/
theorem wblk0_1_eq (c : Dev nD) (t : Fin cfg0.N) :
    (iblk0 V c 1 t : Vec Ideal S96x192 .f32) = (V c main_v27 : S96x192.Idx → EReal) := by
  obtain ⟨-, -, e0, e1, -⟩ := idx_facts0 t
  funext x
  unfold iblk0
  rw [View.read_apply]
  show V c main_v27 _ = V c main_v27 x
  congr 1
  funext a
  apply Fin.ext
  match a with
  | ⟨0, _⟩ => show win0_1.index t 0 * 96 + 1 * (x 0).val = (x 0).val; rw [e0]; omega
  | ⟨1, _⟩ => show win0_1.index t 1 * 192 + 1 * (x 1).val = (x 1).val; rw [e1]; omega

/-- The first bias's block is the whole array. -/
theorem wblk0_2_eq (c : Dev nD) (t : Fin cfg0.N) :
    (iblk0 V c 2 t : Vec Ideal S1x192 .f32) = (V c main_v30 : S1x192.Idx → EReal) := by
  obtain ⟨-, -, -, -, e0, e1, -⟩ := idx_facts0 t
  funext x
  unfold iblk0
  rw [View.read_apply]
  show V c main_v30 _ = V c main_v30 x
  congr 1
  funext a
  apply Fin.ext
  match a with
  | ⟨0, _⟩ => show win0_2.index t 0 * 1 + 1 * (x 0).val = (x 0).val; rw [e0]; omega
  | ⟨1, _⟩ => show win0_2.index t 1 * 192 + 1 * (x 1).val = (x 1).val; rw [e1]; omega

/-- The second weight matrix's block is the whole array. -/
theorem wblk0_3_eq (c : Dev nD) (t : Fin cfg0.N) :
    (iblk0 V c 3 t : Vec Ideal S192x96 .f32) = (V c main_v32 : S192x96.Idx → EReal) := by
  obtain ⟨-, -, -, -, -, -, e0, e1, -⟩ := idx_facts0 t
  funext x
  unfold iblk0
  rw [View.read_apply]
  show V c main_v32 _ = V c main_v32 x
  congr 1
  funext a
  apply Fin.ext
  match a with
  | ⟨0, _⟩ => show win0_3.index t 0 * 192 + 1 * (x 0).val = (x 0).val; rw [e0]; omega
  | ⟨1, _⟩ => show win0_3.index t 1 * 96 + 1 * (x 1).val = (x 1).val; rw [e1]; omega

/-- The second bias's block is the whole array. -/
theorem wblk0_4_eq (c : Dev nD) (t : Fin cfg0.N) :
    (iblk0 V c 4 t : Vec Ideal S1x96 .f32) = (V c main_v35 : S1x96.Idx → EReal) := by
  obtain ⟨-, -, -, -, -, -, -, -, e0, e1, -⟩ := idx_facts0 t
  funext x
  unfold iblk0
  rw [View.read_apply]
  show V c main_v35 _ = V c main_v35 x
  congr 1
  funext a
  apply Fin.ext
  match a with
  | ⟨0, _⟩ => show win0_4.index t 0 * 1 + 1 * (x 0).val = (x 0).val; rw [e0]; omega
  | ⟨1, _⟩ => show win0_4.index t 1 * 96 + 1 * (x 1).val = (x 1).val; rw [e1]; omega

/-! ## The result array -/

/-- What the result array ends holding: the perceptron of the whole node array under the layer's weights. -/
abbrev G0 (c : Dev nD) : S50000x96.Idx → EReal :=
  mlp2 (V c main_v25 : S50000x96.Idx → EReal) (V c main_v27 : S96x192.Idx → EReal)
    (fun k => (V c main_v30 : S1x192.Idx → EReal) (ix2 0 k)) (V c main_v32 : S192x96.Idx → EReal)
    (fun k => (V c main_v35 : S1x96.Idx → EReal) (ix2 0 k))

/-- Where an element of the result's block at point t sits in the array: row 5000·t + its row, same column. -/
theorem oblk0_emb (t : Fin cfg0.N) (y : S5000x96.Idx) :
    ((((cfg0.win 5).blk t).view.emb y : S50000x96.Idx) 0).val = 5000 * t.val + (y 0).val
    ∧ ((((cfg0.win 5).blk t).view.emb y : S50000x96.Idx) 1).val = (y 1).val := by
  obtain ⟨-, -, -, -, -, -, -, -, -, -, e0, e1⟩ := idx_facts0 t
  constructor
  · show win0_5.index t 0 * 5000 + 1 * (y 0).val = _; rw [e0]; omega
  · show win0_5.index t 1 * 96 + 1 * (y 1).val = _; rw [e1]; omega

/-- What point t writes back is block t of the one function of the whole arrays. -/
theorem flushed0_5_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5, k0_pay1_eq, wblk0_1_eq, wblk0_2_eq, wblk0_3_eq, wblk0_4_eq]
  funext y
  rw [View.read_apply]
  obtain ⟨h0, h1⟩ := oblk0_emb t y
  refine mlp2_block_apply _ _ _ _ _ _ _ _ _ _ y (((cfg0.win 5).blk t).view.emb y) (fun k => ?_) rfl rfl rfl rfl (Fin.ext h1.symm)
  exact zblk0_apply V c t _ _ h0 rfl

/-- An index of the array is in point t's block iff each coordinate is in the block's range on its axis. -/
theorem mem_oblk0 (t : Fin cfg0.N) (i : S50000x96.Idx) :
    i ∈ ((cfg0.win 5).blk t).view.set
      ↔ ∀ a : Fin 2, win0_5.index t a * S5000x96.size a ≤ (i a).val
          ∧ (i a).val < win0_5.index t a * S5000x96.size a + S5000x96.size a := by
  show i ∈ ((View.whole main_v36).slice (win0_5.rect t)).set ↔ _
  rw [View.set_slice_whole, Rect.mem_set_unit]
  exact Iff.rfl

/-- The ten row blocks tile the array: row r lies in the block of point r / 5000. -/
theorem cover0_5_arr (i : S50000x96.Idx) :
    ∃ t : Fin cfg0.N, (cfg0.win 5).flush t = true ∧ i ∈ ((cfg0.win 5).blk t).view.set := by
  have hN : cfg0.N = 10 := N_0
  have hr : (i 0).val < 50000 := (i 0).isLt
  have hq : (i 1).val < 96 := (i 1).isLt
  refine ⟨⟨(i 0).val / 5000, by rw [hN]; omega⟩, flush0_5 _, ?_⟩
  rw [mem_oblk0]
  obtain ⟨-, -, -, -, -, -, -, -, -, -, e0, e1⟩ := idx_facts0 ⟨(i 0).val / 5000, by rw [hN]; omega⟩
  intro a
  match a with
  | ⟨0, _⟩ =>
    show win0_5.index _ 0 * 5000 ≤ (i 0).val ∧ (i 0).val < win0_5.index _ 0 * 5000 + 5000
    rw [e0]; show (i 0).val / 5000 * 5000 ≤ (i 0).val ∧ (i 0).val < (i 0).val / 5000 * 5000 + 5000; omega
  | ⟨1, _⟩ =>
    show win0_5.index _ 1 * 96 ≤ (i 1).val ∧ (i 1).val < win0_5.index _ 1 * 96 + 96
    rw [e1]; omega

/-- The result array after the run is the perceptron of the whole node array. -/
theorem arr0_eq (c : Dev nD) :
    ((dat0 (F := Ideal) V c).arrAt 5 cfg0.N : S50000x96.Idx → EReal)
      = mlp2 (V c main_v25 : S50000x96.Idx → EReal) (V c main_v27 : S96x192.Idx → EReal)
          (fun k => (V c main_v30 : S1x192.Idx → EReal) (ix2 0 k)) (V c main_v32 : S192x96.Idx → EReal)
          (fun k => (V c main_v35 : S1x96.Idx → EReal) (ix2 0 k)) :=
  (dat0 (F := Ideal) V c).arrAt_eq_of_cover 5 (G0 V c) (fun t _ => flushed0_5_eq V c t) cover0_5_arr

end Cert.KernelIdeal.Val

end
-- ==== Proof.KV.Arr1.lean ====
/-
  The second message-passing layer's perceptron over the whole node array.

  The grid walks the 50000 rows in 10 blocks of 5000. At every point the body leaves, in the result's
  staging buffer, the two-layer perceptron of the point's row block under the four weight arrays, and the
  block is written back to rows 5000·t … 5000·t + 4999. Entry (p, q) of the perceptron reads only row p of
  its first argument, so each written block is that block of ONE function of the whole arrays; the ten
  blocks tile the result, which therefore ends holding that function.
-/
import proofs.«420259_j2267742732765_3_alg».proof.Proof.KI.R1
import proofs.«420259_j2267742732765_3_alg».proof.Proof.KV.Arr0
import proofs.«420259_j2267742732765_3_alg».proof.Proof.KV.Pay
import proofs.«420259_j2267742732765_3_alg».proof.Proof.Spec
import Idealize.ShloMosaic.Lib.Pipeline.Value

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where the blocks sit -/

/-- The printed index maps, decided over the grid: the row block's and the result's block index is (t, 0),
    every weight's is (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row block at point t, at (p, k), is the node array at (5000·t + p, k). -/
theorem zblk1_apply (c : Dev nD) (t : Fin cfg1.N) (x : S5000x96.Idx) (i : S50000x96.Idx)
    (h0 : (i 0).val = 5000 * t.val + (x 0).val) (h1 : (i 1).val = (x 1).val) :
    (iblk1 V c 0 t : Vec Ideal S5000x96 .f32) x = (V c main_v57 : S50000x96.Idx → EReal) i := by
  obtain ⟨e0, e1, -⟩ := idx_facts1 t
  unfold iblk1
  rw [View.read_apply]
  show V c main_v57 _ = V c main_v57 i
  congr 1
  funext a
  apply Fin.ext
  match a with
  | ⟨0, _⟩ => show win1_0.index t 0 * 5000 + 1 * (x 0).val = (i 0).val; rw [e0, h0]; omega
  | ⟨1, _⟩ => show win1_0.index t 1 * 96 + 1 * (x 1).val = (i 1).val; rw [e1, h1]; omega

/-- A weight window's block index is (0, 0) and its block is the whole array: the block IS the array.
    The first weight matrix: -/
theorem wblk1_1_eq (c : Dev nD) (t : Fin cfg1.N) :
    (iblk1 V c 1 t : Vec Ideal S96x192 .f32) = (V c main_v59 : S96x192.Idx → EReal) := by
  obtain ⟨-, -, e0, e1, -⟩ := idx_facts1 t
  funext x
  unfold iblk1
  rw [View.read_apply]
  show V c main_v59 _ = V c main_v59 x
  congr 1
  funext a
  apply Fin.ext
  match a with
  | ⟨0, _⟩ => show win1_1.index t 0 * 96 + 1 * (x 0).val = (x 0).val; rw [e0]; omega
  | ⟨1, _⟩ => show win1_1.index t 1 * 192 + 1 * (x 1).val = (x 1).val; rw [e1]; omega

/-- The first bias's block is the whole array. -/
theorem wblk1_2_eq (c : Dev nD) (t : Fin cfg1.N) :
    (iblk1 V c 2 t : Vec Ideal S1x192 .f32) = (V c main_v62 : S1x192.Idx → EReal) := by
  obtain ⟨-, -, -, -, e0, e1, -⟩ := idx_facts1 t
  funext x
  unfold iblk1
  rw [View.read_apply]
  show V c main_v62 _ = V c main_v62 x
  congr 1
  funext a
  apply Fin.ext
  match a with
  | ⟨0, _⟩ => show win1_2.index t 0 * 1 + 1 * (x 0).val = (x 0).val; rw [e0]; omega
  | ⟨1, _⟩ => show win1_2.index t 1 * 192 + 1 * (x 1).val = (x 1).val; rw [e1]; omega

/-- The second weight matrix's block is the whole array. -/
theorem wblk1_3_eq (c : Dev nD) (t : Fin cfg1.N) :
    (iblk1 V c 3 t : Vec Ideal S192x96 .f32) = (V c main_v64 : S192x96.Idx → EReal) := by
  obtain ⟨-, -, -, -, -, -, e0, e1, -⟩ := idx_facts1 t
  funext x
  unfold iblk1
  rw [View.read_apply]
  show V c main_v64 _ = V c main_v64 x
  congr 1
  funext a
  apply Fin.ext
  match a with
  | ⟨0, _⟩ => show win1_3.index t 0 * 192 + 1 * (x 0).val = (x 0).val; rw [e0]; omega
  | ⟨1, _⟩ => show win1_3.index t 1 * 96 + 1 * (x 1).val = (x 1).val; rw [e1]; omega

/-- The second bias's block is the whole array. -/
theorem wblk1_4_eq (c : Dev nD) (t : Fin cfg1.N) :
    (iblk1 V c 4 t : Vec Ideal S1x96 .f32) = (V c main_v67 : S1x96.Idx → EReal) := by
  obtain ⟨-, -, -, -, -, -, -, -, e0, e1, -⟩ := idx_facts1 t
  funext x
  unfold iblk1
  rw [View.read_apply]
  show V c main_v67 _ = V c main_v67 x
  congr 1
  funext a
  apply Fin.ext
  match a with
  | ⟨0, _⟩ => show win1_4.index t 0 * 1 + 1 * (x 0).val = (x 0).val; rw [e0]; omega
  | ⟨1, _⟩ => show win1_4.index t 1 * 96 + 1 * (x 1).val = (x 1).val; rw [e1]; omega

/-! ## The result array -/

/-- What the result array ends holding: the perceptron of the whole node array under the layer's weights. -/
abbrev G1 (c : Dev nD) : S50000x96.Idx → EReal :=
  mlp2 (V c main_v57 : S50000x96.Idx → EReal) (V c main_v59 : S96x192.Idx → EReal)
    (fun k => (V c main_v62 : S1x192.Idx → EReal) (ix2 0 k)) (V c main_v64 : S192x96.Idx → EReal)
    (fun k => (V c main_v67 : S1x96.Idx → EReal) (ix2 0 k))

/-- Where an element of the result's block at point t sits in the array: row 5000·t + its row, same column. -/
theorem oblk1_emb (t : Fin cfg1.N) (y : S5000x96.Idx) :
    ((((cfg1.win 5).blk t).view.emb y : S50000x96.Idx) 0).val = 5000 * t.val + (y 0).val
    ∧ ((((cfg1.win 5).blk t).view.emb y : S50000x96.Idx) 1).val = (y 1).val := by
  obtain ⟨-, -, -, -, -, -, -, -, -, -, e0, e1⟩ := idx_facts1 t
  constructor
  · show win1_5.index t 0 * 5000 + 1 * (y 0).val = _; rw [e0]; omega
  · show win1_5.index t 1 * 96 + 1 * (y 1).val = _; rw [e1]; omega

/-- What point t writes back is block t of the one function of the whole arrays. -/
theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5, k1_pay1_eq, wblk1_1_eq, wblk1_2_eq, wblk1_3_eq, wblk1_4_eq]
  funext y
  rw [View.read_apply]
  obtain ⟨h0, h1⟩ := oblk1_emb t y
  refine mlp2_block_apply _ _ _ _ _ _ _ _ _ _ y (((cfg1.win 5).blk t).view.emb y) (fun k => ?_) rfl rfl rfl rfl (Fin.ext h1.symm)
  exact zblk1_apply V c t _ _ h0 rfl

/-- An index of the array is in point t's block iff each coordinate is in the block's range on its axis. -/
theorem mem_oblk1 (t : Fin cfg1.N) (i : S50000x96.Idx) :
    i ∈ ((cfg1.win 5).blk t).view.set
      ↔ ∀ a : Fin 2, win1_5.index t a * S5000x96.size a ≤ (i a).val
          ∧ (i a).val < win1_5.index t a * S5000x96.size a + S5000x96.size a := by
  show i ∈ ((View.whole main_v68).slice (win1_5.rect t)).set ↔ _
  rw [View.set_slice_whole, Rect.mem_set_unit]
  exact Iff.rfl

/-- The ten row blocks tile the array: row r lies in the block of point r / 5000. -/
theorem cover1_5_arr (i : S50000x96.Idx) :
    ∃ t : Fin cfg1.N, (cfg1.win 5).flush t = true ∧ i ∈ ((cfg1.win 5).blk t).view.set := by
  have hN : cfg1.N = 10 := N_1
  have hr : (i 0).val < 50000 := (i 0).isLt
  have hq : (i 1).val < 96 := (i 1).isLt
  refine ⟨⟨(i 0).val / 5000, by rw [hN]; omega⟩, flush1_5 _, ?_⟩
  rw [mem_oblk1]
  obtain ⟨-, -, -, -, -, -, -, -, -, -, e0, e1⟩ := idx_facts1 ⟨(i 0).val / 5000, by rw [hN]; omega⟩
  intro a
  match a with
  | ⟨0, _⟩ =>
    show win1_5.index _ 0 * 5000 ≤ (i 0).val ∧ (i 0).val < win1_5.index _ 0 * 5000 + 5000
    rw [e0]; show (i 0).val / 5000 * 5000 ≤ (i 0).val ∧ (i 0).val < (i 0).val / 5000 * 5000 + 5000; omega
  | ⟨1, _⟩ =>
    show win1_5.index _ 1 * 96 ≤ (i 1).val ∧ (i 1).val < win1_5.index _ 1 * 96 + 96
    rw [e1]; omega

/-- The result array after the run is the perceptron of the whole node array. -/
theorem arr1_eq (c : Dev nD) :
    ((dat1 (F := Ideal) V c).arrAt 5 cfg1.N : S50000x96.Idx → EReal)
      = mlp2 (V c main_v57 : S50000x96.Idx → EReal) (V c main_v59 : S96x192.Idx → EReal)
          (fun k => (V c main_v62 : S1x192.Idx → EReal) (ix2 0 k)) (V c main_v64 : S192x96.Idx → EReal)
          (fun k => (V c main_v67 : S1x96.Idx → EReal) (ix2 0 k)) :=
  (dat1 (F := Ideal) V c).arrAt_eq_of_cover 5 (G1 V c) (fun t _ => flushed1_5_eq V c t) cover1_5_arr

end Cert.KernelIdeal.Val

end
-- ==== Proof.KV.Arr2.lean ====
/-
  The pooled readout's result array.

  The third kernel visits 25 row blocks of 2000 nodes. At each block it adds, for every group g and feature d,
  the block's rows labelled g of the two-layer perceptron's output into an accumulator that it carries from
  block to block; after the last block it applies the readout to the accumulator and writes the result back
  once. So the accumulator after block n is the pooled sum over the first 2000·(n+1) rows, after the last
  block it is the pooled sum over all 50000 rows, and the result array is the readout of that.
-/
import proofs.«420259_j2267742732765_3_alg».proof.Proof.KI.R2
import proofs.«420259_j2267742732765_3_alg».proof.Proof.KV.Pay
import proofs.«420259_j2267742732765_3_alg».proof.Proof.Spec
import Idealize.ShloMosaic.Lib.Pipeline.Value
import Idealize.ShloMosaic.Lib.ValueIdx
import Mathlib.Algebra.BigOperators.Fin
import Mathlib.Algebra.BigOperators.Intervals

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

/-! ## Pooling over an initial stretch of rows -/

section Partial

variable {R A Hd D : Nat}

/-- Row r's contribution to group g at feature d; nothing past the last row. -/
def rowTerm (lab : Fin R → BitVec 32) (h : (⟨2, ![R, D]⟩ : Shape).Idx → EReal) (g : Nat) (d : Fin D) (r : Nat) : EReal :=
  if hr : r < R then ind (lab ⟨r, hr⟩) g * h (ix2 ⟨r, hr⟩ d) else 0

/-- The pooled sum over the first m rows only. -/
def poolUpTo {G : Nat} (lab : Fin R → BitVec 32) (h : (⟨2, ![R, D]⟩ : Shape).Idx → EReal) (m : Nat) :
    (⟨2, ![G, D]⟩ : Shape).Idx → EReal :=
  fun j => ∑ r ∈ Finset.range m, rowTerm lab h (j 0).val (j 1) r

/-- Over no rows it is zero. -/
theorem poolUpTo_zero {G : Nat} (lab : Fin R → BitVec 32) (h : (⟨2, ![R, D]⟩ : Shape).Idx → EReal) :
    poolUpTo (G := G) lab h 0 = fun _ => 0 :=
  funext fun _ => Finset.sum_range_zero _

/-- Over all the rows it is the pooled sum. -/
theorem poolUpTo_all {G : Nat} (lab : Fin R → BitVec 32) (h : (⟨2, ![R, D]⟩ : Shape).Idx → EReal) :
    poolUpTo (G := G) lab h R = pool lab h :=
  funext fun j => (Finset.sum_range fun r => rowTerm lab h (j 0).val (j 1) r).trans
    (Finset.sum_congr rfl fun r _ => dif_pos r.isLt)

/-- A further stretch of b rows adds its own rows' contributions. -/
theorem poolUpTo_add {G : Nat} (lab : Fin R → BitVec 32) (h : (⟨2, ![R, D]⟩ : Shape).Idx → EReal) (m b : Nat)
    (j : (⟨2, ![G, D]⟩ : Shape).Idx) :
    poolUpTo lab h (m + b) j = poolUpTo lab h m j + ∑ x : Fin b, rowTerm lab h (j 0).val (j 1) (m + x.val) :=
  (Finset.sum_range_add _ m b).trans
    (congrArg (poolUpTo lab h m j + ·) (Finset.sum_range fun x => rowTerm lab h (j 0).val (j 1) (m + x)))

/-- A dense rectified layer reads, at row p, row p of its input only. -/
theorem dense_row {R' B : Nat} (x : (⟨2, ![R, A]⟩ : Shape).Idx → EReal) (x' : (⟨2, ![R', A]⟩ : Shape).Idx → EReal)
    (w : (⟨2, ![A, B]⟩ : Shape).Idx → EReal) (b : Fin B → EReal) (p : Fin R) (p' : Fin R')
    (hx : ∀ k : Fin A, x (ix2 p k) = x' (ix2 p' k)) (q : Fin B) :
    dense x w b (ix2 p q) = dense x' w b (ix2 p' q) := by
  rw [dense_apply, dense_apply]
  exact congrArg (fun s => max (s + b q) 0) (Finset.sum_congr rfl fun k _ => congrArg (· * w (ix2 k q)) (hx k))

/-- So does the two-layer perceptron. -/
theorem mlp2_row {R' B : Nat} (x : (⟨2, ![R, A]⟩ : Shape).Idx → EReal) (x' : (⟨2, ![R', A]⟩ : Shape).Idx → EReal)
    (w1 : (⟨2, ![A, Hd]⟩ : Shape).Idx → EReal) (b1 : Fin Hd → EReal) (w2 : (⟨2, ![Hd, B]⟩ : Shape).Idx → EReal)
    (b2 : Fin B → EReal) (p : Fin R) (p' : Fin R')
    (hx : ∀ k : Fin A, x (ix2 p k) = x' (ix2 p' k)) (q : Fin B) :
    mlp2 x w1 b1 w2 b2 (ix2 p q) = mlp2 x' w1 b1 w2 b2 (ix2 p' q) :=
  dense_row (dense x w1 b1) (dense x' w1 b1) w2 b2 p p' (fun k => dense_row x x' w1 b1 p p' hx k) q

/-- One block of b rows starting at row m: its rows' labelled perceptron outputs, summed, are the stretch's
    contributions to the pooled sum. -/
theorem block_sum {B : Nat} (m : Nat) (hm : m + B ≤ R)
    (z : (⟨2, ![R, A]⟩ : Shape).Idx → EReal) (zb : (⟨2, ![B, A]⟩ : Shape).Idx → EReal)
    (lab : Fin R → BitVec 32) (bt : (⟨2, ![B, 1]⟩ : Shape).Idx → BitVec 32)
    (w1 : (⟨2, ![A, Hd]⟩ : Shape).Idx → EReal) (b1 : Fin Hd → EReal) (w2 : (⟨2, ![Hd, D]⟩ : Shape).Idx → EReal)
    (b2 : Fin D → EReal)
    (hz : ∀ (p : Fin B) (q : Fin A), zb (ix2 p q) = z (ix2 ⟨m + p.val, by have := p.isLt; omega⟩ q))
    (hb : ∀ p : Fin B, bt (ix2 p 0) = lab ⟨m + p.val, by have := p.isLt; omega⟩) (g : Nat) (d : Fin D) :
    ∑ r : Fin B, ind (bt (ix2 r 0)) g * mlp2 zb w1 b1 w2 b2 (ix2 r d)
      = ∑ x : Fin B, rowTerm lab (mlp2 z w1 b1 w2 b2) g d (m + x.val) :=
  Finset.sum_congr rfl fun r _ => by
    have hr : m + r.val < R := by have := r.isLt; omega
    unfold rowTerm
    rw [dif_pos hr, hb r, mlp2_row zb z w1 b1 w2 b2 r ⟨m + r.val, hr⟩ (hz r) d]

end Partial

/-! ## What the windows read -/

variable (V : (c : Dev nD) → (b : Ref sig .tc) → Buf (Elt Ideal) ((c : Thread nD τ).loc b))

/-- The node labels, one per row. -/
abbrev labels (c : Dev nD) : Fin 50000 → BitVec 32 := fun r => (V c main_v4 : S50000x1.Idx → BitVec 32) (ix2 r 0)

/-- The perceptron's output on all the rows. -/
abbrev hidden (c : Dev nD) : S50000x96.Idx → EReal :=
  mlp2 (V c main_v89 : S50000x96.Idx → EReal) (V c main_v91 : S96x192.Idx → EReal)
    (fun k => (V c main_v94 : S1x192.Idx → EReal) (ix2 0 k)) (V c main_v96 : S192x96.Idx → EReal)
    (fun k => (V c main_v99 : S1x96.Idx → EReal) (ix2 0 k))

/-- Windows 0 and 1 move along the rows with the point; every other window stays on its whole array. -/
theorem index2_0 : ∀ t : Fin cfg2.N, win2_0.index t 0 = t.val ∧ win2_0.index t 1 = 0 := by decide +kernel
theorem index2_1 : ∀ t : Fin cfg2.N, win2_1.index t 0 = t.val ∧ win2_1.index t 1 = 0 := by decide +kernel
theorem index2_2 : ∀ t : Fin cfg2.N, win2_2.index t 0 = 0 ∧ win2_2.index t 1 = 0 := by decide +kernel
theorem index2_3 : ∀ t : Fin cfg2.N, win2_3.index t 0 = 0 ∧ win2_3.index t 1 = 0 := by decide +kernel
theorem index2_4 : ∀ t : Fin cfg2.N, win2_4.index t 0 = 0 ∧ win2_4.index t 1 = 0 := by decide +kernel
theorem index2_5 : ∀ t : Fin cfg2.N, win2_5.index t 0 = 0 ∧ win2_5.index t 1 = 0 := by decide +kernel
theorem index2_6 : ∀ t : Fin cfg2.N, win2_6.index t 0 = 0 ∧ win2_6.index t 1 = 0 := by decide +kernel
theorem index2_7 : ∀ t : Fin cfg2.N, win2_7.index t 0 = 0 ∧ win2_7.index t 1 = 0 := by decide +kernel
theorem index2_8 : ∀ t : Fin cfg2.N, win2_8.index t 0 = 0 ∧ win2_8.index t 1 = 0 := by decide +kernel
theorem index2_9 : ∀ t : Fin cfg2.N, win2_9.index t 0 = 0 ∧ win2_9.index t 1 = 0 := by decide +kernel
theorem index2_10 : ∀ t : Fin cfg2.N, win2_10.index t 0 = 0 ∧ win2_10.index t 1 = 0 := by decide +kernel

/-- The feature block at point t is rows 2000·t … 2000·t + 1999 of the feature array. -/
theorem iblk2_0_apply (c : Dev nD) (t : Fin cfg2.N) (p : Fin 2000) (q : Fin 96) (hr : 2000 * t.val + p.val < 50000) :
    (iblk2 (F := Ideal) V c 0 t : S2000x96.Idx → EReal) (ix2 p q)
      = (V c main_v89 : S50000x96.Idx → EReal) (ix2 ⟨2000 * t.val + p.val, hr⟩ q) := by
  have hi := index2_0 t
  unfold iblk2
  rw [View.read_apply]
  show (V c main_v89 : S50000x96.Idx → EReal) _ = _
  congr 1
  funext a
  apply Fin.ext
  match a with
  | ⟨0, _⟩ => show win2_0.index t 0 * 2000 + 1 * p.val = 2000 * t.val + p.val; rw [hi.1]; omega
  | ⟨1, _⟩ => show win2_0.index t 1 * 96 + 1 * q.val = q.val; rw [hi.2]; omega

/-- The label block at point t is the same rows of the label column. -/
theorem iblk2_1_apply (c : Dev nD) (t : Fin cfg2.N) (p : Fin 2000) (hr : 2000 * t.val + p.val < 50000) :
    (iblk2 (F := Ideal) V c 1 t : S2000x1.Idx → BitVec 32) (ix2 p 0)
      = (V c main_v4 : S50000x1.Idx → BitVec 32) (ix2 ⟨2000 * t.val + p.val, hr⟩ 0) := by
  have hi := index2_1 t
  unfold iblk2
  rw [View.read_apply]
  show (V c main_v4 : S50000x1.Idx → BitVec 32) _ = _
  congr 1
  funext a
  apply Fin.ext
  match a with
  | ⟨0, _⟩ => show win2_1.index t 0 * 2000 + 1 * p.val = 2000 * t.val + p.val; rw [hi.1]; omega
  | ⟨1, _⟩ => show win2_1.index t 1 * 1 + 1 * (0 : Fin 1).val = (0 : Fin 1).val; rw [hi.2]; rfl

/-- The weights' and biases' windows hold their whole arrays at every point. -/
theorem iblk2_2_whole (c : Dev nD) (t : Fin cfg2.N) :
    (iblk2 (F := Ideal) V c 2 t : S96x192.Idx → EReal) = V c main_v91 := by
  have hi := index2_2 t
  funext j
  unfold iblk2
  rw [View.read_apply]
  show (V c main_v91 : S96x192.Idx → EReal) _ = _
  congr 1
  funext a
  apply Fin.ext
  match a with
  | ⟨0, _⟩ => show win2_2.index t 0 * 96 + 1 * (j 0).val = (j 0).val; rw [hi.1]; omega
  | ⟨1, _⟩ => show win2_2.index t 1 * 192 + 1 * (j 1).val = (j 1).val; rw [hi.2]; omega

theorem iblk2_3_whole (c : Dev nD) (t : Fin cfg2.N) :
    (iblk2 (F := Ideal) V c 3 t : S1x192.Idx → EReal) = V c main_v94 := by
  have hi := index2_3 t
  funext j
  unfold iblk2
  rw [View.read_apply]
  show (V c main_v94 : S1x192.Idx → EReal) _ = _
  congr 1
  funext a
  apply Fin.ext
  match a with
  | ⟨0, _⟩ => show win2_3.index t 0 * 1 + 1 * (j 0).val = (j 0).val; rw [hi.1]; omega
  | ⟨1, _⟩ => show win2_3.index t 1 * 192 + 1 * (j 1).val = (j 1).val; rw [hi.2]; omega

theorem iblk2_4_whole (c : Dev nD) (t : Fin cfg2.N) :
    (iblk2 (F := Ideal) V c 4 t : S192x96.Idx → EReal) = V c main_v96 := by
  have hi := index2_4 t
  funext j
  unfold iblk2
  rw [View.read_apply]
  show (V c main_v96 : S192x96.Idx → EReal) _ = _
  congr 1
  funext a
  apply Fin.ext
  match a with
  | ⟨0, _⟩ => show win2_4.index t 0 * 192 + 1 * (j 0).val = (j 0).val; rw [hi.1]; omega
  | ⟨1, _⟩ => show win2_4.index t 1 * 96 + 1 * (j 1).val = (j 1).val; rw [hi.2]; omega

theorem iblk2_5_whole (c : Dev nD) (t : Fin cfg2.N) :
    (iblk2 (F := Ideal) V c 5 t : S1x96.Idx → EReal) = V c main_v99 := by
  have hi := index2_5 t
  funext j
  unfold iblk2
  rw [View.read_apply]
  show (V c main_v99 : S1x96.Idx → EReal) _ = _
  congr 1
  funext a
  apply Fin.ext
  match a with
  | ⟨0, _⟩ => show win2_5.index t 0 * 1 + 1 * (j 0).val = (j 0).val; rw [hi.1]; omega
  | ⟨1, _⟩ => show win2_5.index t 1 * 96 + 1 * (j 1).val = (j 1).val; rw [hi.2]; omega

theorem iblk2_6_whole (c : Dev nD) (t : Fin cfg2.N) :
    (iblk2 (F := Ideal) V c 6 t : S96x96.Idx → EReal) = V c main_arg8 := by
  have hi := index2_6 t
  funext j
  unfold iblk2
  rw [View.read_apply]
  show (V c main_arg8 : S96x96.Idx → EReal) _ = _
  congr 1
  funext a
  apply Fin.ext
  match a with
  | ⟨0, _⟩ => show win2_6.index t 0 * 96 + 1 * (j 0).val = (j 0).val; rw [hi.1]; omega
  | ⟨1, _⟩ => show win2_6.index t 1 * 96 + 1 * (j 1).val = (j 1).val; rw [hi.2]; omega

theorem iblk2_7_whole (c : Dev nD) (t : Fin cfg2.N) :
    (iblk2 (F := Ideal) V c 7 t : S1x96.Idx → EReal) = V c main_v100 := by
  have hi := index2_7 t
  funext j
  unfold iblk2
  rw [View.read_apply]
  show (V c main_v100 : S1x96.Idx → EReal) _ = _
  congr 1
  funext a
  apply Fin.ext
  match a with
  | ⟨0, _⟩ => show win2_7.index t 0 * 1 + 1 * (j 0).val = (j 0).val; rw [hi.1]; omega
  | ⟨1, _⟩ => show win2_7.index t 1 * 96 + 1 * (j 1).val = (j 1).val; rw [hi.2]; omega

theorem iblk2_8_whole (c : Dev nD) (t : Fin cfg2.N) :
    (iblk2 (F := Ideal) V c 8 t : S96x1.Idx → EReal) = V c main_arg10 := by
  have hi := index2_8 t
  funext j
  unfold iblk2
  rw [View.read_apply]
  show (V c main_arg10 : S96x1.Idx → EReal) _ = _
  congr 1
  funext a
  apply Fin.ext
  match a with
  | ⟨0, _⟩ => show win2_8.index t 0 * 96 + 1 * (j 0).val = (j 0).val; rw [hi.1]; omega
  | ⟨1, _⟩ => show win2_8.index t 1 * 1 + 1 * (j 1).val = (j 1).val; rw [hi.2]; omega

theorem iblk2_9_whole (c : Dev nD) (t : Fin cfg2.N) :
    (iblk2 (F := Ideal) V c 9 t : S1x1.Idx → EReal) = V c main_v101 := by
  have hi := index2_9 t
  funext j
  unfold iblk2
  rw [View.read_apply]
  show (V c main_v101 : S1x1.Idx → EReal) _ = _
  congr 1
  funext a
  apply Fin.ext
  match a with
  | ⟨0, _⟩ => show win2_9.index t 0 * 1 + 1 * (j 0).val = (j 0).val; rw [hi.1]; omega
  | ⟨1, _⟩ => show win2_9.index t 1 * 1 + 1 * (j 1).val = (j 1).val; rw [hi.2]; omega

/-! ## The accumulator, point by point -/

/-- One point: the accumulator holding the pooled sum over the rows before block n, the kernel's update with
    block n of the features and labels leaves the pooled sum over the rows through block n. -/
theorem point_step (z : S50000x96.Idx → EReal) (lab : Fin 50000 → BitVec 32) (n : Nat) (hn : 2000 * n + 2000 ≤ 50000)
    (zb : Vec Ideal S2000x96 .f32) (bt : Vec Ideal S2000x1 .i32) (w1 : Vec Ideal S96x192 .f32) (b1 : Vec Ideal S1x192 .f32)
    (w2 : Vec Ideal S192x96 .f32) (b2 : Vec Ideal S1x96 .f32) (acc : Vec Ideal S64x96 .f32)
    (hz : ∀ (p : Fin 2000) (q : Fin 96), zb (ix2 p q) = z (ix2 ⟨2000 * n + p.val, by have := p.isLt; omega⟩ q))
    (hb : ∀ p : Fin 2000, bt (ix2 p 0) = lab ⟨2000 * n + p.val, by have := p.isLt; omega⟩)
    (hacc : (acc : S64x96.Idx → EReal)
      = poolUpTo (G := 64) lab (mlp2 z w1 (fun k => b1 (ix2 0 k)) w2 (fun k => b2 (ix2 0 k))) (2000 * n)) :
    (k2_pay1 (F := Ideal) (k2_pay4 (F := Ideal) zb w1 b1 w2 b2 bt acc) : S64x96.Idx → EReal)
      = poolUpTo (G := 64) lab (mlp2 z w1 (fun k => b1 (ix2 0 k)) w2 (fun k => b2 (ix2 0 k))) (2000 * (n + 1)) := by
  rw [k2_pay1_eq, k2_pay4_eq]
  funext j
  rw [show 2000 * (n + 1) = 2000 * n + 2000 from by omega, poolUpTo_add, hacc]
  exact congrArg (_ + ·) (block_sum (2000 * n) hn z zb lab bt w1 _ w2 _ hz hb (j 0).val (j 1))

/-- The accumulator after point n holds the pooled sum over the first 2000·(n+1) rows. -/
theorem acc2_eq (c : Dev nD) : ∀ (n : ℕ) (h : n < cfg2.N),
    (acc2 (F := Ideal) V c n h : S64x96.Idx → EReal) = poolUpTo (G := 64) (labels V c) (hidden V c) (2000 * (n + 1))
  | 0, h => by
    rw [acc2_zero, iblk2_2_whole, iblk2_3_whole, iblk2_4_whole, iblk2_5_whole]
    refine point_step (V c main_v89) (labels V c) 0 (by omega) (iblk2 V c 0 ⟨0, h⟩) (iblk2 V c 1 ⟨0, h⟩)
      (V c main_v91) (V c main_v94) (V c main_v96) (V c main_v99) (k2_pay3 (F := Ideal))
      (fun p q => iblk2_0_apply V c ⟨0, h⟩ p q _) (fun p => iblk2_1_apply V c ⟨0, h⟩ p _) ?_
    rw [k2_pay3_eq, Nat.mul_zero, poolUpTo_zero]
  | n + 1, h => by
    have hN : cfg2.N = 25 := N_2
    rw [acc2_succ, iblk2_2_whole, iblk2_3_whole, iblk2_4_whole, iblk2_5_whole]
    exact point_step (V c main_v89) (labels V c) (n + 1) (by omega) (iblk2 V c 0 ⟨n + 1, h⟩) (iblk2 V c 1 ⟨n + 1, h⟩)
      (V c main_v91) (V c main_v94) (V c main_v96) (V c main_v99) (acc2 V c n (Nat.lt_of_succ_lt h))
      (fun p q => iblk2_0_apply V c ⟨n + 1, h⟩ p q _) (fun p => iblk2_1_apply V c ⟨n + 1, h⟩ p _)
      (acc2_eq c n (Nat.lt_of_succ_lt h))

/-- After the last point it holds the pooled sum over all the rows. -/
theorem acc2_last (c : Dev nD) (h : 24 < cfg2.N) :
    (acc2 (F := Ideal) V c 24 h : S64x96.Idx → EReal) = pool (G := 64) (labels V c) (hidden V c) :=
  (acc2_eq V c 24 h).trans (poolUpTo_all (labels V c) (hidden V c))

/-! ## The result array -/

/-- The readout of the pooled sums: what the kernel leaves in the result array. -/
abbrev readout (c : Dev nD) : S64x1.Idx → EReal :=
  head (pool (G := 64) (labels V c) (hidden V c))
    (V c main_arg8 : S96x96.Idx → EReal) (fun k => (V c main_v100 : S1x96.Idx → EReal) (ix2 0 k))
    (V c main_arg10 : S96x1.Idx → EReal) (fun k => (V c main_v101 : S1x1.Idx → EReal) (ix2 0 k))

/-- The one write-back, after the last point, writes the readout: the result's block is its whole array. -/
theorem flushed2_eq (c : Dev nD) (t : Fin cfg2.N) (hf : (cfg2.win 10).flush t = true) :
    (dat2 (F := Ideal) V c).flushed 10 t = ((cfg2.win 10).blk t).view.read (Elt Ideal) (readout V c) := by
  have hN : cfg2.N = 25 := N_2
  have h24 : t.val = 24 := by have := (flush2_10 t).mp hf; have := t.isLt; omega
  have hi := index2_10 t
  show (cfg2.win 10).cut (grid2.coords t) ((dat2 (F := Ideal) V c).after 10 t) = _
  rw [after2_10_last V c t h24, k2_pay2_eq, acc2_last, iblk2_6_whole, iblk2_7_whole, iblk2_8_whole, iblk2_9_whole]
  have hz' : (fun a => win2_10.index t a * main_v102.ty.shape.size a) = fun _ => 0 :=
    funext fun a => by
      match a with
      | ⟨0, _⟩ => show win2_10.index t 0 * 64 = 0; rw [hi.1]
      | ⟨1, _⟩ => show win2_10.index t 1 * 1 = 0; rw [hi.2]
  exact (Memref.read_access_unit_zero (Elt Ideal) main_v102 hz' (fun a => by rw [congrFun hz' a]; simp) (readout V c)).symm

/-- That block covers every index of the result. -/
theorem cover2 (i : S64x1.Idx) : ∃ t : Fin cfg2.N, (cfg2.win 10).flush t = true ∧ i ∈ ((cfg2.win 10).blk t).view.set := by
  have hN : cfg2.N = 25 := N_2
  let t : Fin cfg2.N := ⟨24, by omega⟩
  have hi := index2_10 t
  refine ⟨t, (flush2_10 t).mpr rfl, ?_⟩
  show i ∈ ((View.whole main_v102).slice (win2_10.rect t)).set
  rw [View.set_slice_whole, Rect.mem_set_unit]
  intro a
  have h0 : (i 0 : Nat) < 64 := (i 0).isLt
  have h1 : (i 1 : Nat) < 1 := (i 1).isLt
  match a with
  | ⟨0, _⟩ =>
    show win2_10.index t 0 * 64 ≤ (i 0 : Nat) ∧ (i 0 : Nat) < win2_10.index t 0 * 64 + 64
    rw [hi.1]; omega
  | ⟨1, _⟩ =>
    show win2_10.index t 1 * 1 ≤ (i 1 : Nat) ∧ (i 1 : Nat) < win2_10.index t 1 * 1 + 1
    rw [hi.2]; omega

/-- The result array after the call: the readout of the sum pooling, by group label, of the perceptron's
    output over all the rows. -/
theorem arr2_eq (c : Dev nD) :
    ((Cert.KernelIdeal.Hand.dat2 (F := Ideal) V c).arrAt 10 cfg2.N : S64x1.Idx → EReal)
      = head (pool (G := 64) (fun r => (V c main_v4 : S50000x1.Idx → BitVec 32) (ix2 r 0))
               (mlp2 (V c main_v89 : S50000x96.Idx → EReal) (V c main_v91 : S96x192.Idx → EReal)
                 (fun k => (V c main_v94 : S1x192.Idx → EReal) (ix2 0 k)) (V c main_v96 : S192x96.Idx → EReal)
                 (fun k => (V c main_v99 : S1x96.Idx → EReal) (ix2 0 k))))
          (V c main_arg8 : S96x96.Idx → EReal) (fun k => (V c main_v100 : S1x96.Idx → EReal) (ix2 0 k))
          (V c main_arg10 : S96x1.Idx → EReal) (fun k => (V c main_v101 : S1x1.Idx → EReal) (ix2 0 k)) :=
  (dat2 (F := Ideal) V c).arrAt_eq_of_cover 10 (readout V c) (flushed2_eq V c) cover2

end Cert.KernelIdeal.Val

end
-- ==== Proof.KV.Host0.lean ====
import proofs.«420259_j2267742732765_3_alg».proof.Proof.Gen.KernelIdeal.Launch
import proofs.«420259_j2267742732765_3_alg».proof.Proof.Gen.ReferenceIdeal.Read
import Idealize.ShloMosaic.Lib.StableHlo.Run
import Idealize.ShloMosaic.Lib.StableHlo.Predicate
import Idealize.ShloMosaic.Lib.ValueIdx
import Idealize.ShloMosaic.PureOps.Ideal

set_option maxRecDepth 16384

noncomputable section

namespace Cert.KernelIdeal.Val

open Idealize.ShloMosaic Idealize.ShloMosaic.TcCoe Idealize.SL.Sem Idealize.ShloMosaic.StableHlo
open Idealize.ShloMosaic.ValueIdx
open Cert.KernelIdeal Cert.KernelIdeal.Gen

/-! # The first host stretch of the three-layer network, read as the reference's stages

W is any contents of the device's buffers before the stretch, and argument k of @main holds W at main_argk there.
The stretch prepares the first layer: the scaled node features with the neighbours' rows accumulated into them, the
first layer's two weight matrices and two bias rows, the graph assignment as a column, and the source and destination
rows of the edge list. Each is the reference's stage of the same arguments. -/

variable (W : Valuation τ sig (Elt Ideal))

/-! ## The edge list's rows, the weights, the biases and the graph assignment

Slices and reshapes of one argument on both sides: the same term, up to the names of the shape records. -/

/-- The source row of the edge list. -/
theorem host0_src :
    (StableHlo.after hostOps0 W (Proc.devRef .tc main_v1) : S800000.Idx → BitVec 32)
      = Cert.ReferenceIdeal.Read.val_main_v1 (F := Ideal) (W (Proc.devRef .tc main_arg1)) := by
  simp only [hostOps0]
  after_results
  rfl

/-- The destination row of the edge list. -/
theorem host0_dst :
    (StableHlo.after hostOps0 W (Proc.devRef .tc main_v3) : S800000.Idx → BitVec 32)
      = Cert.ReferenceIdeal.Read.val_main_v3 (F := Ideal) (W (Proc.devRef .tc main_arg1)) := by
  simp only [hostOps0]
  after_results
  rfl

/-- The first layer's first weight matrix. -/
theorem host0_w1 :
    (StableHlo.after hostOps0 W (Proc.devRef .tc main_v27) : S96x192.Idx → EReal)
      = Cert.ReferenceIdeal.Read.val_main_v21 (F := Ideal) (W (Proc.devRef .tc main_arg3)) := by
  simp only [hostOps0]
  after_results
  rfl

/-- The first layer's second weight matrix. -/
theorem host0_w2 :
    (StableHlo.after hostOps0 W (Proc.devRef .tc main_v32) : S192x96.Idx → EReal)
      = Cert.ReferenceIdeal.Read.val_main_v30 (F := Ideal) (W (Proc.devRef .tc main_arg5)) := by
  simp only [hostOps0]
  after_results
  rfl

/-- The first layer's first bias, kept as a one-row matrix: entry k of the row is entry k of the reference's vector. -/
theorem host0_b1 (k : Fin 192) :
    (StableHlo.after hostOps0 W (Proc.devRef .tc main_v30) : S1x192.Idx → EReal) (ix2 0 k)
      = Cert.ReferenceIdeal.Read.val_main_v24 (F := Ideal) (W (Proc.devRef .tc main_arg4)) (ix1 k) := by
  have e : (StableHlo.after hostOps0 W (Proc.devRef .tc main_v30) : S1x192.Idx → EReal)
      = shapeCast S1x192 (Cert.ReferenceIdeal.Read.val_main_v24 (F := Ideal) (W (Proc.devRef .tc main_arg4))) shapeCasts_S192_S1x192 := by
    simp only [hostOps0]
    after_results
    rfl
  rw [e]
  refine shapeCast_apply _ shapeCasts_S192_S1x192 (ix2 0 k) (ix1 k) ?_
  rewrite [Shape.rowMajor_val_two, Shape.rowMajor_val_one]
  show k.val = 0 * 192 + k.val
  omega

/-- The first layer's second bias, kept as a one-row matrix. -/
theorem host0_b2 (k : Fin 96) :
    (StableHlo.after hostOps0 W (Proc.devRef .tc main_v35) : S1x96.Idx → EReal) (ix2 0 k)
      = Cert.ReferenceIdeal.Read.val_main_v33 (F := Ideal) (W (Proc.devRef .tc main_arg6)) (ix1 k) := by
  have e : (StableHlo.after hostOps0 W (Proc.devRef .tc main_v35) : S1x96.Idx → EReal)
      = shapeCast S1x96 (Cert.ReferenceIdeal.Read.val_main_v33 (F := Ideal) (W (Proc.devRef .tc main_arg6))) shapeCasts_S96_S1x96 := by
    simp only [hostOps0]
    after_results
    rfl
  rw [e]
  refine shapeCast_apply _ shapeCasts_S96_S1x96 (ix2 0 k) (ix1 k) ?_
  rewrite [Shape.rowMajor_val_two, Shape.rowMajor_val_one]
  show k.val = 0 * 96 + k.val
  omega

/-- The graph assignment as a column: row r holds node r's graph. -/
theorem host0_batch (r : Fin 50000) :
    (StableHlo.after hostOps0 W (Proc.devRef .tc main_v4) : S50000x1.Idx → BitVec 32) (ix2 r 0)
      = (W (Proc.devRef .tc main_arg2) : S50000.Idx → BitVec 32) (ix1 r) := by
  have e : (StableHlo.after hostOps0 W (Proc.devRef .tc main_v4) : S50000x1.Idx → BitVec 32)
      = shapeCast S50000x1 (W (Proc.devRef .tc main_arg2) : S50000.Idx → BitVec 32) shapeCasts_S50000_S50000x1 := by
    simp only [hostOps0]
    after_results
    rfl
  rw [e]
  refine shapeCast_apply _ shapeCasts_S50000_S50000x1 (ix2 r 0) (ix1 r) ?_
  rewrite [Shape.rowMajor_val_two, Shape.rowMajor_val_one]
  show r.val = r.val * 1 + 0
  omega

/-! ## The aggregated features

The stretch accumulates the gathered neighbour rows INTO the scaled features; the reference accumulates them into zeros
and adds the scaled features afterwards. With exact arithmetic the two are one sum. The stretch also wraps a negative
destination by the row count before scattering; the reference scatters by the raw destination, so the two agree where
no destination is negative. -/

/-- An exact scatter-add into an operand is the operand plus the same scatter-add into an all-zero operand. -/
theorem scatterAdd_into_eq_add {s si su : Shape} {φ : FTy} {w : Nat} (d : ScatterDims s si su) (x z : FVec Ideal s φ)
    (idx : IVec si w) (upd : FVec Ideal su φ) (hz : ∀ i, z i = 0) :
    Host.scatterAdd d x idx upd = addf x (Host.scatterAdd d z idx upd) := by
  funext i
  show Ideal.hostScatterAdd d x idx upd i = x i + Ideal.hostScatterAdd d z idx upd i
  unfold Ideal.hostScatterAdd
  rw [hz i, zero_add]

/-- The reference's destination row, entry by entry: row 1 of the edge list. -/
theorem dst_apply (x1 : Cert.ReferenceIdeal.S2x800000.Idx → BitVec 32) (e : Fin 800000) :
    Cert.ReferenceIdeal.Read.val_main_v3 (F := Ideal) x1 (ix1 e) = x1 (ix2 1 e) := by
  rw [Cert.ReferenceIdeal.Read.val_main_v3_apply, Cert.ReferenceIdeal.Read.val_main_v2_apply]
  refine congrArg x1 (funext fun a => ?_)
  match a with
  | ⟨0, _⟩ => exact Fin.ext (by show 1 + 0 = 1; rfl)
  | ⟨1, _⟩ => exact Fin.ext (by show e.val % 800000 = e.val; exact Nat.mod_eq_of_lt e.isLt)

/-- Wrapping a destination that is not negative leaves it as it is. -/
theorem wrap_dst_eq (x1 : Cert.ReferenceIdeal.S2x800000.Idx → BitVec 32)
    (hdst : ∀ e : Fin 800000, ¬ (x1 (ix2 1 e)).slt 0#32 = true) :
    select (cmpi .slt (Cert.ReferenceIdeal.Read.val_main_v3 (F := Ideal) x1) (Cert.ReferenceIdeal.Read.val_main_v4 (F := Ideal)))
        (addi (Cert.ReferenceIdeal.Read.val_main_v3 (F := Ideal) x1) (Cert.ReferenceIdeal.Read.val_main_v6 (F := Ideal)))
        (Cert.ReferenceIdeal.Read.val_main_v3 (F := Ideal) x1)
      = Cert.ReferenceIdeal.Read.val_main_v3 (F := Ideal) x1 := by
  funext i
  obtain ⟨e, rfl⟩ : ∃ e : Fin 800000, i = ix1 e := ⟨i 0, eq_ix1 i⟩
  show Scalar.select (IntOp.cmpi .slt (Cert.ReferenceIdeal.Read.val_main_v3 (F := Ideal) x1 (ix1 e)) (Cert.ReferenceIdeal.Read.val_main_v4 (F := Ideal) (ix1 e))) _ _ = _
  rw [Cert.ReferenceIdeal.Read.val_main_v4_apply, Cert.ReferenceIdeal.Read.val_main_c_apply, dst_apply]
  unfold Scalar.select IntOp.cmpi
  rw [if_neg]
  intro h
  exact hdst e ((Idealize.ShloMosaic.StableHlo.Predicate.ofBool_eq_one_iff _).mp h)

set_option maxHeartbeats 1000000 in
/-- What the stretch leaves in the aggregation buffer, spelt with the reference's stages: the scaled features with
    the gathered neighbour rows accumulated into them at the wrapped destinations (a change of float format is the
    identity on exact values, so the gathered rows are the reference's). -/
theorem host0_z_term :
    (StableHlo.after hostOps0 W (Proc.devRef .tc main_v25) : S50000x96.Idx → EReal)
      = Host.scatterAdd (F := Ideal) (φ := .f32) Cert.ReferenceIdeal.scatter_S50000x96_S800000x1_S800000x96_1_0_0_1
          (Cert.ReferenceIdeal.Read.val_main_v18 (F := Ideal) (W (Proc.devRef .tc main_arg0)) (W (Proc.devRef .tc main_arg7)))
          (broadcastInDim Cert.ReferenceIdeal.S800000x1 ![0] Cert.ReferenceIdeal.Gen.bcast_S800000_S800000x1_0
            (select (cmpi .slt (Cert.ReferenceIdeal.Read.val_main_v3 (F := Ideal) (W (Proc.devRef .tc main_arg1))) (Cert.ReferenceIdeal.Read.val_main_v4 (F := Ideal)))
              (addi (Cert.ReferenceIdeal.Read.val_main_v3 (F := Ideal) (W (Proc.devRef .tc main_arg1))) (Cert.ReferenceIdeal.Read.val_main_v6 (F := Ideal)))
              (Cert.ReferenceIdeal.Read.val_main_v3 (F := Ideal) (W (Proc.devRef .tc main_arg1)))))
          (Cert.ReferenceIdeal.Read.val_main_v10 (F := Ideal) (W (Proc.devRef .tc main_arg0)) (W (Proc.devRef .tc main_arg1))) := by
  simp only [hostOps0]
  after_results_simp
  rfl

theorem host0_z (hdst : ∀ e : Fin 800000, ¬ ((W (Proc.devRef .tc main_arg1) : S2x800000.Idx → BitVec 32) (ix2 1 e)).slt 0#32 = true) :
    (StableHlo.after hostOps0 W (Proc.devRef .tc main_v25) : S50000x96.Idx → EReal)
      = Cert.ReferenceIdeal.Read.val_main_v19 (F := Ideal) (W (Proc.devRef .tc main_arg0)) (W (Proc.devRef .tc main_arg1)) (W (Proc.devRef .tc main_arg7)) := by
  refine (host0_z_term W).trans ?_
  rw [wrap_dst_eq _ hdst]
  refine scatterAdd_into_eq_add _ _ (Cert.ReferenceIdeal.Read.val_main_v11 (F := Ideal)) _ _ fun i => ?_
  rw [Cert.ReferenceIdeal.Read.val_main_v11_apply, Cert.ReferenceIdeal.Read.val_main_cst_apply]
  exact Ideal.ofBits_zero_f32

end Cert.KernelIdeal.Val
-- ==== Proof.KV.Host1.lean ====
/-
  What the host computes between the first and the second message-passing layer, read at the exact floats: the
  layer's combined input (the scaled node features plus the sum of the neighbours' features over the incoming edges)
  and the second layer's weights and biases, each as the reference program's own operations.
-/
import proofs.«420259_j2267742732765_3_alg».proof.Proof.Gen.KernelIdeal.Launch
import proofs.«420259_j2267742732765_3_alg».proof.Proof.Gen.ReferenceIdeal.Read
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Idealize.ShloMosaic Idealize.ShloMosaic.ValueIdx Idealize.ShloMosaic.TcCoe
open Idealize.SL.Sem Idealize.ShloMosaic.StableHlo

variable (W : Valuation τ sig (Elt Ideal))

/-! ## The second layer's combined input -/

/-- The reference's combination of a layer input `h` for the second layer, from the edge list `x1` and the layer
    scalars `x7`: (1 + ε₁)·h plus the sum, over the edges into each node, of the source node's row of `h` (the sum
    scattered into zeros by the raw destination row of the edge list, the sources read with a negative index wrapped). -/
def combR1 (h : S50000x96.Idx → EReal) (x1 : S2x800000.Idx → BitVec 32) (x7 : S3.Idx → EReal) : S50000x96.Idx → EReal :=
  addf (F := Ideal) (φ := .f32) (mulf (F := Ideal) (φ := .f32) (Cert.ReferenceIdeal.Read.val_main_v51 (F := Ideal) x7) h)
    (Host.scatterAdd (F := Ideal) (φ := .f32) Cert.ReferenceIdeal.scatter_S50000x96_S800000x1_S800000x96_1_0_0_1
      (Cert.ReferenceIdeal.Read.val_main_v45 (F := Ideal)) (Cert.ReferenceIdeal.Read.val_main_v46 (F := Ideal) x1)
      (Host.gather (α := EReal) Cert.ReferenceIdeal.gather_S50000x96_S800000x1_S800000x96_1_0_n_n_0_1_196 h
        (Cert.ReferenceIdeal.Read.val_main_v43 (F := Ideal) x1)))

/-- The reference's second-layer input is that combination of its first layer's result. -/
theorem combR1_ref (x0 : S50000x96.Idx → EReal) (x1 : S2x800000.Idx → BitVec 32) (x3 : S3x96x192.Idx → EReal)
    (x4 : S3x192.Idx → EReal) (x5 : S3x192x96.Idx → EReal) (x6 : S3x96.Idx → EReal) (x7 : S3.Idx → EReal) :
    Cert.ReferenceIdeal.Read.val_main_v53 (F := Ideal) x0 x1 x3 x4 x5 x6 x7
      = combR1 (Cert.ReferenceIdeal.Read.val_main_v37 (F := Ideal) x0 x1 x3 x4 x5 x6 x7) x1 x7 := rfl

/-! ### Three facts about the host's operations at the exact floats -/

/-- An index that is nowhere negative is left alone by the host's wrap "add the node count where negative". -/
theorem select_wrap_of_nonneg {s : Shape} (d Z C : s.Idx → BitVec 32) (hZ : ∀ e, Z e = 0#32)
    (hd : ∀ e, ¬ (d e).slt 0#32 = true) : select (cmpi .slt d Z) (addi d C) d = d := by
  funext e
  show Scalar.select (IntOp.cmpi .slt (d e) (Z e)) (IntOp.addi (d e) (C e)) (d e) = d e
  rw [hZ e]
  unfold Scalar.select IntOp.cmpi
  have hf : (d e).slt 0#32 = false := by simpa using hd e
  simp [hf]

/-- Changing the float format before a gather and back after it changes nothing. -/
theorem gather_through_formats {s si t : Shape} {w : Nat} (d : GatherDims s si t) (h : s.Idx → EReal) (idx : IVec si w)
    (h1 : FTy.bf16.bits < FTy.f32.bits) :
    extf (F := Ideal) .f32 (Host.gather d (truncf (F := Ideal) (φ := .f32) .bf16 h h1) idx) h1 = Host.gather (α := EReal) d h idx := rfl

/-- Summing the updates into a base array is the base plus the updates summed into an array of zeros. -/
theorem scatterAdd_into_base {s si u : Shape} {w : Nat} (d d' : ScatterDims s si u) (hd : d = d') (base z : s.Idx → EReal) (hz : ∀ i, z i = 0)
    (idx : IVec si w) (upd : u.Idx → EReal) :
    Host.scatterAdd (F := Ideal) (φ := .f32) d base idx upd
      = addf (F := Ideal) (φ := .f32) base (Host.scatterAdd (F := Ideal) (φ := .f32) d' z idx upd) := by
  subst hd
  funext i
  show base i + _ = base i + (z i + _)
  rw [hz i, zero_add]

/-- Before the second layer the host writes that combination of the first layer's result, given that the two rows of
    the edge list have been split off as the reference splits them and that no destination index is negative (the host
    wraps a negative destination by the node count, the reference does not). -/
theorem host1_z
    (hv1 : (W (Proc.devRef .tc main_v1) : S800000.Idx → BitVec 32)
      = Cert.ReferenceIdeal.Read.val_main_v1 (F := Ideal) (W (Proc.devRef .tc main_arg1)))
    (hv3 : (W (Proc.devRef .tc main_v3) : S800000.Idx → BitVec 32)
      = Cert.ReferenceIdeal.Read.val_main_v3 (F := Ideal) (W (Proc.devRef .tc main_arg1)))
    (hdst : ∀ e : Fin 800000, ¬ ((W (Proc.devRef .tc main_arg1) : S2x800000.Idx → BitVec 32) (ix2 1 e)).slt 0#32 = true) :
    (StableHlo.after hostOps1 W (Proc.devRef .tc main_v57) : S50000x96.Idx → EReal)
      = combR1 (W (Proc.devRef .tc main_v36)) (W (Proc.devRef .tc main_arg1)) (W (Proc.devRef .tc main_arg7)) := by
  have hd3 : ∀ e : S800000.Idx, ¬ ((W (Proc.devRef .tc main_v3) : S800000.Idx → BitVec 32) e).slt 0#32 = true := fun e => by
    have hi : Cert.ReferenceIdeal.Read.idx_main_v2 (Cert.ReferenceIdeal.Read.idx_main_v3 e) = ix2 1 (e 0) := by
      funext a
      match a with
      | ⟨0, _⟩ => exact Fin.ext (by show 1 + 0 = 1; rfl)
      | ⟨1, _⟩ => exact Fin.ext (by have h0 : (e 0).val < 800000 := (e 0).isLt; show (e 0).val % 800000 = (e 0).val; omega)
    rw [hv3, Cert.ReferenceIdeal.Read.val_main_v3_apply, Cert.ReferenceIdeal.Read.val_main_v2_apply, hi]
    exact hdst (e 0)
  have zeros45 : ∀ i, Cert.ReferenceIdeal.Read.val_main_v45 (F := Ideal) i = 0 := fun i => by
    rw [Cert.ReferenceIdeal.Read.val_main_v45_apply, Cert.ReferenceIdeal.Read.val_main_cst_4_apply]
    exact Ideal.ofBits_zero_f32
  simp only [hostOps1]
  after_results_simp
  rw [select_wrap_of_nonneg (W (Proc.devRef .tc main_v3)) (broadcastInDim S800000 ![] bcast_S_S800000 (constantI S_ 32 0#32))
      (broadcastInDim S800000 ![] bcast_S_S800000 (constantI S_ 32 50000#32)) (fun _ => rfl) hd3,
    gather_through_formats, hv1, hv3]
  refine (scatterAdd_into_base _ Cert.ReferenceIdeal.scatter_S50000x96_S800000x1_S800000x96_1_0_0_1 rfl _
    (Cert.ReferenceIdeal.Read.val_main_v45 (F := Ideal)) zeros45 _ _).trans ?_
  rfl

/-! ## The second layer's weights and biases -/

/-- The first dense map's weights: slab 1 of the stacked weights, as the reference slices and reshapes it. -/
theorem host1_w1 : (StableHlo.after hostOps1 W (Proc.devRef .tc main_v59) : S96x192.Idx → EReal)
    = Cert.ReferenceIdeal.Read.val_main_v55 (F := Ideal) (W (Proc.devRef .tc main_arg3)) := by
  simp only [hostOps1]; after_results_simp; rfl

/-- Its bias: the host keeps row 1 of the stacked biases as a one-row matrix, the reference as a vector; entry `k` of
    the row is entry `k` of the vector. -/
theorem host1_b1 (k : Fin 192) :
    (StableHlo.after hostOps1 W (Proc.devRef .tc main_v62) : S1x192.Idx → EReal) (ix2 0 k)
      = Cert.ReferenceIdeal.Read.val_main_v58 (F := Ideal) (W (Proc.devRef .tc main_arg4)) (ix1 k) := by
  have e : (StableHlo.after hostOps1 W (Proc.devRef .tc main_v62) : S1x192.Idx → EReal)
      = shapeCast S1x192 (Cert.ReferenceIdeal.Read.val_main_v58 (F := Ideal) (W (Proc.devRef .tc main_arg4))) shapeCasts_S192_S1x192 := by
    simp only [hostOps1]; after_results_simp; rfl
  rw [e]
  exact shapeCast_apply _ shapeCasts_S192_S1x192 (ix2 0 k) (ix1 k) (by
    rw [Shape.rowMajor_val_one, Shape.rowMajor_val_two]; show k.val = 0 * 192 + k.val; omega)

/-- The second dense map's weights: slab 1 of the stacked weights. -/
theorem host1_w2 : (StableHlo.after hostOps1 W (Proc.devRef .tc main_v64) : S192x96.Idx → EReal)
    = Cert.ReferenceIdeal.Read.val_main_v64 (F := Ideal) (W (Proc.devRef .tc main_arg5)) := by
  simp only [hostOps1]; after_results_simp; rfl

/-- Its bias, row against vector as above. -/
theorem host1_b2 (k : Fin 96) :
    (StableHlo.after hostOps1 W (Proc.devRef .tc main_v67) : S1x96.Idx → EReal) (ix2 0 k)
      = Cert.ReferenceIdeal.Read.val_main_v67 (F := Ideal) (W (Proc.devRef .tc main_arg6)) (ix1 k) := by
  have e : (StableHlo.after hostOps1 W (Proc.devRef .tc main_v67) : S1x96.Idx → EReal)
      = shapeCast S1x96 (Cert.ReferenceIdeal.Read.val_main_v67 (F := Ideal) (W (Proc.devRef .tc main_arg6))) shapeCasts_S96_S1x96 := by
    simp only [hostOps1]; after_results_simp; rfl
  rw [e]
  exact shapeCast_apply _ shapeCasts_S96_S1x96 (ix2 0 k) (ix1 k) (by
    rw [Shape.rowMajor_val_one, Shape.rowMajor_val_two]; show k.val = 0 * 96 + k.val; omega)

end Cert.KernelIdeal.Val

end
-- ==== Proof.KV.Host2.lean ====
/-
  What the host writes between the second and the third kernel, read in the reference's operations.

  Before the third kernel the host forms the third layer's combined input: `(1 + ε₂) · h` is taken as the
  initial array and the rows of `h` gathered at the edges' sources are added into it at the edges' destinations.
  The reference forms the same array as `(1 + ε₂) · h` plus the scatter of the gathered rows into zeros, and reads
  the destinations as they are where the host first wraps negative ones by the row count. With no negative
  destination the two agree at the exact floats: the wrap is the identity, the pass through the narrow float format
  is the identity, and a sum added into `b` is `b` plus that sum added into zero. The remaining buffers are slices
  and reshapes of the weights, equal to the reference's slices element by element.
-/
import proofs.«420259_j2267742732765_3_alg».proof.Proof.KV.Host0
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-- The third layer's combination as the reference computes it, over an arbitrary layer input `h`:
    `(1 + ε₂) · h` plus the sum, into a zero array, of `h`'s rows gathered at the edges' sources (negative
    sources wrapped by the row count) and scattered to the edges' destinations. -/
def combR2 (h : (⟨Cert.ReferenceIdeal.S50000x96, .f32⟩ : BufTy).Contents (Elt Ideal))
    (x1 : (⟨Cert.ReferenceIdeal.S2x800000, .i32⟩ : BufTy).Contents (Elt Ideal))
    (x7 : (⟨Cert.ReferenceIdeal.S3, .f32⟩ : BufTy).Contents (Elt Ideal)) :
    (⟨Cert.ReferenceIdeal.S50000x96, .f32⟩ : BufTy).Contents (Elt Ideal) :=
  addf (F := Ideal) (φ := .f32) (mulf (F := Ideal) (φ := .f32) (Cert.ReferenceIdeal.Read.val_main_v85 (F := Ideal) x7) h)
    (Host.scatterAdd (F := Ideal) (φ := .f32) Cert.ReferenceIdeal.scatter_S50000x96_S800000x1_S800000x96_1_0_0_1
      (Cert.ReferenceIdeal.Read.val_main_v79 (F := Ideal)) (Cert.ReferenceIdeal.Read.val_main_v80 (F := Ideal) x1)
      (Host.gather (α := Ideal .f32) Cert.ReferenceIdeal.gather_S50000x96_S800000x1_S800000x96_1_0_n_n_0_1_196 h
        (Cert.ReferenceIdeal.Read.val_main_v77 (F := Ideal) x1)))

/-- The reference's third-layer combination is `combR2` of its own second layer's output. -/
theorem combR2_ref (x0 : S50000x96.Idx → EReal) (x1 : S2x800000.Idx → BitVec 32) (x3 : S3x96x192.Idx → EReal)
    (x4 : S3x192.Idx → EReal) (x5 : S3x192x96.Idx → EReal) (x6 : S3x96.Idx → EReal) (x7 : S3.Idx → EReal) :
    Cert.ReferenceIdeal.Read.val_main_v87 (F := Ideal) x0 x1 x3 x4 x5 x6 x7
      = combR2 (Cert.ReferenceIdeal.Read.val_main_v71 (F := Ideal) x0 x1 x3 x4 x5 x6 x7) x1 x7 := by
  unfold Cert.ReferenceIdeal.Read.val_main_v87 Cert.ReferenceIdeal.Read.val_main_v86
    Cert.ReferenceIdeal.Read.val_main_v81 Cert.ReferenceIdeal.Read.val_main_v78 combR2
  rfl

set_option maxHeartbeats 1000000 in
/-- What the stretch leaves in the combined-input buffer, spelt with the reference's operations: the scaled layer
    input with the rows gathered at the wrapped sources accumulated into it at the wrapped destinations. The pass
    through the narrow float format around the gather is the identity on exact values. -/
theorem host2_z_term :
    (StableHlo.after hostOps2 W (Proc.devRef .tc main_v89) : S50000x96.Idx → EReal)
      = Host.scatterAdd (F := Ideal) (φ := .f32) Cert.ReferenceIdeal.scatter_S50000x96_S800000x1_S800000x96_1_0_0_1
          (mulf (F := Ideal) (φ := .f32) (Cert.ReferenceIdeal.Read.val_main_v85 (F := Ideal) (W (Proc.devRef .tc main_arg7)))
            (W (Proc.devRef .tc main_v68)))
          (broadcastInDim Cert.ReferenceIdeal.S800000x1 ![0] Cert.ReferenceIdeal.Gen.bcast_S800000_S800000x1_0
            (select (cmpi .slt (W (Proc.devRef .tc main_v3) : S800000.Idx → BitVec 32) (Cert.ReferenceIdeal.Read.val_main_v4 (F := Ideal)))
              (addi (W (Proc.devRef .tc main_v3) : S800000.Idx → BitVec 32) (Cert.ReferenceIdeal.Read.val_main_v6 (F := Ideal)))
              (W (Proc.devRef .tc main_v3) : S800000.Idx → BitVec 32)))
          (Host.gather (α := Ideal .f32) Cert.ReferenceIdeal.gather_S50000x96_S800000x1_S800000x96_1_0_n_n_0_1_196
            (W (Proc.devRef .tc main_v68))
            (broadcastInDim Cert.ReferenceIdeal.S800000x1 ![0] Cert.ReferenceIdeal.Gen.bcast_S800000_S800000x1_0
              (select (cmpi .slt (W (Proc.devRef .tc main_v1) : S800000.Idx → BitVec 32) (Cert.ReferenceIdeal.Read.val_main_v72 (F := Ideal)))
                (addi (W (Proc.devRef .tc main_v1) : S800000.Idx → BitVec 32) (Cert.ReferenceIdeal.Read.val_main_v74 (F := Ideal)))
                (W (Proc.devRef .tc main_v1) : S800000.Idx → BitVec 32)))) := by
  simp only [hostOps2]
  after_results_simp
  rfl

/-- The combined input of the third layer. The source and destination rows of the edge list were written by the first
    stretch (`hv1`, `hv3`); no destination is negative (`hdst`). -/
theorem host2_z
    (hv1 : (W (Proc.devRef .tc main_v1) : S800000.Idx → BitVec 32)
      = Cert.ReferenceIdeal.Read.val_main_v1 (F := Ideal) (W (Proc.devRef .tc main_arg1)))
    (hv3 : (W (Proc.devRef .tc main_v3) : S800000.Idx → BitVec 32)
      = Cert.ReferenceIdeal.Read.val_main_v3 (F := Ideal) (W (Proc.devRef .tc main_arg1)))
    (hdst : ∀ e : Fin 800000, ¬ ((W (Proc.devRef .tc main_arg1) : S2x800000.Idx → BitVec 32) (ix2 1 e)).slt 0#32 = true) :
    (StableHlo.after hostOps2 W (Proc.devRef .tc main_v89) : S50000x96.Idx → EReal)
      = combR2 (W (Proc.devRef .tc main_v68)) (W (Proc.devRef .tc main_arg1)) (W (Proc.devRef .tc main_arg7)) := by
  refine (host2_z_term W).trans ?_
  rw [hv1, hv3, wrap_dst_eq _ hdst]
  refine (scatterAdd_into_eq_add _ _ (Cert.ReferenceIdeal.Read.val_main_v79 (F := Ideal)) _ _ fun i => ?_).trans rfl
  rw [Cert.ReferenceIdeal.Read.val_main_v79_apply, Cert.ReferenceIdeal.Read.val_main_cst_8_apply]
  exact Ideal.ofBits_zero_f32

/-! ## The weights and the biases

Slices and reshapes of one argument on both sides. A bias the reference keeps as a vector the stretch keeps as a
one-row matrix, read at row 0. -/

/-- The third layer's first weight matrix: slab 2 of the stacked weights, on both sides the same slice and reshape. -/
theorem host2_w1 :
    (StableHlo.after hostOps2 W (Proc.devRef .tc main_v91) : S96x192.Idx → EReal)
      = Cert.ReferenceIdeal.Read.val_main_v89 (F := Ideal) (W (Proc.devRef .tc main_arg3)) := by
  unfold Cert.ReferenceIdeal.Read.val_main_v89 Cert.ReferenceIdeal.Read.val_main_v88
  simp only [hostOps2]
  after_results
  rfl

/-- The third layer's first bias, kept as a one-row matrix: entry k of the row is entry k of the reference's vector. -/
theorem host2_b1 (k : Fin 192) :
    (StableHlo.after hostOps2 W (Proc.devRef .tc main_v94) : S1x192.Idx → EReal) (ix2 0 k)
      = Cert.ReferenceIdeal.Read.val_main_v92 (F := Ideal) (W (Proc.devRef .tc main_arg4)) (ix1 k) := by
  have e : (StableHlo.after hostOps2 W (Proc.devRef .tc main_v94) : S1x192.Idx → EReal)
      = shapeCast S1x192 (Cert.ReferenceIdeal.Read.val_main_v92 (F := Ideal) (W (Proc.devRef .tc main_arg4)))
          shapeCasts_S192_S1x192 := by
    unfold Cert.ReferenceIdeal.Read.val_main_v92 Cert.ReferenceIdeal.Read.val_main_v91
    simp only [hostOps2]
    after_results
    rfl
  exact (congrFun e _).trans (shapeCast_a_1a_apply _ _ 0 k)

/-- The third layer's second weight matrix. -/
theorem host2_w2 :
    (StableHlo.after hostOps2 W (Proc.devRef .tc main_v96) : S192x96.Idx → EReal)
      = Cert.ReferenceIdeal.Read.val_main_v98 (F := Ideal) (W (Proc.devRef .tc main_arg5)) := by
  unfold Cert.ReferenceIdeal.Read.val_main_v98 Cert.ReferenceIdeal.Read.val_main_v97
  simp only [hostOps2]
  after_results
  rfl

/-- The third layer's second bias, kept as a one-row matrix. -/
theorem host2_b2 (k : Fin 96) :
    (StableHlo.after hostOps2 W (Proc.devRef .tc main_v99) : S1x96.Idx → EReal) (ix2 0 k)
      = Cert.ReferenceIdeal.Read.val_main_v101 (F := Ideal) (W (Proc.devRef .tc main_arg6)) (ix1 k) := by
  have e : (StableHlo.after hostOps2 W (Proc.devRef .tc main_v99) : S1x96.Idx → EReal)
      = shapeCast S1x96 (Cert.ReferenceIdeal.Read.val_main_v101 (F := Ideal) (W (Proc.devRef .tc main_arg6)))
          shapeCasts_S96_S1x96 := by
    unfold Cert.ReferenceIdeal.Read.val_main_v101 Cert.ReferenceIdeal.Read.val_main_v100
    simp only [hostOps2]
    after_results
    rfl
  exact (congrFun e _).trans (shapeCast_a_1a_apply _ _ 0 k)

/-- The readout's first bias as a one-row matrix: entry k of the row is entry k of the argument. -/
theorem host2_fb1 (k : Fin 96) :
    (StableHlo.after hostOps2 W (Proc.devRef .tc main_v100) : S1x96.Idx → EReal) (ix2 0 k)
      = (W (Proc.devRef .tc main_arg9) : S96.Idx → EReal) (ix1 k) := by
  have e : (StableHlo.after hostOps2 W (Proc.devRef .tc main_v100) : S1x96.Idx → EReal)
      = shapeCast S1x96 (W (Proc.devRef .tc main_arg9) : S96.Idx → EReal) shapeCasts_S96_S1x96 := by
    simp only [hostOps2]
    after_results
    rfl
  exact (congrFun e _).trans (shapeCast_a_1a_apply _ _ 0 k)

/-- The readout's second bias as a one-by-one matrix. -/
theorem host2_fb2 (k : Fin 1) :
    (StableHlo.after hostOps2 W (Proc.devRef .tc main_v101) : S1x1.Idx → EReal) (ix2 0 k)
      = (W (Proc.devRef .tc main_arg11) : S1.Idx → EReal) (ix1 k) := by
  have e : (StableHlo.after hostOps2 W (Proc.devRef .tc main_v101) : S1x1.Idx → EReal)
      = shapeCast S1x1 (W (Proc.devRef .tc main_arg11) : S1.Idx → EReal) shapeCasts_S1_S1x1 := by
    simp only [hostOps2]
    after_results
    rfl
  exact (congrFun e _).trans (shapeCast_a_1a_apply _ _ 0 k)

end Cert.KernelIdeal.Val

end
-- ==== Proof.RV.lean ====
/-
  The reference network's dense stages as the specification's functions: each message-passing layer's
  perceptron is two dense rectified layers of the combine stage before it, and the output is the readout
  (a dense rectified layer, then a linear layer with its bias) of the pooled array.
-/
import proofs.«420259_j2267742732765_3_alg».proof.Proof.Gen.ReferenceIdeal.Read
import proofs.«420259_j2267742732765_3_alg».proof.Proof.Spec
import proofs.«420259_j2267742732765_3_alg».proof.Proof.LibPlainDot

noncomputable section

open scoped BigOperators

namespace Cert.ReferenceIdeal.RefValue

open Cert.ReferenceIdeal Cert.Spec Idealize.ShloMosaic Idealize.ShloMosaic.ValueIdx

/-- An array whose entry (p, q) is max (∑ₖ x(p,k)·w(k,q) + b(q)) 0 is the dense rectified layer of x. -/
theorem eq_dense {R A B : Nat} (x : (⟨2, ![R, A]⟩ : Shape).Idx → EReal) (w : (⟨2, ![A, B]⟩ : Shape).Idx → EReal)
    (b : Fin B → EReal) (v : (⟨2, ![R, B]⟩ : Shape).Idx → EReal)
    (h : ∀ (p : Fin R) (q : Fin B), v (ix2 p q) = max ((∑ k : Fin A, x (ix2 p k) * w (ix2 k q)) + b q) 0) :
    v = dense x w b := by
  funext j
  obtain ⟨p, q, rfl⟩ : ∃ (p : Fin R) (q : Fin B), j = ix2 p q := ⟨j 0, j 1, eq_ix2 j⟩
  exact (h p q).trans (dense_apply x w b p q).symm

section layer1

variable (x0 : (⟨S50000x96, .f32⟩ : BufTy).Contents (Elt Ideal)) (x1 : (⟨S2x800000, .i32⟩ : BufTy).Contents (Elt Ideal))
  (x3 : (⟨S3x96x192, .f32⟩ : BufTy).Contents (Elt Ideal)) (x4 : (⟨S3x192, .f32⟩ : BufTy).Contents (Elt Ideal))
  (x5 : (⟨S3x192x96, .f32⟩ : BufTy).Contents (Elt Ideal)) (x6 : (⟨S3x96, .f32⟩ : BufTy).Contents (Elt Ideal))
  (x7 : (⟨S3, .f32⟩ : BufTy).Contents (Elt Ideal))

/-- The first layer's hidden stage: the dense rectified layer of its combine stage. -/
theorem hidden1_eq :
    Read.val_main_v28 (F := Ideal) x0 x1 x3 x4 x7
      = dense (Read.val_main_v19 (F := Ideal) x0 x1 x7) (Read.val_main_v21 (F := Ideal) x3)
          (fun k => Read.val_main_v24 (F := Ideal) x4 (ix1 k)) := by
  refine eq_dense _ _ _ _ fun p q => ?_
  rw [Read.val_main_v28_apply, Read.val_main_v27_apply, Read.val_main_v22_apply, Read.val_main_v26_apply,
    Read.val_main_v25_apply, Read.val_main_call0_v0_apply, Read.val_main_call0_cst_apply]
  have hl : ∀ k : Fin 96, Read.lidx_main_v22 (ix2 p q) k = ix2 p k := fun k =>
    funext fun a => Fin.ext (by match a with | ⟨0, _⟩ => rfl | ⟨1, _⟩ => rfl)
  have hr : ∀ k : Fin 96, Read.ridx_main_v22 (ix2 p q) k = ix2 k q := fun k =>
    funext fun a => Fin.ext (by match a with | ⟨0, _⟩ => rfl | ⟨1, _⟩ => rfl)
  have hb : Read.idx_main_v25 (Read.idx_main_v26 (ix2 p q)) = ix1 q :=
    funext fun a => Fin.ext (by match a with | ⟨0, _⟩ => rfl)
  simp only [hl, hr, hb, Ideal.maximumf_def, Ideal.addf_def, Ideal.ofBits_def, Ideal.ofBits_zero_f32]

/-- The first layer: two dense rectified layers of its combine stage. -/
theorem layer1_eq :
    Read.val_main_v37 (F := Ideal) x0 x1 x3 x4 x5 x6 x7
      = mlp2 (Read.val_main_v19 (F := Ideal) x0 x1 x7) (Read.val_main_v21 (F := Ideal) x3)
          (fun k => Read.val_main_v24 (F := Ideal) x4 (ix1 k)) (Read.val_main_v30 (F := Ideal) x5)
          (fun k => Read.val_main_v33 (F := Ideal) x6 (ix1 k)) := by
  unfold mlp2
  rw [← hidden1_eq]
  refine eq_dense _ _ _ _ fun p q => ?_
  rw [Read.val_main_v37_apply, Read.val_main_v36_apply, Read.val_main_v31_apply, Read.val_main_v35_apply,
    Read.val_main_v34_apply, Read.val_main_call1_v0_apply, Read.val_main_call1_cst_apply]
  have hl : ∀ k : Fin 192, Read.lidx_main_v31 (ix2 p q) k = ix2 p k := fun k =>
    funext fun a => Fin.ext (by match a with | ⟨0, _⟩ => rfl | ⟨1, _⟩ => rfl)
  have hr : ∀ k : Fin 192, Read.ridx_main_v31 (ix2 p q) k = ix2 k q := fun k =>
    funext fun a => Fin.ext (by match a with | ⟨0, _⟩ => rfl | ⟨1, _⟩ => rfl)
  have hb : Read.idx_main_v34 (Read.idx_main_v35 (ix2 p q)) = ix1 q :=
    funext fun a => Fin.ext (by match a with | ⟨0, _⟩ => rfl)
  simp only [hl, hr, hb, Ideal.maximumf_def, Ideal.addf_def, Ideal.ofBits_def, Ideal.ofBits_zero_f32]

end layer1

section layer2

variable (x0 : (⟨S50000x96, .f32⟩ : BufTy).Contents (Elt Ideal)) (x1 : (⟨S2x800000, .i32⟩ : BufTy).Contents (Elt Ideal))
  (x3 : (⟨S3x96x192, .f32⟩ : BufTy).Contents (Elt Ideal)) (x4 : (⟨S3x192, .f32⟩ : BufTy).Contents (Elt Ideal))
  (x5 : (⟨S3x192x96, .f32⟩ : BufTy).Contents (Elt Ideal)) (x6 : (⟨S3x96, .f32⟩ : BufTy).Contents (Elt Ideal))
  (x7 : (⟨S3, .f32⟩ : BufTy).Contents (Elt Ideal))

/-- The second layer's hidden stage: the dense rectified layer of its combine stage. -/
theorem hidden2_eq :
    Read.val_main_v62 (F := Ideal) x0 x1 x3 x4 x5 x6 x7
      = dense (Read.val_main_v53 (F := Ideal) x0 x1 x3 x4 x5 x6 x7) (Read.val_main_v55 (F := Ideal) x3)
          (fun k => Read.val_main_v58 (F := Ideal) x4 (ix1 k)) := by
  refine eq_dense _ _ _ _ fun p q => ?_
  rw [Read.val_main_v62_apply, Read.val_main_v61_apply, Read.val_main_v56_apply, Read.val_main_v60_apply,
    Read.val_main_v59_apply, Read.val_main_call2_v0_apply, Read.val_main_call2_cst_apply]
  have hl : ∀ k : Fin 96, Read.lidx_main_v56 (ix2 p q) k = ix2 p k := fun k =>
    funext fun a => Fin.ext (by match a with | ⟨0, _⟩ => rfl | ⟨1, _⟩ => rfl)
  have hr : ∀ k : Fin 96, Read.ridx_main_v56 (ix2 p q) k = ix2 k q := fun k =>
    funext fun a => Fin.ext (by match a with | ⟨0, _⟩ => rfl | ⟨1, _⟩ => rfl)
  have hb : Read.idx_main_v59 (Read.idx_main_v60 (ix2 p q)) = ix1 q :=
    funext fun a => Fin.ext (by match a with | ⟨0, _⟩ => rfl)
  simp only [hl, hr, hb, Ideal.maximumf_def, Ideal.addf_def, Ideal.ofBits_def, Ideal.ofBits_zero_f32]

/-- The second layer: two dense rectified layers of its combine stage. -/
theorem layer2_eq :
    Read.val_main_v71 (F := Ideal) x0 x1 x3 x4 x5 x6 x7
      = mlp2 (Read.val_main_v53 (F := Ideal) x0 x1 x3 x4 x5 x6 x7) (Read.val_main_v55 (F := Ideal) x3)
          (fun k => Read.val_main_v58 (F := Ideal) x4 (ix1 k)) (Read.val_main_v64 (F := Ideal) x5)
          (fun k => Read.val_main_v67 (F := Ideal) x6 (ix1 k)) := by
  unfold mlp2
  rw [← hidden2_eq]
  refine eq_dense _ _ _ _ fun p q => ?_
  rw [Read.val_main_v71_apply, Read.val_main_v70_apply, Read.val_main_v65_apply, Read.val_main_v69_apply,
    Read.val_main_v68_apply, Read.val_main_call3_v0_apply, Read.val_main_call3_cst_apply]
  have hl : ∀ k : Fin 192, Read.lidx_main_v65 (ix2 p q) k = ix2 p k := fun k =>
    funext fun a => Fin.ext (by match a with | ⟨0, _⟩ => rfl | ⟨1, _⟩ => rfl)
  have hr : ∀ k : Fin 192, Read.ridx_main_v65 (ix2 p q) k = ix2 k q := fun k =>
    funext fun a => Fin.ext (by match a with | ⟨0, _⟩ => rfl | ⟨1, _⟩ => rfl)
  have hb : Read.idx_main_v68 (Read.idx_main_v69 (ix2 p q)) = ix1 q :=
    funext fun a => Fin.ext (by match a with | ⟨0, _⟩ => rfl)
  simp only [hl, hr, hb, Ideal.maximumf_def, Ideal.addf_def, Ideal.ofBits_def, Ideal.ofBits_zero_f32]

end layer2

section layer3

variable (x0 : (⟨S50000x96, .f32⟩ : BufTy).Contents (Elt Ideal)) (x1 : (⟨S2x800000, .i32⟩ : BufTy).Contents (Elt Ideal))
  (x3 : (⟨S3x96x192, .f32⟩ : BufTy).Contents (Elt Ideal)) (x4 : (⟨S3x192, .f32⟩ : BufTy).Contents (Elt Ideal))
  (x5 : (⟨S3x192x96, .f32⟩ : BufTy).Contents (Elt Ideal)) (x6 : (⟨S3x96, .f32⟩ : BufTy).Contents (Elt Ideal))
  (x7 : (⟨S3, .f32⟩ : BufTy).Contents (Elt Ideal))

/-- The third layer's hidden stage: the dense rectified layer of its combine stage. -/
theorem hidden3_eq :
    Read.val_main_v96 (F := Ideal) x0 x1 x3 x4 x5 x6 x7
      = dense (Read.val_main_v87 (F := Ideal) x0 x1 x3 x4 x5 x6 x7) (Read.val_main_v89 (F := Ideal) x3)
          (fun k => Read.val_main_v92 (F := Ideal) x4 (ix1 k)) := by
  refine eq_dense _ _ _ _ fun p q => ?_
  rw [Read.val_main_v96_apply, Read.val_main_v95_apply, Read.val_main_v90_apply, Read.val_main_v94_apply,
    Read.val_main_v93_apply, Read.val_main_call4_v0_apply, Read.val_main_call4_cst_apply]
  have hl : ∀ k : Fin 96, Read.lidx_main_v90 (ix2 p q) k = ix2 p k := fun k =>
    funext fun a => Fin.ext (by match a with | ⟨0, _⟩ => rfl | ⟨1, _⟩ => rfl)
  have hr : ∀ k : Fin 96, Read.ridx_main_v90 (ix2 p q) k = ix2 k q := fun k =>
    funext fun a => Fin.ext (by match a with | ⟨0, _⟩ => rfl | ⟨1, _⟩ => rfl)
  have hb : Read.idx_main_v93 (Read.idx_main_v94 (ix2 p q)) = ix1 q :=
    funext fun a => Fin.ext (by match a with | ⟨0, _⟩ => rfl)
  simp only [hl, hr, hb, Ideal.maximumf_def, Ideal.addf_def, Ideal.ofBits_def, Ideal.ofBits_zero_f32]

/-- The third layer: two dense rectified layers of its combine stage. -/
theorem layer3_eq :
    Read.val_main_v105 (F := Ideal) x0 x1 x3 x4 x5 x6 x7
      = mlp2 (Read.val_main_v87 (F := Ideal) x0 x1 x3 x4 x5 x6 x7) (Read.val_main_v89 (F := Ideal) x3)
          (fun k => Read.val_main_v92 (F := Ideal) x4 (ix1 k)) (Read.val_main_v98 (F := Ideal) x5)
          (fun k => Read.val_main_v101 (F := Ideal) x6 (ix1 k)) := by
  unfold mlp2
  rw [← hidden3_eq]
  refine eq_dense _ _ _ _ fun p q => ?_
  rw [Read.val_main_v105_apply, Read.val_main_v104_apply, Read.val_main_v99_apply, Read.val_main_v103_apply,
    Read.val_main_v102_apply, Read.val_main_call5_v0_apply, Read.val_main_call5_cst_apply]
  have hl : ∀ k : Fin 192, Read.lidx_main_v99 (ix2 p q) k = ix2 p k := fun k =>
    funext fun a => Fin.ext (by match a with | ⟨0, _⟩ => rfl | ⟨1, _⟩ => rfl)
  have hr : ∀ k : Fin 192, Read.ridx_main_v99 (ix2 p q) k = ix2 k q := fun k =>
    funext fun a => Fin.ext (by match a with | ⟨0, _⟩ => rfl | ⟨1, _⟩ => rfl)
  have hb : Read.idx_main_v102 (Read.idx_main_v103 (ix2 p q)) = ix1 q :=
    funext fun a => Fin.ext (by match a with | ⟨0, _⟩ => rfl)
  simp only [hl, hr, hb, Ideal.maximumf_def, Ideal.addf_def, Ideal.ofBits_def, Ideal.ofBits_zero_f32]

end layer3

section readout

variable (x0 : (⟨S50000x96, .f32⟩ : BufTy).Contents (Elt Ideal)) (x1 : (⟨S2x800000, .i32⟩ : BufTy).Contents (Elt Ideal))
  (x2 : (⟨S50000, .i32⟩ : BufTy).Contents (Elt Ideal))
  (x3 : (⟨S3x96x192, .f32⟩ : BufTy).Contents (Elt Ideal)) (x4 : (⟨S3x192, .f32⟩ : BufTy).Contents (Elt Ideal))
  (x5 : (⟨S3x192x96, .f32⟩ : BufTy).Contents (Elt Ideal)) (x6 : (⟨S3x96, .f32⟩ : BufTy).Contents (Elt Ideal))
  (x7 : (⟨S3, .f32⟩ : BufTy).Contents (Elt Ideal)) (x8 : (⟨S96x96, .f32⟩ : BufTy).Contents (Elt Ideal))
  (x9 : (⟨S96, .f32⟩ : BufTy).Contents (Elt Ideal)) (x10 : (⟨S96x1, .f32⟩ : BufTy).Contents (Elt Ideal))
  (x11 : (⟨S1, .f32⟩ : BufTy).Contents (Elt Ideal))

/-- The readout's hidden stage: the dense rectified layer of the pooled array. -/
theorem readout_hidden_eq :
    Read.val_main_v113 (F := Ideal) x0 x1 x2 x3 x4 x5 x6 x7 x8 x9
      = dense (Read.val_main_v108 (F := Ideal) x0 x1 x2 x3 x4 x5 x6 x7) x8 (fun k => x9 (ix1 k)) := by
  refine eq_dense _ _ _ _ fun p q => ?_
  rw [Read.val_main_v113_apply, Read.val_main_v112_apply, Read.val_main_v109_apply, Read.val_main_v111_apply,
    Read.val_main_v110_apply, Read.val_main_call6_v0_apply, Read.val_main_call6_cst_apply]
  have hl : ∀ k : Fin 96, Read.lidx_main_v109 (ix2 p q) k = ix2 p k := fun k =>
    funext fun a => Fin.ext (by match a with | ⟨0, _⟩ => rfl | ⟨1, _⟩ => rfl)
  have hr : ∀ k : Fin 96, Read.ridx_main_v109 (ix2 p q) k = ix2 k q := fun k =>
    funext fun a => Fin.ext (by match a with | ⟨0, _⟩ => rfl | ⟨1, _⟩ => rfl)
  have hb : Read.idx_main_v110 (Read.idx_main_v111 (ix2 p q)) = ix1 q :=
    funext fun a => Fin.ext (by match a with | ⟨0, _⟩ => rfl)
  simp only [hl, hr, hb, Ideal.maximumf_def, Ideal.addf_def, Ideal.ofBits_def, Ideal.ofBits_zero_f32]

/-- The output: the readout of the pooled array. -/
theorem head_eq :
    Read.val_main_v117 (F := Ideal) x0 x1 x2 x3 x4 x5 x6 x7 x8 x9 x10 x11
      = head (Read.val_main_v108 (F := Ideal) x0 x1 x2 x3 x4 x5 x6 x7) x8 (fun k => x9 (ix1 k)) x10
          (fun k => x11 (ix1 k)) := by
  funext j
  obtain ⟨p, q, rfl⟩ : ∃ (p : Fin 64) (q : Fin 1), j = ix2 p q := ⟨j 0, j 1, eq_ix2 j⟩
  rw [head_apply, ← readout_hidden_eq, Read.val_main_v117_apply, Read.val_main_v114_apply, Read.val_main_v116_apply,
    Read.val_main_v115_apply]
  have hl : ∀ k : Fin 96, Read.lidx_main_v114 (ix2 p q) k = ix2 p k := fun k =>
    funext fun a => Fin.ext (by match a with | ⟨0, _⟩ => rfl | ⟨1, _⟩ => rfl)
  have hr : ∀ k : Fin 96, Read.ridx_main_v114 (ix2 p q) k = ix2 k q := fun k =>
    funext fun a => Fin.ext (by match a with | ⟨0, _⟩ => rfl | ⟨1, _⟩ => rfl)
  have hb : Read.idx_main_v115 (Read.idx_main_v116 (ix2 p q)) = ix1 q :=
    funext fun a => Fin.ext (by match a with | ⟨0, _⟩ => exact (Fin.val_eq_zero q).symm)
  simp only [hl, hr, hb, Ideal.addf_def]

end readout

end Cert.ReferenceIdeal.RefValue

end
-- ==== Proof.RVPool.lean ====
/-
  The reference's sum over groups read as the plain pooling function: scattering the rows of an array into the rows
  their labels name, added into zeros, gives at (g, d) the sum of the entries (r, d) over the rows r labelled g.
-/
import proofs.«420259_j2267742732765_3_alg».proof.Proof.Gen.ReferenceIdeal.Read
import proofs.«420259_j2267742732765_3_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.Spec Idealize.ShloMosaic Idealize.ShloMosaic.ValueIdx

/-! ## Where an update lands -/

/-- The scatter's dimension numbers: update row r goes to the operand row its one start index names, column to column. -/
private abbrev seg : ScatterDims S64x96 S50000x1 S50000x96 := scatter_S64x96_S50000x1_S50000x96_1_0_0_1

/-- Update (r, c) reads its start index at (r, 0). -/
private theorem seg_siIdx (r : Fin 50000) (c : Fin 96) (k : Fin seg.scatterDimsToOperandDims.length) :
    seg.siIdx (ix2 r c) k = ix2 r (0 : Fin 1) := by
  funext b
  match b with
  | ⟨0, _⟩ => rfl
  | ⟨1, _⟩ =>
    exact Fin.ext (by
      have := k.isLt; simp [seg, scatter_S64x96_S50000x1_S50000x96_1_0_0_1] at this; show k.val = 0; omega)

/-- On the row axis the window starts at the label of row r, read signed. -/
private theorem seg_start0 {w : Nat} (idx : IVec S50000x1 w) (r : Fin 50000) (c : Fin 96) :
    seg.start (ix2 r c) idx 0 = (idx (ix2 r 0)).toInt := by
  unfold ScatterDims.start
  rw [dif_pos (by decide), seg_siIdx]

/-- On the column axis it starts at 0. -/
private theorem seg_start1 {w : Nat} (idx : IVec S50000x1 w) (r : Fin 50000) (c : Fin 96) :
    seg.start (ix2 r c) idx 1 = 0 := by
  unfold ScatterDims.start
  rw [dif_neg (by decide)]

/-- The window coordinate is 0 on the row axis … -/
private theorem seg_window0 (r : Fin 50000) (c : Fin 96) : seg.window (ix2 r c) 0 = 0 := by
  unfold ScatterDims.window
  rw [dif_neg (by decide)]

/-- … and the update's column on the column axis. -/
private theorem seg_window1 (r : Fin 50000) (c : Fin 96) : seg.window (ix2 r c) 1 = c.val := by
  unfold ScatterDims.window
  rw [dif_pos (by decide)]
  rfl

/-- Update (r, c) lands on (g, e) exactly when row r's label, read signed, is g and the columns agree. -/
private theorem seg_lands_iff {w : Nat} (idx : IVec S50000x1 w) (r : Fin 50000) (c : Fin 96) (g : Fin 64) (e : Fin 96) :
    seg.resultIdx? (ix2 r c) idx = some (ix2 g e) ↔ (idx (ix2 r 0)).toInt = (g.val : Int) ∧ c = e := by
  have hg := g.isLt
  have hc := c.isLt
  unfold ScatterDims.resultIdx?
  split
  · rename_i h
    have h0 := h 0
    rw [seg_start0, seg_window0] at h0
    rw [Option.some.injEq]
    constructor
    · intro hf
      have e0 := congrArg (fun f => (f 0).val) hf
      have e1 := congrArg (fun f => (f 1).val) hf
      simp only [seg_start0, seg_window0, seg_start1, seg_window1] at e0 e1
      change _ = g.val at e0
      change _ = e.val at e1
      exact ⟨by omega, Fin.ext (by omega)⟩
    · rintro ⟨hl, rfl⟩
      funext a
      match a with
      | ⟨0, _⟩ =>
        apply Fin.ext
        show (seg.start (ix2 r c) idx 0 + seg.window (ix2 r c) 0).toNat = g.val
        rw [seg_start0, seg_window0]; omega
      | ⟨1, _⟩ =>
        apply Fin.ext
        show (seg.start (ix2 r c) idx 1 + seg.window (ix2 r c) 1).toNat = c.val
        rw [seg_start1, seg_window1]; omega
  · rename_i h
    constructor
    · intro hf; exact absurd hf (by simp)
    · rintro ⟨hl, rfl⟩
      refine absurd (fun a => ?_) h
      match a with
      | ⟨0, _⟩ =>
        show 0 ≤ seg.start (ix2 r c) idx 0 + seg.window (ix2 r c) 0 ∧ seg.start (ix2 r c) idx 0 + seg.window (ix2 r c) 0 < (64 : Nat)
        rw [seg_start0, seg_window0]; omega
      | ⟨1, _⟩ =>
        show 0 ≤ seg.start (ix2 r c) idx 1 + seg.window (ix2 r c) 1 ∧ seg.start (ix2 r c) idx 1 + seg.window (ix2 r c) 1 < (96 : Nat)
        rw [seg_start1, seg_window1]; omega

/-! ## The label test -/

/-- A 32-bit label read signed is g, for g below 64, exactly when it is the word of g. -/
private theorem toInt_eq_iff (lab : BitVec 32) (g : Fin 64) : lab.toInt = (g.val : Int) ↔ lab = BitVec.ofNat 32 g.val := by
  have hg := g.isLt
  have hw : (BitVec.ofNat 32 g.val).toInt = (g.val : Int) := by
    rw [BitVec.toInt_eq_toNat_cond, BitVec.toNat_ofNat]
    omega
  constructor
  · intro h; exact BitVec.eq_of_toInt_eq (h.trans hw.symm)
  · rintro rfl; exact hw

/-! ## The sum over groups -/

/-- Scattering the rows of h by label into zeros: at (g, e) the sum over the rows r of [label r = g] · h(r, e). -/
private theorem scatter_rows_apply (z : FVec Ideal S64x96 .f32) (hz : ∀ i, z i = 0) (idx : IVec S50000x1 32)
    (h : FVec Ideal S50000x96 .f32) (g : Fin 64) (e : Fin 96) :
    Host.scatterAdd seg z idx h (ix2 g e) = ∑ r : Fin 50000, ind (idx (ix2 r 0)) g.val * h (ix2 r e) := by
  show z (ix2 g e) + ∑ j ∈ Finset.univ.filter (fun j => seg.resultIdx? j idx = some (ix2 g e)), h j = _
  rw [hz, zero_add, Finset.sum_filter, sum_idx2]
  refine Finset.sum_congr rfl fun r _ => ?_
  have hcol : ∀ c : Fin 96, (if seg.resultIdx? (ix2 r c) idx = some (ix2 g e) then h (ix2 r c) else 0)
      = if c = e then ind (idx (ix2 r 0)) g.val * h (ix2 r c) else 0 := by
    intro c
    unfold ind
    by_cases hl : idx (ix2 r 0) = BitVec.ofNat 32 g.val
    · by_cases hce : c = e
      · rw [if_pos ((seg_lands_iff idx r c g e).2 ⟨(toInt_eq_iff _ g).2 hl, hce⟩), if_pos hce, if_pos hl, one_mul]
      · rw [if_neg (fun hh => hce ((seg_lands_iff idx r c g e).1 hh).2), if_neg hce]
    · rw [if_neg (fun hh => hl ((toInt_eq_iff _ g).1 ((seg_lands_iff idx r c g e).1 hh).1)), if_neg hl, zero_mul, ite_self]
  rw [Finset.sum_congr rfl fun c _ => hcol c, Finset.sum_ite_eq' Finset.univ e, if_pos (Finset.mem_univ e)]

theorem pool_eq (x0 : (⟨S50000x96, .f32⟩ : BufTy).Contents (Elt Ideal)) (x1 : (⟨S2x800000, .i32⟩ : BufTy).Contents (Elt Ideal))
    (x2 : (⟨S50000, .i32⟩ : BufTy).Contents (Elt Ideal)) (x3 : (⟨S3x96x192, .f32⟩ : BufTy).Contents (Elt Ideal))
    (x4 : (⟨S3x192, .f32⟩ : BufTy).Contents (Elt Ideal)) (x5 : (⟨S3x192x96, .f32⟩ : BufTy).Contents (Elt Ideal))
    (x6 : (⟨S3x96, .f32⟩ : BufTy).Contents (Elt Ideal)) (x7 : (⟨S3, .f32⟩ : BufTy).Contents (Elt Ideal)) :
    Read.val_main_v108 (F := Ideal) x0 x1 x2 x3 x4 x5 x6 x7
      = pool (G := 64) (fun r => x2 (ix1 r)) (Read.val_main_v105 (F := Ideal) x0 x1 x3 x4 x5 x6 x7) := by
  unfold Read.val_main_v108
  generalize Read.val_main_v105 (F := Ideal) x0 x1 x3 x4 x5 x6 x7 = h
  funext i
  obtain ⟨g, e, rfl⟩ : ∃ (g : Fin 64) (e : Fin 96), i = ix2 g e := ⟨i 0, i 1, eq_ix2 i⟩
  have hz : ∀ i, Read.val_main_v106 (F := Ideal) i = 0 := fun i => by
    rw [Read.val_main_v106_apply, Read.val_main_cst_10_apply]
    exact Ideal.ofBits_zero_f32
  refine (scatter_rows_apply _ hz (Read.val_main_v107 (F := Ideal) x2) h g e).trans ?_
  refine Finset.sum_congr rfl fun r _ => ?_
  have hidx : Read.idx_main_v107 (ix2 r (0 : Fin 1)) = ix1 r := by
    funext a
    match a with
    | ⟨0, _⟩ => rfl
  rw [Read.val_main_v107_apply, hidx]

end Cert.ReferenceIdeal.RefValue

end
-- ==== Proof.PreDst.lean ====
/-
  The precondition's last conjunct, decoded. The printed precondition is a chain of conjunctions of
  reductions by "and"; the outermost conjunction's right operand is the reduction over all 800000
  positions of the comparison  edge_index[1, e] ≥ 0  (signed): row 1 of the 2 × 800000 integer table is
  sliced out, flattened to a vector, and compared position by position with a broadcast zero word.
  When the whole precondition is the word 1, that reduction is 1, so every position's comparison is 1,
  and read at position e the comparison's left operand is the table's word at (1, e). A word that is
  at least zero as a signed number is not below zero as a signed number, has its top bit clear, and
  reads the same signed and unsigned: each spelling is stated below.
-/
import proofs.«420259_j2267742732765_3_alg».proof.Pre_finite_inputs
import proofs.«420259_j2267742732765_3_alg».proof.Proof.Gen.Pre_finite_inputs
import Idealize.ShloMosaic.Lib.ReduceAll
import Idealize.ShloMosaic.Lib.ValueLayout

noncomputable section

namespace Cert.PreDst

open Idealize.ShloMosaic Idealize.ShloMosaic.ValueIdx
open Cert.Pre_finite_inputs

/-- The scalar shape has one index. -/
instance scalarIdxSubsingleton : Subsingleton S_.Idx := ⟨fun a b => funext fun d => d.elim0⟩

/-- The compared vector (row 1 of the table, flattened) read at position e is the table's word at (1, e). -/
theorem dstRow_apply [Facts] (x1 : IVec S2x800000 32) (e : Fin 800000) :
    shapeCast S800000 (extractStridedSlice S1x800000 ![1, 0] x1 Facts.slices_S2x800000_S1x800000_1_0)
        Facts.shapeCasts_S1x800000_S800000 (ix1 e)
      = x1 (ix2 (1 : Fin 2) e) := by
  refine (shapeCast_1a_a_apply _ _ e).trans ?_
  exact slice2_axis0_apply 1 x1 _ (0 : Fin 1) e (1 : Fin 2) rfl

/-- THE CONJUNCT AT ONE POSITION: under the precondition, the signed comparison  x1[1, e] ≥ 0  is the word 1. -/
theorem dst_sge {F : FTy → Type} [FloatOps F] [Facts]
    (x0 : FVec F S50000x96 .f32) (x1 : IVec S2x800000 32) (x2 : IVec S50000 32) (x3 : FVec F S3x96x192 .f32)
    (x4 : FVec F S3x192 .f32) (x5 : FVec F S3x192x96 .f32) (x6 : FVec F S3x96 .f32) (x7 : FVec F S3 .f32)
    (x8 : FVec F S96x96 .f32) (x9 : FVec F S96 .f32) (x10 : FVec F S96x1 .f32) (x11 : FVec F S1 .f32)
    (h : fn (F := F) x0 x1 x2 x3 x4 x5 x6 x7 x8 x9 x10 x11 = fun _ => 1#1) (e : Fin 800000) :
    IntOp.cmpi .sge (x1 (ix2 (1 : Fin 2) e)) 0#32 = 1#1 := by
  have h0 := congrFun h ix0
  dsimp only [fn, fn_part1, fn_part2, fn_part3] at h0
  -- the outermost conjunction's right operand: the reduction of the comparison over every position
  have hall := (IntOp.andi_eq_one.1 h0).2
  have he := Host.reduce_andi_all _ _ _ _ _ hall (ix1 e)
  -- the comparison at position e: its left operand is the table's word, its right operand the zero word
  have hcmp : IntOp.cmpi .sge
      (shapeCast S800000 (extractStridedSlice S1x800000 ![1, 0] x1 Facts.slices_S2x800000_S1x800000_1_0)
        Facts.shapeCasts_S1x800000_S800000 (ix1 e)) 0#32 = 1#1 := he
  rwa [dstRow_apply] at hcmp

/-- A word whose signed comparison with zero says "at least" is nonnegative read signed. -/
theorem toInt_nonneg_of_sge {w : BitVec 32} (h : IntOp.cmpi .sge w 0#32 = 1#1) : 0 ≤ w.toInt := by
  have := IntOp.cmpi_sge.1 h
  rwa [show (0#32 : BitVec 32).toInt = 0 from by decide] at this

section
variable {F : FTy → Type} [FloatOps F] [Facts]
  (x0 : FVec F S50000x96 .f32) (x1 : IVec S2x800000 32) (x2 : IVec S50000 32) (x3 : FVec F S3x96x192 .f32)
  (x4 : FVec F S3x192 .f32) (x5 : FVec F S3x192x96 .f32) (x6 : FVec F S3x96 .f32) (x7 : FVec F S3 .f32)
  (x8 : FVec F S96x96 .f32) (x9 : FVec F S96 .f32) (x10 : FVec F S96x1 .f32) (x11 : FVec F S1 .f32)

/-- Under the precondition every destination word x1[1, e] is nonnegative read as a signed number. -/
theorem dst_toInt_nonneg (h : fn (F := F) x0 x1 x2 x3 x4 x5 x6 x7 x8 x9 x10 x11 = fun _ => 1#1) (e : Fin 800000) :
    0 ≤ (x1 (ix2 (1 : Fin 2) e)).toInt :=
  toInt_nonneg_of_sge (dst_sge x0 x1 x2 x3 x4 x5 x6 x7 x8 x9 x10 x11 h e)

/-- Under the precondition no destination word x1[1, e] is below zero as a signed number. -/
theorem dst_nonneg (h : fn (F := F) x0 x1 x2 x3 x4 x5 x6 x7 x8 x9 x10 x11 = fun _ => 1#1) (e : Fin 800000) :
    ¬ (x1 (ix2 (1 : Fin 2) e)).slt 0#32 = true := by
  have h0 := dst_toInt_nonneg x0 x1 x2 x3 x4 x5 x6 x7 x8 x9 x10 x11 h e
  rw [BitVec.slt_iff_toInt_lt, show (0#32 : BitVec 32).toInt = 0 from by decide]
  omega

/-- Under the precondition every destination word x1[1, e] has its top bit clear: it is below 2³¹ read unsigned,
    and reads the same signed and unsigned. -/
theorem dst_toNat_lt (h : fn (F := F) x0 x1 x2 x3 x4 x5 x6 x7 x8 x9 x10 x11 = fun _ => 1#1) (e : Fin 800000) :
    (x1 (ix2 (1 : Fin 2) e)).toNat < 2 ^ 31 := by
  have h0 := dst_toInt_nonneg x0 x1 x2 x3 x4 x5 x6 x7 x8 x9 x10 x11 h e
  have := BitVec.toInt_pos_iff.1 h0
  omega

theorem dst_toInt_eq_toNat (h : fn (F := F) x0 x1 x2 x3 x4 x5 x6 x7 x8 x9 x10 x11 = fun _ => 1#1) (e : Fin 800000) :
    (x1 (ix2 (1 : Fin 2) e)).toInt = ((x1 (ix2 (1 : Fin 2) e)).toNat : Int) :=
  BitVec.toInt_eq_toNat_of_lt (by
    have := dst_toNat_lt x0 x1 x2 x3 x4 x5 x6 x7 x8 x9 x10 x11 h e
    omega)

end

end Cert.PreDst

end
-- ==== Proof.KV.Final.lean ====
/-
  The idealized kernel's result is the reference's last stage of the same arguments.

  Layer by layer: each host stretch of the kernel writes the reference's combine stage of the layer's input (a
  scatter-add into the self term against the self term plus a scatter-add into zeros, the destination indices being
  non-negative); each per-node perceptron launch leaves the two-layer perceptron of that stage over all rows, which is
  the reference's stage after its second rectifier; the last launch pools by graph label and applies the readout,
  which is the reference's segment sum followed by its two final layers.
-/
import proofs.«420259_j2267742732765_3_alg».proof.Proof.KI.Run
import proofs.«420259_j2267742732765_3_alg».proof.Proof.KV.Arr0
import proofs.«420259_j2267742732765_3_alg».proof.Proof.KV.Arr1
import proofs.«420259_j2267742732765_3_alg».proof.Proof.KV.Arr2
import proofs.«420259_j2267742732765_3_alg».proof.Proof.KV.Host0
import proofs.«420259_j2267742732765_3_alg».proof.Proof.KV.Host1
import proofs.«420259_j2267742732765_3_alg».proof.Proof.KV.Host2
import proofs.«420259_j2267742732765_3_alg».proof.Proof.RV
import proofs.«420259_j2267742732765_3_alg».proof.Proof.RVPool
import proofs.«420259_j2267742732765_3_alg».proof.Proof.PreDst

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand Cert.Spec
open Cert.ReferenceIdeal.RefValue

variable (m : (ℓ : Loc nD τ sig) → Buf (Elt Ideal) ℓ) (ρ : Dev nD → PrngReg)

/-- Every destination index of the launch memory is non-negative. -/
def DstOk (c : Dev nD) : Prop :=
  ∀ e : Fin 800000, ¬ ((m ((c.tc : Thread nD τ).loc main_arg1) : S2x800000.Idx → BitVec 32) (ix2 1 e)).slt 0#32 = true

/-- The source row as the first stretch leaves it is the reference's. -/
theorem src_eq (c : Dev nD) :
    (W1 m ρ c (Proc.devRef .tc main_v1) : S800000.Idx → BitVec 32) = Cert.ReferenceIdeal.Read.val_main_v1 (F := Ideal) (m ((c.tc : Thread nD τ).loc main_arg1)) :=
  host0_src (W0 m ρ c)

/-- The destination row as the first stretch leaves it is the reference's. -/
theorem dst_eq (c : Dev nD) :
    (W1 m ρ c (Proc.devRef .tc main_v3) : S800000.Idx → BitVec 32) = Cert.ReferenceIdeal.Read.val_main_v3 (F := Ideal) (m ((c.tc : Thread nD τ).loc main_arg1)) :=
  host0_dst (W0 m ρ c)

/-- After the first launch: the reference's stage after layer 0. -/
theorem h1_eq (c : Dev nD) (hd : DstOk m c) :
    (W2 m ρ c (Proc.devRef .tc main_v36) : S50000x96.Idx → EReal) = Cert.ReferenceIdeal.Read.val_main_v37 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have ha : (V1 m ρ c main_v25 : S50000x96.Idx → EReal) = Cert.ReferenceIdeal.Read.val_main_v19 (F := Ideal) (m ((c.tc : Thread nD τ).loc main_arg0)) (m ((c.tc : Thread nD τ).loc main_arg1)) (m ((c.tc : Thread nD τ).loc main_arg7)) :=
    host0_z (W0 m ρ c) hd
  have hb : (V1 m ρ c main_v27 : S96x192.Idx → EReal) = Cert.ReferenceIdeal.Read.val_main_v21 (F := Ideal) (m ((c.tc : Thread nD τ).loc main_arg3)) := host0_w1 (W0 m ρ c)
  have hc : (fun k : Fin 192 => (V1 m ρ c main_v30 : S1x192.Idx → EReal) (ix2 0 k))
      = fun k => Cert.ReferenceIdeal.Read.val_main_v24 (F := Ideal) (m ((c.tc : Thread nD τ).loc main_arg4)) (ix1 k) := funext (host0_b1 (W0 m ρ c))
  have he : (V1 m ρ c main_v32 : S192x96.Idx → EReal) = Cert.ReferenceIdeal.Read.val_main_v30 (F := Ideal) (m ((c.tc : Thread nD τ).loc main_arg5)) := host0_w2 (W0 m ρ c)
  have hf : (fun k : Fin 96 => (V1 m ρ c main_v35 : S1x96.Idx → EReal) (ix2 0 k))
      = fun k => Cert.ReferenceIdeal.Read.val_main_v33 (F := Ideal) (m ((c.tc : Thread nD τ).loc main_arg6)) (ix1 k) := funext (host0_b2 (W0 m ρ c))
  calc (W2 m ρ c (Proc.devRef .tc main_v36) : S50000x96.Idx → EReal)
      = ((dat0 (F := Ideal) (V1 m ρ) c).arrAt 5 cfg0.N : S50000x96.Idx → EReal) := W2_v36 m ρ c
    _ = mlp2 (V1 m ρ c main_v25 : S50000x96.Idx → EReal) (V1 m ρ c main_v27 : S96x192.Idx → EReal)
          (fun k => (V1 m ρ c main_v30 : S1x192.Idx → EReal) (ix2 0 k)) (V1 m ρ c main_v32 : S192x96.Idx → EReal)
          (fun k => (V1 m ρ c main_v35 : S1x96.Idx → EReal) (ix2 0 k)) := arr0_eq (V1 m ρ) c
    _ = _ := by rw [ha, hb, hc, he, hf]; exact (layer1_eq _ _ _ _ _ _ _).symm

/-- The destination hypothesis restated at a later boundary's copy of the edge array. -/
theorem dstOk_at {W : Valuation τ sig (Elt Ideal)} (c : Dev nD) (hd : DstOk m c)
    (hW : (W (Proc.devRef .tc main_arg1) : S2x800000.Idx → BitVec 32) = (m ((c.tc : Thread nD τ).loc main_arg1))) :
    ∀ e : Fin 800000, ¬ ((W (Proc.devRef .tc main_arg1) : S2x800000.Idx → BitVec 32) (ix2 1 e)).slt 0#32 = true := by
  intro e; rw [hW]; exact hd e

/-- After the second launch: the reference's stage after layer 1. -/
theorem h2_eq (c : Dev nD) (hd : DstOk m c) :
    (W4 m ρ c (Proc.devRef .tc main_v68) : S50000x96.Idx → EReal) = Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e1 := W2_main_arg1 m ρ c
  have hv1 : (W2 m ρ c (Proc.devRef .tc main_v1) : S800000.Idx → BitVec 32)
      = Cert.ReferenceIdeal.Read.val_main_v1 (F := Ideal) (W2 m ρ c (Proc.devRef .tc main_arg1)) := by
    rw [W2_v1, e1]; exact src_eq m ρ c
  have hv3 : (W2 m ρ c (Proc.devRef .tc main_v3) : S800000.Idx → BitVec 32)
      = Cert.ReferenceIdeal.Read.val_main_v3 (F := Ideal) (W2 m ρ c (Proc.devRef .tc main_arg1)) := by
    rw [W2_v3, e1]; exact dst_eq m ρ c
  have ha : (V3 m ρ c main_v57 : S50000x96.Idx → EReal) = Cert.ReferenceIdeal.Read.val_main_v53 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    have h := host1_z (W2 m ρ c) hv1 hv3 (dstOk_at m c hd e1)
    rw [W2_main_arg1, W2_main_arg7, h1_eq m ρ c hd] at h
    exact h.trans (combR1_ref _ _ _ _ _ _ _).symm
  have hb : (V3 m ρ c main_v59 : S96x192.Idx → EReal) = Cert.ReferenceIdeal.Read.val_main_v55 (F := Ideal) (m ((c.tc : Thread nD τ).loc main_arg3)) := by
    have h := host1_w1 (W2 m ρ c); rw [W2_main_arg3] at h; exact h
  have hc : (fun k : Fin 192 => (V3 m ρ c main_v62 : S1x192.Idx → EReal) (ix2 0 k))
      = fun k => Cert.ReferenceIdeal.Read.val_main_v58 (F := Ideal) (m ((c.tc : Thread nD τ).loc main_arg4)) (ix1 k) := by
    funext k; have h := host1_b1 (W2 m ρ c) k; rw [W2_main_arg4] at h; exact h
  have he : (V3 m ρ c main_v64 : S192x96.Idx → EReal) = Cert.ReferenceIdeal.Read.val_main_v64 (F := Ideal) (m ((c.tc : Thread nD τ).loc main_arg5)) := by
    have h := host1_w2 (W2 m ρ c); rw [W2_main_arg5] at h; exact h
  have hf : (fun k : Fin 96 => (V3 m ρ c main_v67 : S1x96.Idx → EReal) (ix2 0 k))
      = fun k => Cert.ReferenceIdeal.Read.val_main_v67 (F := Ideal) (m ((c.tc : Thread nD τ).loc main_arg6)) (ix1 k) := by
    funext k; have h := host1_b2 (W2 m ρ c) k; rw [W2_main_arg6] at h; exact h
  calc (W4 m ρ c (Proc.devRef .tc main_v68) : S50000x96.Idx → EReal)
      = ((dat1 (F := Ideal) (V3 m ρ) c).arrAt 5 cfg1.N : S50000x96.Idx → EReal) := W4_v68 m ρ c
    _ = mlp2 (V3 m ρ c main_v57 : S50000x96.Idx → EReal) (V3 m ρ c main_v59 : S96x192.Idx → EReal)
          (fun k => (V3 m ρ c main_v62 : S1x192.Idx → EReal) (ix2 0 k)) (V3 m ρ c main_v64 : S192x96.Idx → EReal)
          (fun k => (V3 m ρ c main_v67 : S1x96.Idx → EReal) (ix2 0 k)) := arr1_eq (V3 m ρ) c
    _ = _ := by rw [ha, hb, hc, he, hf]; exact (layer2_eq _ _ _ _ _ _ _).symm

/-- The result buffer at the end: the reference's last stage. -/
theorem result_eq (c : Dev nD) (hd : DstOk m c) :
    (W6 m ρ c (Proc.devRef .tc main_v102) : S64x1.Idx → EReal) = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e1 := W4_main_arg1 m ρ c
  have hv1 : (W4 m ρ c (Proc.devRef .tc main_v1) : S800000.Idx → BitVec 32)
      = Cert.ReferenceIdeal.Read.val_main_v1 (F := Ideal) (W4 m ρ c (Proc.devRef .tc main_arg1)) := by
    rw [W4_v1, e1]; exact src_eq m ρ c
  have hv3 : (W4 m ρ c (Proc.devRef .tc main_v3) : S800000.Idx → BitVec 32)
      = Cert.ReferenceIdeal.Read.val_main_v3 (F := Ideal) (W4 m ρ c (Proc.devRef .tc main_arg1)) := by
    rw [W4_v3, e1]; exact dst_eq m ρ c
  have ha : (V5 m ρ c main_v89 : S50000x96.Idx → EReal) = Cert.ReferenceIdeal.Read.val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    have h := host2_z (W4 m ρ c) hv1 hv3 (dstOk_at m c hd e1)
    rw [W4_main_arg1, W4_main_arg7, h2_eq m ρ c hd] at h
    exact h.trans (combR2_ref _ _ _ _ _ _ _).symm
  have hb : (V5 m ρ c main_v91 : S96x192.Idx → EReal) = Cert.ReferenceIdeal.Read.val_main_v89 (F := Ideal) (m ((c.tc : Thread nD τ).loc main_arg3)) := by
    have h := host2_w1 (W4 m ρ c); rw [W4_main_arg3] at h; exact h
  have hc : (fun k : Fin 192 => (V5 m ρ c main_v94 : S1x192.Idx → EReal) (ix2 0 k))
      = fun k => Cert.ReferenceIdeal.Read.val_main_v92 (F := Ideal) (m ((c.tc : Thread nD τ).loc main_arg4)) (ix1 k) := by
    funext k; have h := host2_b1 (W4 m ρ c) k; rw [W4_main_arg4] at h; exact h
  have he : (V5 m ρ c main_v96 : S192x96.Idx → EReal) = Cert.ReferenceIdeal.Read.val_main_v98 (F := Ideal) (m ((c.tc : Thread nD τ).loc main_arg5)) := by
    have h := host2_w2 (W4 m ρ c); rw [W4_main_arg5] at h; exact h
  have hf : (fun k : Fin 96 => (V5 m ρ c main_v99 : S1x96.Idx → EReal) (ix2 0 k))
      = fun k => Cert.ReferenceIdeal.Read.val_main_v101 (F := Ideal) (m ((c.tc : Thread nD τ).loc main_arg6)) (ix1 k) := by
    funext k; have h := host2_b2 (W4 m ρ c) k; rw [W4_main_arg6] at h; exact h
  have hg : (fun k : Fin 96 => (V5 m ρ c main_v100 : S1x96.Idx → EReal) (ix2 0 k))
      = fun k => ((m ((c.tc : Thread nD τ).loc main_arg9)) : S96.Idx → EReal) (ix1 k) := by
    funext k; have h := host2_fb1 (W4 m ρ c) k; rw [W4_main_arg9] at h; exact h
  have hh : (fun k : Fin 1 => (V5 m ρ c main_v101 : S1x1.Idx → EReal) (ix2 0 k))
      = fun k => ((m ((c.tc : Thread nD τ).loc main_arg11)) : S1.Idx → EReal) (ix1 k) := by
    funext k; have h := host2_fb2 (W4 m ρ c) k; rw [W4_main_arg11] at h; exact h
  have hl : (fun r : Fin 50000 => (V5 m ρ c main_v4 : S50000x1.Idx → BitVec 32) (ix2 r 0))
      = fun r => ((m ((c.tc : Thread nD τ).loc main_arg2)) : S50000.Idx → BitVec 32) (ix1 r) := by
    funext r
    have h := host0_batch (W0 m ρ c) r
    exact (congrFun (W5_v4 m ρ c) (ix2 r 0)).trans h
  have h8 : (V5 m ρ c main_arg8 : S96x96.Idx → EReal) = (m ((c.tc : Thread nD τ).loc main_arg8)) := W5_main_arg8 m ρ c
  have h10 : (V5 m ρ c main_arg10 : S96x1.Idx → EReal) = (m ((c.tc : Thread nD τ).loc main_arg10)) := W5_main_arg10 m ρ c
  calc (W6 m ρ c (Proc.devRef .tc main_v102) : S64x1.Idx → EReal)
      = ((dat2 (F := Ideal) (V5 m ρ) c).arrAt 10 cfg2.N : S64x1.Idx → EReal) := W6_result m ρ c
    _ = head (pool (G := 64) (fun r => (V5 m ρ c main_v4 : S50000x1.Idx → BitVec 32) (ix2 r 0))
            (mlp2 (V5 m ρ c main_v89 : S50000x96.Idx → EReal) (V5 m ρ c main_v91 : S96x192.Idx → EReal)
              (fun k => (V5 m ρ c main_v94 : S1x192.Idx → EReal) (ix2 0 k)) (V5 m ρ c main_v96 : S192x96.Idx → EReal)
              (fun k => (V5 m ρ c main_v99 : S1x96.Idx → EReal) (ix2 0 k))))
          (V5 m ρ c main_arg8 : S96x96.Idx → EReal) (fun k => (V5 m ρ c main_v100 : S1x96.Idx → EReal) (ix2 0 k))
          (V5 m ρ c main_arg10 : S96x1.Idx → EReal) (fun k => (V5 m ρ c main_v101 : S1x1.Idx → EReal) (ix2 0 k)) :=
        arr2_eq (V5 m ρ) c
    _ = _ := by
        rw [ha, hb, hc, he, hf, hg, hh, hl, h8, h10, ← layer3_eq, ← pool_eq]
        exact (head_eq _ _ _ _ _ _ _ _ _ _ _ _).symm

end Cert.KernelIdeal.Val

end
-- ==== Proof.lean ====
/-
  Equivalence over the extended reals of a three-layer graph isomorphism network written with three kernel launches
  (two per-node perceptron launches and one launch that fuses the last perceptron with sum pooling by graph label and
  the readout) against its plain reference, for edge lists whose destination indices are non-negative.

  Frames: the two kernel programs run through their six items (three host stretches, three launches) with the buffer
  contents at every boundary named; no item writes an argument. The reference's frame is its run with the result dropped.
  Nothing was rewritten by the idealization, so the preservation claim is trivial.
  Value: the kernel's result buffer at the last boundary is the reference's last stage of the same arguments: each host
  stretch writes the reference's combine stage (a scatter-add into the self term is the self term plus a scatter-add into
  zeros; wrapping a non-negative index changes nothing), each launch leaves the two-layer perceptron over all rows, the last
  launch the pooled readout.
-/
import proofs.«420259_j2267742732765_3_alg».proof.Defs
import proofs.«420259_j2267742732765_3_alg».proof.Proof.Gen.Kernel
import proofs.«420259_j2267742732765_3_alg».proof.Proof.Gen.KernelIdeal
import proofs.«420259_j2267742732765_3_alg».proof.Proof.Gen.ReferenceIdeal
import proofs.«420259_j2267742732765_3_alg».proof.Proof.Gen.ReferenceIdeal.Run
import proofs.«420259_j2267742732765_3_alg».proof.Proof.Gen.ReferenceIdeal.Read
import proofs.«420259_j2267742732765_3_alg».proof.Proof.Gen.Pre_finite_inputs
import proofs.«420259_j2267742732765_3_alg».proof.Proof.K.Run
import proofs.«420259_j2267742732765_3_alg».proof.Proof.KI.Run
import proofs.«420259_j2267742732765_3_alg».proof.Proof.KV.Final
import proofs.«420259_j2267742732765_3_alg».proof.Proof.PreDst
import Idealize.ShloMosaic.Adequacy
import Idealize.ShloMosaic.Init

noncomputable section

namespace Cert.Proof

open Idealize.ShloMosaic Idealize.ShloMosaic.TcCoe Idealize.ShloMosaic.ValueIdx Idealize.SL.Sem

/-- The precondition gives the destination hypothesis the value proof is stated under. -/
theorem dstOk (m : (ℓ : Loc Cert.KernelIdeal.nD Cert.KernelIdeal.τ Cert.KernelIdeal.sig) → Buf (Elt Ideal) ℓ) (h : Cert.Pre_KernelIdeal (hPre_finite_inputs := Cert.Pre_finite_inputs.Gen.facts) m)
    (c : Dev Cert.KernelIdeal.nD) : Cert.KernelIdeal.Val.DstOk m c :=
  fun e => Cert.PreDst.dst_nonneg _ _ _ _ _ _ _ _ _ _ _ _ (h c) e

/-- The two idealized programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := fun m ρ m' ρ' hpre hagree =>
  ⟨fun c => Cert.KernelIdeal.Hand.W6 m ρ c (Proc.devRef .tc Cert.KernelIdeal.main_v102),
   MeshRun.mono (fun r h c =>
      ⟨h c _ (Cert.KernelIdeal.Hand.mem_uc Cert.KernelIdeal.main_v102 (by decide)),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c),
       (h c _ (Cert.KernelIdeal.Hand.mem_uc Cert.KernelIdeal.main_arg6 (by decide))).trans (Cert.KernelIdeal.Hand.W6_main_arg6 m ρ c),
       (h c _ (Cert.KernelIdeal.Hand.mem_uc Cert.KernelIdeal.main_arg7 (by decide))).trans (Cert.KernelIdeal.Hand.W6_main_arg7 m ρ c),
       (h c _ (Cert.KernelIdeal.Hand.mem_uc Cert.KernelIdeal.main_arg8 (by decide))).trans (Cert.KernelIdeal.Hand.W6_main_arg8 m ρ c),
       (h c _ (Cert.KernelIdeal.Hand.mem_uc Cert.KernelIdeal.main_arg9 (by decide))).trans (Cert.KernelIdeal.Hand.W6_main_arg9 m ρ c),
       (h c _ (Cert.KernelIdeal.Hand.mem_uc Cert.KernelIdeal.main_arg10 (by decide))).trans (Cert.KernelIdeal.Hand.W6_main_arg10 m ρ c),
       (h c _ (Cert.KernelIdeal.Hand.mem_uc Cert.KernelIdeal.main_arg11 (by decide))).trans (Cert.KernelIdeal.Hand.W6_main_arg11 m ρ c)⟩) (Cert.KernelIdeal.Hand.run_main (F := Ideal) m ρ),
   MeshRun.mono (fun r h c =>
      ⟨by
        rw [(h c).1, Cert.ReferenceIdeal.Read.val_main_v117_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
        exact (Cert.KernelIdeal.Val.result_eq m ρ c (dstOk m hpre c)).symm,
       (h c).2⟩) (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => MeshRun.mono (fun _ h c => (h c).2) (Cert.ReferenceIdeal.Value.run (F := Ideal) m ρ),
  trivial,
  algebraic⟩

end Cert.Proof

end
